-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000x3 : Shape := ⟨2, ![50000, 3]⟩
abbrev S800000x16 : Shape := ⟨2, ![800000, 16]⟩
abbrev S145x64 : Shape := ⟨2, ![145, 64]⟩
abbrev S64 : Shape := ⟨1, ![64]⟩
abbrev S64x64 : Shape := ⟨2, ![64, 64]⟩
abbrev S128x64 : Shape := ⟨2, ![128, 64]⟩
abbrev S64x3 : Shape := ⟨2, ![64, 3]⟩
abbrev S3 : Shape := ⟨1, ![3]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S800000x16 : S_.BroadcastsInDim S800000x16 (![] : Fin 0 → Fin S800000x16.rank)
  reducesTo_S800000x16_S_d0_1 : S800000x16.ReducesTo [0, 1] S_
  bcast_S_S145x64 : S_.BroadcastsInDim S145x64 (![] : Fin 0 → Fin S145x64.rank)
  reducesTo_S145x64_S_d0_1 : S145x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg1 : IVec S2x800000 32) (main_arg15 : FVec F S64x3 .f32) (main_arg16 : FVec F S3 .f32) (main_v63 : IVec S_ 1) (main_v67 : IVec S_ 1) : IVec S_ 1 :=
  let main_v68 : IVec S_ 1 := andi main_v63 main_v67
  let main_v69 : FVec F S64x3 .f32 := Host.absf main_arg15
  let main_cst_26 : FVec F S_ .f32 := constant S_ .f32 0x7F800000#32
  let main_v70 : FVec F S64x3 .f32 := broadcastInDim S64x3 ![] bcast_S_S64x3 main_cst_26
  let main_v71 : IVec S64x3 1 := cmpf .olt main_v69 main_v70
  let main_c_27 : IVec S_ 1 := constantI S_ 1 1#1
  let main_v72 : IVec S_ 1 := (fun x v => Host.reduce IntOp.andi x v reducesTo_S64x3_S_d0_1 h_S_) main_v71 main_c_27
  let main_v73 : IVec S_ 1 := andi main_v68 main_v72
  let main_v74 : FVec F S3 .f32 := Host.absf main_arg16
  let main_cst_28 : FVec F S_ .f32 := constant S_ .f32 0x7F800000#32
  let main_v75 : FVec F S3 .f32 := broadcastInDim S3 ![] bcast_S_S3 main_cst_28
  let main_v76 : IVec S3 1 := cmpf .olt main_v74 main_v75
  let main_c_29 : IVec S_ 1 := constantI S_ 1 1#1
  let main_v77 : IVec S_ 1 := (fun x v => Host.reduce IntOp.andi x v reducesTo_S3_S_d0 h_S_) main_v76 main_c_29
  let main_v78 : IVec S_ 1 := andi main_v73 main_v77
  let main_c_30 : IVec S_ 32 := constantI S_ 32 4294917296#32
  let main_v79 : IVec S2x800000 32 := broadcastInDim S2x800000 ![] bcast_S_S2x800000 main_c_30
  let main_v80 : IVec S2x800000 1 := cmpi .sge main_arg1 main_v79
  let main_c_31 : IVec S_ 32 := constantI S_ 32 50000#32
  let main_v81 : IVec S2x800000 32 := broadcastInDim S2x800000 ![] bcast_S_S2x800000 main_c_31
  let main_v82 : IVec S2x800000 1 := cmpi .slt main_arg1 main_v81
  let main_v83 : IVec S2x800000 1 := andi main_v80 main_v82
  let main_c_32 : IVec S_ 1 := constantI S_ 1 1#1
  let main_v84 : IVec S_ 1 := (fun x v => Host.reduce IntOp.andi x v reducesTo_S2x800000_S_d0_1 h_S_) main_v83 main_c_32
  fn_part5 (F := F) main_v78 main_v84

def fn_part3 {F : FTy → Type} [FloatOps F] (main_arg1 : IVec S2x800000 32) (main_arg12 : FVec F S64 .f32) (main_arg13 : FVec F S64x64 .f32) (main_arg14 : FVec F S64 .f32) (main_arg15 : FVec F S64x3 .f32) (main_arg16 : FVec F S3 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg15 main_arg16 main_v63 main_v67

def fn_part2 {F : FTy → Type} [FloatOps F] (main_arg1 : IVec S2x800000 32) (main_arg8 : FVec F S64 .f32) (main_arg9 : FVec F S128x64 .f32) (main_arg10 : FVec F S64 .f32) (main_arg11 : FVec F S64x64 .f32) (main_arg12 : FVec F S64 .f32) (main_arg13 : FVec F S64x64 .f32) (main_arg14 : FVec F S64 .f32) (main_arg15 : FVec F S64x3 .f32) (main_arg16 : FVec F S3 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg1 main_arg12 main_arg13 main_arg14 main_arg15 main_arg16 main_v48 main_v49 main_v50

def fn_part1 {F : FTy → Type} [FloatOps F] (main_arg1 : IVec S2x800000 32) (main_arg5 : FVec F S145x64 .f32) (main_arg6 : FVec F S64 .f32) (main_arg7 : FVec F S64x64 .f32) (main_arg8 : FVec F S64 .f32) (main_arg9 : FVec F S128x64 .f32) (main_arg10 : FVec F S64 .f32) (main_arg11 : FVec F S64x64 .f32) (main_arg12 : FVec F S64 .f32) (main_arg13 : FVec F S64x64 .f32) (main_arg14 : FVec F S64 .f32) (main_arg15 : FVec F S64x3 .f32) (main_arg16 : FVec F S3 .f32) (main_v13 : IVec S_ 1) (main_v16 : IVec S800000x16 1) : IVec S_ 1 :=
  let main_c_5 : IVec S_ 1 := constantI S_ 1 1#1
  let main_v17 : IVec S_ 1 := (fun x v => Host.reduce IntOp.andi x v reducesTo_S800000x16_S_d0_1 h_S_) main_v16 main_c_5
  let main_v18 : IVec S_ 1 := andi main_v13 main_v17
  let main_v19 : FVec F S145x64 .f32 := Host.absf main_arg5
  let main_cst_6 : FVec F S_ .f32 := constant S_ .f32 0x7F800000#32
  let main_v20 : FVec F S145x64 .f32 := broadcastInDim S145x64 ![] bcast_S_S145x64 main_cst_6
  let main_v21 : IVec S145x64 1 := cmpf .olt main_v19 main_v20
  let main_c_7 : IVec S_ 1 := constantI S_ 1 1#1
  let main_v22 : IVec S_ 1 := (fun x v => Host.reduce IntOp.andi x v reducesTo_S145x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S50000x64 .f32) (main_arg1 : IVec S2x800000 32) (main_arg2 : FVec F S50000x3 .f32) (main_arg3 : FVec F S50000x3 .f32) (main_arg4 : FVec F S800000x16 .f32) (main_arg5 : FVec F S145x64 .f32) (main_arg6 : FVec F S64 .f32) (main_arg7 : FVec F S64x64 .f32) (main_arg8 : FVec F S64 .f32) (main_arg9 : FVec F S128x64 .f32) (main_arg10 : FVec F S64 .f32) (main_arg11 : FVec F S64x64 .f32) (main_arg12 : FVec F S64 .f32) (main_arg13 : FVec F S64x64 .f32) (main_arg14 : FVec F S64 .f32) (main_arg15 : FVec F S64x3 .f32) (main_arg16 : FVec F S3 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg2
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S50000x3 .f32 := Host.absf main_arg3
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S800000x16 .f32 := Host.absf main_arg4
  let main_cst_4 : FVec F S_ .f32 := constant S_ .f32 0x7F800000#32
  let main_v15 : FVec F S800000x16 .f32 := broadcastInDim S800000x16 ![] bcast_S_S800000x16 main_cst_4
  let main_v16 : IVec S800000x16 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S2x800000 : Shape := ⟨2, ![2, 800000]⟩
abbrev S50000x3 : Shape := ⟨2, ![50000, 3]⟩
abbrev S800000x16 : Shape := ⟨2, ![800000, 16]⟩
abbrev S145x64 : Shape := ⟨2, ![145, 64]⟩
abbrev S64 : Shape := ⟨1, ![64]⟩
abbrev S64x64 : Shape := ⟨2, ![64, 64]⟩
abbrev S128x64 : Shape := ⟨2, ![128, 64]⟩
abbrev S64x3 : Shape := ⟨2, ![64, 3]⟩
abbrev S3 : Shape := ⟨1, ![3]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S800000x3 : Shape := ⟨2, ![800000, 3]⟩
abbrev S800000x17 : Shape := ⟨2, ![800000, 17]⟩
abbrev S800000x4 : Shape := ⟨2, ![800000, 4]⟩
abbrev S1x64 : Shape := ⟨2, ![1, 64]⟩
abbrev S1x3 : Shape := ⟨2, ![1, 3]⟩
abbrev S3200x64 : Shape := ⟨2, ![3200, 64]⟩
abbrev S3200x17 : Shape := ⟨2, ![3200, 17]⟩
abbrev S3200x4 : Shape := ⟨2, ![3200, 4]⟩
abbrev S3200x3 : Shape := ⟨2, ![3200, 3]⟩
abbrev S3200x145 : Shape := ⟨2, ![3200, 145]⟩
abbrev S3200x1 : Shape := ⟨2, ![3200, 1]⟩
abbrev S50000x1 : Shape := ⟨2, ![50000, 1]⟩
abbrev S5000x64 : Shape := ⟨2, ![5000, 64]⟩
abbrev S5000x128 : Shape := ⟨2, ![5000, 128]⟩

abbrev nBuf : Space → Nat
  | .hbm => 200
  | .vmem => 30
  | .smem => 0
  | _ => 0

abbrev hbmTy0_0 (i : Nat) : BufTy := match i % 128 with
  | 0 => ⟨S50000x64, .f32⟩
  | 1 => ⟨S2x800000, .i32⟩
  | 2 => ⟨S50000x3, .f32⟩
  | 3 => ⟨S50000x3, .f32⟩
  | 4 => ⟨S800000x16, .f32⟩
  | 5 => ⟨S145x64, .f32⟩
  | 6 => ⟨S64, .f32⟩
  | 7 => ⟨S64x64, .f32⟩
  | 8 => ⟨S64, .f32⟩
  | 9 => ⟨S128x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x3, .f32⟩
  | 16 => ⟨S3, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S1, .i32⟩
  | 30 => ⟨S_, .i32⟩
  | 31 => ⟨S800000x1, .i32⟩
  | 32 => ⟨S800000x1, .i1⟩
  | 33 => ⟨S1x1, .i32⟩
  | 34 => ⟨S800000x1, .i32⟩
  | 35 => ⟨S800000x1, .i1⟩
  | 36 => ⟨S800000x1, .i1⟩
  | 37 => ⟨S_, .i1⟩
  | 38 => ⟨S800000, .i1⟩
  | 39 => ⟨S800000x64, .f32⟩
  | 40 => ⟨S800000x64, .i1⟩
  | 41 => ⟨S_, .f32⟩
  | 42 => ⟨S800000x64, .f32⟩
  | 43 => ⟨S800000x64, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S1, .i32⟩
  | 53 => ⟨S_, .i32⟩
  | 54 => ⟨S800000x1, .i32⟩
  | 55 => ⟨S800000x1, .i1⟩
  | 56 => ⟨S1x1, .i32⟩
  | 57 => ⟨S800000x1, .i32⟩
  | 58 => ⟨S800000x1, .i1⟩
  | 59 => ⟨S800000x1, .i1⟩
  | 60 => ⟨S_, .i1⟩
  | 61 => ⟨S800000, .i1⟩
  | 62 => ⟨S800000x64, .f32⟩
  | 63 => ⟨S800000x64, .i1⟩
  | 64 => ⟨S_, .f32⟩
  | 65 => ⟨S800000x64, .f32⟩
  | 66 => ⟨S800000x64, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S1, .i32⟩
  | 76 => ⟨S_, .i32⟩
  | 77 => ⟨S800000x1, .i32⟩
  | 78 => ⟨S800000x1, .i1⟩
  | 79 => ⟨S1x1, .i32⟩
  | 80 => ⟨S800000x1, .i32⟩
  | 81 => ⟨S800000x1, .i1⟩
  | 82 => ⟨S800000x1, .i1⟩
  | 83 => ⟨S_, .i1⟩
  | 84 => ⟨S800000, .i1⟩
  | 85 => ⟨S800000x3, .f32⟩
  | 86 => ⟨S800000x3, .i1⟩
  | 87 => ⟨S_, .f32⟩
  | 88 => ⟨S800000x3, .f32⟩
  | 89 => ⟨S800000x3, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S1, .i32⟩
  | 99 => ⟨S_, .i32⟩
  | 100 => ⟨S800000x1, .i32⟩
  | 101 => ⟨S800000x1, .i1⟩
  | 102 => ⟨S1x1, .i32⟩
  | 103 => ⟨S800000x1, .i32⟩
  | 104 => ⟨S800000x1, .i1⟩
  | 105 => ⟨S800000x1, .i1⟩
  | 106 => ⟨S_, .i1⟩
  | 107 => ⟨S800000, .i1⟩
  | 108 => ⟨S800000x3, .f32⟩
  | 109 => ⟨S800000x3, .i1⟩
  | 110 => ⟨S_, .f32⟩
  | 111 => ⟨S800000x3, .f32⟩
  | 112 => ⟨S800000x3, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S1, .i32⟩
  | 122 => ⟨S_, .i32⟩
  | 123 => ⟨S800000x1, .i32⟩
  | 124 => ⟨S800000x1, .i1⟩
  | 125 => ⟨S1x1, .i32⟩
  | 126 => ⟨S800000x1, .i32⟩
  | 127 => ⟨S800000x1, .i1⟩
  | _ => ⟨S50000x64, .f32⟩

abbrev hbmTy0_1 (i : Nat) : BufTy := match i % 128 with
  | 0 => ⟨S800000x1, .i1⟩
  | 1 => ⟨S_, .i1⟩
  | 2 => ⟨S800000, .i1⟩
  | 3 => ⟨S800000x3, .f32⟩
  | 4 => ⟨S800000x3, .i1⟩
  | 5 => ⟨S_, .f32⟩
  | 6 => ⟨S800000x3, .f32⟩
  | 7 => ⟨S800000x3, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S1, .i32⟩
  | 17 => ⟨S_, .i32⟩
  | 18 => ⟨S800000x1, .i32⟩
  | 19 => ⟨S800000x1, .i1⟩
  | 20 => ⟨S1x1, .i32⟩
  | 21 => ⟨S800000x1, .i32⟩
  | 22 => ⟨S800000x1, .i1⟩
  | 23 => ⟨S800000x1, .i1⟩
  | 24 => ⟨S_, .i1⟩
  | 25 => ⟨S800000, .i1⟩
  | 26 => ⟨S800000x3, .f32⟩
  | 27 => ⟨S800000x3, .i1⟩
  | 28 => ⟨S_, .f32⟩
  | 29 => ⟨S800000x3, .f32⟩
  | 30 => ⟨S800000x3, .f32⟩
  | 31 => ⟨S800000x3, .f32⟩
  | 32 => ⟨S800000x3, .f32⟩
  | 33 => ⟨S_, .f32⟩
  | 34 => ⟨S800000, .f32⟩
  | 35 => ⟨S800000x1, .f32⟩
  | 36 => ⟨S800000x3, .f32⟩
  | 37 => ⟨S800000x3, .f32⟩
  | 38 => ⟨S_, .f32⟩
  | 39 => ⟨S800000, .f32⟩
  | 40 => ⟨S800000x1, .f32⟩
  | 41 => ⟨S800000x1, .f32⟩
  | 42 => ⟨S800000x17, .f32⟩
  | 43 => ⟨S800000x4, .f32⟩
  | 44 => ⟨S1x64, .f32⟩
  | 45 => ⟨S1x64, .f32⟩
  | 46 => ⟨S1x64, .f32⟩
  | 47 => ⟨S1x3, .f32⟩
  | 48 => ⟨S1x64, .f32⟩
  | 49 => ⟨S1x64, .f32⟩
  | 50 => ⟨S800000x64, .f32⟩
  | 51 => ⟨S800000x3, .f32⟩
  | 52 => ⟨S_, .f32⟩
  | 53 => ⟨S50000x64, .f32⟩
  | 54 => ⟨S800000x1, .i32⟩
  | 55 => ⟨S50000x64, .f32⟩
  | 56 => ⟨S_, .f32⟩
  | 57 => ⟨S800000x1, .f32⟩
  | 58 => ⟨S_, .f32⟩
  | 59 => ⟨S50000x1, .f32⟩
  | 60 => ⟨S800000x1, .i32⟩
  | 61 => ⟨S50000x1, .f32⟩
  | 62 => ⟨S_, .f32⟩
  | 63 => ⟨S50000x1, .f32⟩
  | 64 => ⟨S50000x1, .f32⟩
  | 65 => ⟨S50000x64, .f32⟩
  | 66 => ⟨S50000x64, .f32⟩
  | 67 => ⟨S50000x64, .f32⟩
  | 68 => ⟨S_, .f32⟩
  | 69 => ⟨S50000x3, .f32⟩
  | 70 => ⟨S800000x1, .i32⟩
  | 71 => ⟨S50000x3, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S3200x64, .f32⟩
  | .local _ .vmem, ⟨1, _⟩ => ⟨S3200x64, .f32⟩
  | .local _ .vmem, ⟨2, _⟩ => ⟨S3200x64, .f32⟩
  | .local _ .vmem, ⟨3, _⟩ => ⟨S3200x64, .f32⟩
  | .local _ .vmem, ⟨4, _⟩ => ⟨S3200x17, .f32⟩
  | .local _ .vmem, ⟨5, _⟩ => ⟨S3200x17, .f32⟩
  | .local _ .vmem, ⟨6, _⟩ => ⟨S3200x4, .f32⟩
  | .local _ .vmem, ⟨7, _⟩ => ⟨S3200x4, .f32⟩
  | .local _ .vmem, ⟨8, _⟩ => ⟨S145x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S64x3, .f32⟩
  | .local _ .vmem, ⟨15, _⟩ => ⟨S1x3, .f32⟩
  | .local _ .vmem, ⟨16, _⟩ => ⟨S3200x64, .f32⟩
  | .local _ .vmem, ⟨17, _⟩ => ⟨S3200x64, .f32⟩
  | .local _ .vmem, ⟨18, _⟩ => ⟨S3200x3, .f32⟩
  | .local _ .vmem, ⟨19, _⟩ => ⟨S3200x3, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S128x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v4 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v5 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v6 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_cst : Ref sig .tc := ⟨.hbm, 110, rfl⟩
abbrev main_call3_v15 : Ref sig .tc := ⟨.hbm, 111, rfl⟩
abbrev main_v7 : Ref sig .tc := ⟨.hbm, 112, rfl⟩
abbrev main_call4_c : Ref sig .tc := ⟨.hbm, 113, rfl⟩
abbrev main_call4_v0 : Ref sig .tc := ⟨.hbm, 114, rfl⟩
abbrev main_call4_v1 : Ref sig .tc := ⟨.hbm, 115, rfl⟩
abbrev main_call4_c_0 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_c_1 : Ref sig .tc := ⟨.hbm, 121, rfl⟩
abbrev main_call4_c_2 : Ref sig .tc := ⟨.hbm, 122, rfl⟩
abbrev main_call4_v6 : Ref sig .tc := ⟨.hbm, 123, rfl⟩
abbrev main_call4_v7 : Ref sig .tc := ⟨.hbm, 124, rfl⟩
abbrev main_call4_v8 : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_call4_c_3 : Ref sig .tc := ⟨.hbm, 129, rfl⟩
abbrev main_call4_v12 : Ref sig .tc := ⟨.hbm, 130, rfl⟩
abbrev main_call4_v13 : Ref sig .tc := ⟨.hbm, 131, rfl⟩
abbrev main_call4_v14 : Ref sig .tc := ⟨.hbm, 132, rfl⟩
abbrev main_call4_cst : Ref sig .tc := ⟨.hbm, 133, rfl⟩
abbrev main_call4_v15 : Ref sig .tc := ⟨.hbm, 134, rfl⟩
abbrev main_v8 : Ref sig .tc := ⟨.hbm, 135, rfl⟩
abbrev main_call5_c : Ref sig .tc := ⟨.hbm, 136, rfl⟩
abbrev main_call5_v0 : Ref sig .tc := ⟨.hbm, 137, rfl⟩
abbrev main_call5_v1 : Ref sig .tc := ⟨.hbm, 138, rfl⟩
abbrev main_call5_c_0 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_call5_v5 : Ref sig .tc := ⟨.hbm, 143, rfl⟩
abbrev main_call5_c_1 : Ref sig .tc := ⟨.hbm, 144, rfl⟩
abbrev main_call5_c_2 : Ref sig .tc := ⟨.hbm, 145, rfl⟩
abbrev main_call5_v6 : Ref sig .tc := ⟨.hbm, 146, rfl⟩
abbrev main_call5_v7 : Ref sig .tc := ⟨.hbm, 147, rfl⟩
abbrev main_call5_v8 : Ref sig .tc := ⟨.hbm, 148, rfl⟩
abbrev main_call5_v9 : Ref sig .tc := ⟨.hbm, 149, rfl⟩
abbrev main_call5_v10 : Ref sig .tc := ⟨.hbm, 150, rfl⟩
abbrev main_call5_v11 : Ref sig .tc := ⟨.hbm, 151, rfl⟩
abbrev main_call5_c_3 : Ref sig .tc := ⟨.hbm, 152, rfl⟩
abbrev main_call5_v12 : Ref sig .tc := ⟨.hbm, 153, rfl⟩
abbrev main_call5_v13 : Ref sig .tc := ⟨.hbm, 154, rfl⟩
abbrev main_call5_v14 : Ref sig .tc := ⟨.hbm, 155, rfl⟩
abbrev main_call5_cst : Ref sig .tc := ⟨.hbm, 156, rfl⟩
abbrev main_call5_v15 : Ref sig .tc := ⟨.hbm, 157, rfl⟩
abbrev main_v9 : Ref sig .tc := ⟨.hbm, 158, rfl⟩
abbrev main_v10 : Ref sig .tc := ⟨.hbm, 159, rfl⟩
abbrev main_v11 : Ref sig .tc := ⟨.hbm, 160, rfl⟩
abbrev main_cst : Ref sig .tc := ⟨.hbm, 161, rfl⟩
abbrev main_v12 : Ref sig .tc := ⟨.hbm, 162, rfl⟩
abbrev main_v13 : Ref sig .tc := ⟨.hbm, 163, rfl⟩
abbrev main_v14 : Ref sig .tc := ⟨.hbm, 164, rfl⟩
abbrev main_v15 : Ref sig .tc := ⟨.hbm, 165, rfl⟩
abbrev main_cst_0 : Ref sig .tc := ⟨.hbm, 166, rfl⟩
abbrev main_v16 : Ref sig .tc := ⟨.hbm, 167, rfl⟩
abbrev main_v17 : Ref sig .tc := ⟨.hbm, 168, rfl⟩
abbrev main_v18 : Ref sig .tc := ⟨.hbm, 169, rfl⟩
abbrev main_v19 : Ref sig .tc := ⟨.hbm, 170, rfl⟩
abbrev main_v20 : Ref sig .tc := ⟨.hbm, 171, rfl⟩
abbrev main_v21 : Ref sig .tc := ⟨.hbm, 172, rfl⟩
abbrev main_v22 : Ref sig .tc := ⟨.hbm, 173, rfl⟩
abbrev main_v23 : Ref sig .tc := ⟨.hbm, 174, rfl⟩
abbrev main_v24 : Ref sig .tc := ⟨.hbm, 175, rfl⟩
abbrev main_v25 : Ref sig .tc := ⟨.hbm, 176, rfl⟩
abbrev main_v26 : Ref sig .tc := ⟨.hbm, 177, rfl⟩
abbrev main_v27_0 : Ref sig .tc := ⟨.hbm, 178, rfl⟩
abbrev main_v27_1 : Ref sig .tc := ⟨.hbm, 179, rfl⟩
abbrev main_cst_1 : Ref sig .tc := ⟨.hbm, 180, rfl⟩
abbrev main_v28 : Ref sig .tc := ⟨.hbm, 181, rfl⟩
abbrev main_v29 : Ref sig .tc := ⟨.hbm, 182, rfl⟩
abbrev main_v30 : Ref sig .tc := ⟨.hbm, 183, rfl⟩
abbrev main_cst_2 : Ref sig .tc := ⟨.hbm, 184, rfl⟩
abbrev main_v31 : Ref sig .tc := ⟨.hbm, 185, rfl⟩
abbrev main_cst_3 : Ref sig .tc := ⟨.hbm, 186, rfl⟩
abbrev main_v32 : Ref sig .tc := ⟨.hbm, 187, rfl⟩
abbrev main_v33 : Ref sig .tc := ⟨.hbm, 188, rfl⟩
abbrev main_v34 : Ref sig .tc := ⟨.hbm, 189, rfl⟩
abbrev main_cst_4 : Ref sig .tc := ⟨.hbm, 190, rfl⟩
abbrev main_v35 : Ref sig .tc := ⟨.hbm, 191, rfl⟩
abbrev main_v36 : Ref sig .tc := ⟨.hbm, 192, rfl⟩
abbrev main_v37 : Ref sig .tc := ⟨.hbm, 193, rfl⟩
abbrev main_v38 : Ref sig .tc := ⟨.hbm, 194, rfl⟩
abbrev main_v39 : Ref sig .tc := ⟨.hbm, 195, rfl⟩
abbrev main_cst_5 : Ref sig .tc := ⟨.hbm, 196, rfl⟩
abbrev main_v40 : Ref sig .tc := ⟨.hbm, 197, rfl⟩
abbrev main_v41 : Ref sig .tc := ⟨.hbm, 198, rfl⟩
abbrev main_v42 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem6_1 : DmaSem sig := 29

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x17 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S145x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S3200x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3200x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S800000_S800000x3_0 : S800000.BroadcastsInDim S800000x3 (![0] : Fin 1 → Fin S800000x3.rank)
  bcast_S_S800000x3 : S_.BroadcastsInDim S800000x3 (![] : Fin 0 → Fin S800000x3.rank)
  reducesTo_S800000x3_S800000_d1 : S800000x3.ReducesTo [1] S800000
  concatenates_S800000x1_S800000x16_S800000x17_d1 : Shape.Concatenates [S800000x1, S800000x16] S800000x17 1
  concatenates_S800000x3_S800000x1_S800000x4_d1 : Shape.Concatenates [S800000x3, S800000x1] S800000x4 1
  shapeCasts_S64_S1x64 : S64.ShapeCasts S1x64
  shapeCasts_S3_S1x3 : S3.ShapeCasts S1x3
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S3200x17_S3200x17_0_0 : ∀ a, (![0, 0] : Fin 2 → Nat) a + S3200x17.size a ≤ S3200x17.size a
  h_S3200x17 : 0 < S3200x17.numel
  shapeCasts_S3200x17_S3200x17 : S3200x17.ShapeCasts S3200x17
  inb_S3200x4_S3200x4_0_0 : ∀ a, (![0, 0] : Fin 2 → Nat) a + S3200x4.size a ≤ S3200x4.size a
  h_S3200x4 : 0 < S3200x4.numel
  shapeCasts_S3200x4_S3200x4 : S3200x4.ShapeCasts S3200x4
  concatenates_S3200x64_S3200x64_S3200x17_S3200x145_d1 : Shape.Concatenates [S3200x64, S3200x64, S3200x17] S3200x145 1
  bitsLt_bf16_f32 : FTy.bits .bf16 < FTy.bits .f32
  inb_S145x64_S145x64_0_0 : ∀ a, (![0, 0] : Fin 2 → Nat) a + S145x64.size a ≤ S145x64.size a
  h_S145x64 : 0 < S145x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  inb_S64x64_S64x64_0_0 : ∀ a, (![0, 0] : Fin 2 → Nat) a + S64x64.size a ≤ S64x64.size a
  h_S64x64 : 0 < S64x64.numel
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S3200x3 : S1x3.Broadcasts S3200x3
  slices_S3200x4_o0_0_S3200x3 : S3200x4.Slices ![0, 0] S3200x3
  slices_S3200x4_o0_3_S3200x1 : S3200x4.Slices ![0, 3] S3200x1
  broadcasts_S3200x1_S3200x3 : S3200x1.Broadcasts S3200x3
  inb_S3200x3_S3200x3_0_0 : ∀ a, (![0, 0] : Fin 2 → Nat) a + S3200x3.size a ≤ S3200x3.size a
  h_S3200x3 : 0 < S3200x3.numel
  bcast_S_S50000x64 : S_.BroadcastsInDim S50000x64 (![] : Fin 0 → Fin S50000x64.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  broadcasts_S1x64_S5000x64 : S1x64.Broadcasts S5000x64
  bcast_S_S50000x3 : S_.BroadcastsInDim S50000x3 (![] : Fin 0 → Fin S50000x3.rank)
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  dot_S3200x145_S145x64_S3200x64_1_0_0_1_n_n_wf : DotDims.WF S3200x145 S145x64 S3200x64 [1] [0] [0] [1] [] []
  dot_S3200x64_S64x64_S3200x64_1_0_0_1_n_n_wf : DotDims.WF S3200x64 S64x64 S3200x64 [1] [0] [0] [1] [] []
  dot_S3200x64_S64x3_S3200x3_1_0_0_1_n_n_wf : DotDims.WF S3200x64 S64x3 S3200x3 [1] [0] [0] [1] [] []
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  scatter_S50000x3_S800000x1_S800000x3_1_0_0_1_wf : ScatterDims.WF S50000x3 S800000x1 S800000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S800000x64.size a
  hwx0_0 : ∀ i : grid0.Coords, EltTy.bits .f32 = 32 ∨ (Rect.block (s := S800000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S800000x64.size a
  hwx0_1 : ∀ i : grid0.Coords, EltTy.bits .f32 = 32 ∨ (Rect.block (s := S800000x64) S3200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x17.size a ≤ S800000x17.size a
  hwx0_2 : ∀ i : grid0.Coords, EltTy.bits .f32 = 32 ∨ (Rect.block (s := S800000x17) S3200x17.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x4.size a ≤ S800000x4.size a
  hwx0_3 : ∀ i : grid0.Coords, EltTy.bits .f32 = 32 ∨ (Rect.block (s := S800000x4) S3200x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S145x64.size a ≤ S145x64.size a
  hwx0_4 : ∀ i : grid0.Coords, EltTy.bits .f32 = 32 ∨ (Rect.block (s := S145x64) S145x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x3.size a ≤ S64x3.size a
  hwx0_10 : ∀ i : grid0.Coords, EltTy.bits .f32 = 32 ∨ (Rect.block (s := S64x3) S64x3.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x3.size a ≤ S1x3.size a
  hwx0_11 : ∀ i : grid0.Coords, EltTy.bits .f32 = 32 ∨ (Rect.block (s := S1x3) S1x3.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3200x64.size a ≤ S800000x64.size a
  hwx0_12 : ∀ i : grid0.Coords, EltTy.bits .f32 = 32 ∨ (Rect.block (s := S800000x64) S3200x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S3200x3.size a ≤ S800000x3.size a
  hwx0_13 : ∀ i : grid0.Coords, EltTy.bits .f32 = 32 ∨ (Rect.block (s := S800000x3) S3200x3.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S3200x145_S145x64_S3200x64_1_0_0_1_n_n : DotDims S3200x145 S145x64 S3200x64 where
  lhsContracting := [1]
  rhsContracting := [0]
  lhsNonContracting := [0]
  rhsNonContracting := [1]
  lhsBatch := []
  rhsBatch := []
  wf := dot_S3200x145_S145x64_S3200x64_1_0_0_1_n_n_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def dot_S3200x64_S64x3_S3200x3_1_0_0_1_n_n : DotDims S3200x64 S64x3 S3200x3 where
  lhsContracting := [1]
  rhsContracting := [0]
  lhsNonContracting := [0]
  rhsNonContracting := [1]
  lhsBatch := []
  rhsBatch := []
  wf := dot_S3200x64_S64x3_S3200x3_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

abbrev win0_0 : Pipeline.Window sig grid0 :=
  Pipeline.Window.ofSpec (Memref.whole main_v4) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S3200x17.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S3200x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S145x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg15) S64x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24) S1x3.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v27_0) S3200x64.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v27_1) S3200x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000x3 : Shape := ⟨2, ![50000, 3]⟩
abbrev S800000x16 : Shape := ⟨2, ![800000, 16]⟩
abbrev S145x64 : Shape := ⟨2, ![145, 64]⟩
abbrev S64 : Shape := ⟨1, ![64]⟩
abbrev S64x64 : Shape := ⟨2, ![64, 64]⟩
abbrev S128x64 : Shape := ⟨2, ![128, 64]⟩
abbrev S64x3 : Shape := ⟨2, ![64, 3]⟩
abbrev S3 : Shape := ⟨1, ![3]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x64 : Shape := ⟨2, ![800000, 64]⟩
abbrev S800000x145 : Shape := ⟨2, ![800000, 145]⟩
abbrev S1x64 : Shape := ⟨2, ![1, 64]⟩
abbrev S50000x1 : Shape := ⟨2, ![50000, 1]⟩
abbrev S50000x128 : Shape := ⟨2, ![50000, 128]⟩
abbrev S1x3 : Shape := ⟨2, ![1, 3]⟩

abbrev nBuf : Space → Nat
  | .hbm => 143
  | .vmem => 0
  | .smem => 0
  | _ => 0

abbrev hbmTy0_0 (i : Nat) : BufTy := match i % 128 with
  | 0 => ⟨S50000x64, .f32⟩
  | 1 => ⟨S2x800000, .i32⟩
  | 2 => ⟨S50000x3, .f32⟩
  | 3 => ⟨S50000x3, .f32⟩
  | 4 => ⟨S800000x16, .f32⟩
  | 5 => ⟨S145x64, .f32⟩
  | 6 => ⟨S64, .f32⟩
  | 7 => ⟨S64x64, .f32⟩
  | 8 => ⟨S64, .f32⟩
  | 9 => ⟨S128x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x3, .f32⟩
  | 16 => ⟨S3, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x3, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x3, .f32⟩
  | 39 => ⟨S800000x3, .f32⟩
  | 40 => ⟨S800000x3, .f32⟩
  | 41 => ⟨S_, .f32⟩
  | 42 => ⟨S800000, .f32⟩
  | 43 => ⟨S800000x1, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x3, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x3, .f32⟩
  | 62 => ⟨S800000x3, .f32⟩
  | 63 => ⟨S800000x3, .f32⟩
  | 64 => ⟨S_, .f32⟩
  | 65 => ⟨S800000, .f32⟩
  | 66 => ⟨S800000x1, .f32⟩
  | 67 => ⟨S800000x1, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x64, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x64, .f32⟩
  | 86 => ⟨S800000x145, .f32⟩
  | 87 => ⟨S800000x64, .f32⟩
  | 88 => ⟨S1x64, .f32⟩
  | 89 => ⟨S800000x64, .f32⟩
  | 90 => ⟨S800000x64, .f32⟩
  | 91 => ⟨S_, .f32⟩
  | 92 => ⟨S800000x64, .f32⟩
  | 93 => ⟨S800000x64, .f32⟩
  | 94 => ⟨S800000x64, .f32⟩
  | 95 => ⟨S1x64, .f32⟩
  | 96 => ⟨S800000x64, .f32⟩
  | 97 => ⟨S800000x64, .f32⟩
  | 98 => ⟨S_, .f32⟩
  | 99 => ⟨S50000x64, .f32⟩
  | 100 => ⟨S800000x1, .i32⟩
  | 101 => ⟨S50000x64, .f32⟩
  | 102 => ⟨S_, .f32⟩
  | 103 => ⟨S800000x1, .f32⟩
  | 104 => ⟨S_, .f32⟩
  | 105 => ⟨S50000x1, .f32⟩
  | 106 => ⟨S800000x1, .i32⟩
  | 107 => ⟨S50000x1, .f32⟩
  | 108 => ⟨S_, .f32⟩
  | 109 => ⟨S50000x1, .f32⟩
  | 110 => ⟨S50000x1, .f32⟩
  | 111 => ⟨S50000x64, .f32⟩
  | 112 => ⟨S50000x64, .f32⟩
  | 113 => ⟨S50000x128, .f32⟩
  | 114 => ⟨S50000x64, .f32⟩
  | 115 => ⟨S1x64, .f32⟩
  | 116 => ⟨S50000x64, .f32⟩
  | 117 => ⟨S50000x64, .f32⟩
  | 118 => ⟨S_, .f32⟩
  | 119 => ⟨S50000x64, .f32⟩
  | 120 => ⟨S50000x64, .f32⟩
  | 121 => ⟨S50000x64, .f32⟩
  | 122 => ⟨S1x64, .f32⟩
  | 123 => ⟨S50000x64, .f32⟩
  | 124 => ⟨S50000x64, .f32⟩
  | 125 => ⟨S800000x64, .f32⟩
  | 126 => ⟨S1x64, .f32⟩
  | 127 => ⟨S800000x64, .f32⟩
  | _ => ⟨S50000x64, .f32⟩

abbrev hbmTy0_1 (i : Nat) : BufTy := match i % 128 with
  | 0 => ⟨S800000x64, .f32⟩
  | 1 => ⟨S_, .f32⟩
  | 2 => ⟨S800000x64, .f32⟩
  | 3 => ⟨S800000x64, .f32⟩
  | 4 => ⟨S800000x3, .f32⟩
  | 5 => ⟨S1x3, .f32⟩
  | 6 => ⟨S800000x3, .f32⟩
  | 7 => ⟨S800000x3, .f32⟩
  | 8 => ⟨S800000x3, .f32⟩
  | 9 => ⟨S800000x3, .f32⟩
  | 10 => ⟨S800000x3, .f32⟩
  | 11 => ⟨S_, .f32⟩
  | 12 => ⟨S50000x3, .f32⟩
  | 13 => ⟨S800000x1, .i32⟩
  | 14 => ⟨S50000x3, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_8 : Ref sig .tc := ⟨.hbm, 68, rfl⟩
abbrev main_v41 : Ref sig .tc := ⟨.hbm, 69, rfl⟩
abbrev main_v42 : Ref sig .tc := ⟨.hbm, 70, rfl⟩
abbrev main_c_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_10 : Ref sig .tc := ⟨.hbm, 77, rfl⟩
abbrev main_v48 : Ref sig .tc := ⟨.hbm, 78, rfl⟩
abbrev main_v49 : Ref sig .tc := ⟨.hbm, 79, rfl⟩
abbrev main_c_11 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call0_cst : Ref sig .tc := ⟨.hbm, 91, rfl⟩
abbrev main_call0_v0 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_15 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_call1_cst : Ref sig .tc := ⟨.hbm, 118, rfl⟩
abbrev main_call1_v0 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_call2_cst : Ref sig .tc := ⟨.hbm, 129, rfl⟩
abbrev main_call2_v0 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_16 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x64_S800000x64_S800000x1_S800000x16_S800000x145_d1 : Shape.Concatenates [S800000x64, S800000x64, S800000x1, S800000x16] S800000x145 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  bcast_S3_S1x3_1 : S3.BroadcastsInDim S1x3 (![1] : Fin 1 → Fin S1x3.rank)
  bcast_S1x3_S800000x3_0_1 : S1x3.BroadcastsInDim S800000x3 (![0, 1] : Fin 2 → Fin S800000x3.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  gather_S50000x3_S800000x1_S800000x3_1_0_n_n_0_1_13_wf : GatherDims.WF S50000x3 S800000x1 S800000x3 [1] [0] [] [0] [] 1 ![1, 3]
  gather_S50000x64_S800000x1_S800000x64_1_0_n_n_0_1_164_wf : GatherDims.WF S50000x64 S800000x1 S800000x64 [1] [0] [] [0] [] 1 ![1, 64]
  dot_S800000x145_S145x64_S800000x64_1_0_0_1_n_n_wf : DotDims.WF S800000x145 S145x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  dot_S800000x64_S64x3_S800000x3_1_0_0_1_n_n_wf : DotDims.WF S800000x64 S64x3 S800000x3 [1] [0] [0] [1] [] []
  scatter_S50000x3_S800000x1_S800000x3_1_0_0_1_wf : ScatterDims.WF S50000x3 S800000x1 S800000x3 [1] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x145_S145x64_S800000x64_1_0_0_1_n_n : DotDims S800000x145 S145x64 S800000x64 where
  lhsContracting := [1]
  rhsContracting := [0]
  lhsNonContracting := [0]
  rhsNonContracting := [1]
  lhsBatch := []
  rhsBatch := []
  wf := dot_S800000x145_S145x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x64_S64x3_S800000x3_1_0_0_1_n_n : DotDims S800000x64 S64x3 S800000x3 where
  lhsContracting := [1]
  rhsContracting := [0]
  lhsNonContracting := [0]
  rhsNonContracting := [1]
  lhsBatch := []
  rhsBatch := []
  wf := dot_S800000x64_S64x3_S800000x3_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.Layer.lean ====
/-
  One message-passing layer, index by index, over the extended reals.

  For an edge `e` with source row `a0 e`, destination row `a1 e` (64 numbers each) and 17 further numbers
  `a2 e` (the squared distance, then 16 edge attributes), the 145 features are these three rows side by side.
  The message is `relu(feat · W1 + b1) · W2 + b2` (64 numbers); the coordinate weight is
  `relu(msg · C1 + cb1) · C2 + cb2` (3 numbers); the coordinate update of axis `j` is
  `a3 e j · weight e j / a3 e 3` where `a3 e` holds the initial displacement (3 numbers) and its length.
  For a node `v` with features `x v` and aggregated message `mi v` the new features are
  `relu([x v, mi v] · N1 + nb1) · N2 + nb2`.
  Every definition reads ONE row of each row-indexed array, so a block of rows of the result is the same
  function of the corresponding block of rows of the inputs (`*_rows`).
-/
import Idealize.ShloMosaic.PureOps.Ideal
import Idealize.ShloMosaic.Lib.ValueIdx

noncomputable section

open scoped BigOperators

namespace Cert.Layer

open Idealize.ShloMosaic Idealize.ShloMosaic.ValueIdx

/-- An `r × c` array of extended reals. -/
abbrev Mat (r c : Nat) := FVec Ideal (⟨2, ![r, c]⟩ : Shape) .f32

/-- `a · W + b` at column `j`: a row of `K` numbers through a `K × J` matrix, plus a `1 × J` bias. -/
def affine {K J : Nat} (a : Fin K → EReal) (W : Mat K J) (b : Mat 1 J) (j : Fin J) : EReal :=
  (∑ k : Fin K, a k * W (ix2 k j)) + b (ix2 (0 : Fin 1) j)

/-- Two dense layers with a `max(·, 0)` between them, at output column `j`. -/
def mlp {K H J : Nat} (a : Fin K → EReal) (W1 : Mat K H) (b1 : Mat 1 H) (W2 : Mat H J) (b2 : Mat 1 J) (j : Fin J) : EReal :=
  affine (fun k => max (affine a W1 b1 k) 0) W2 b2 j

/-- Three rows side by side: 64 + 64 + 17 numbers. -/
def feat {n : Nat} (a0 a1 : Mat n 64) (a2 : Mat n 17) (e : Fin n) (k : Fin 145) : EReal :=
  if h : k.val < 64 then a0 (ix2 e ⟨k.val, h⟩)
  else if h' : k.val < 128 then a1 (ix2 e ⟨k.val - 64, by omega⟩)
  else a2 (ix2 e ⟨k.val - 128, by omega⟩)

/-- Two rows side by side: 64 + 64 numbers. -/
def pair {n : Nat} (x mi : Mat n 64) (v : Fin n) (k : Fin 128) : EReal :=
  if h : k.val < 64 then x (ix2 v ⟨k.val, h⟩) else mi (ix2 v ⟨k.val - 64, by omega⟩)

/-- The message of edge `e`, column `j`. -/
def msg {n : Nat} (a0 a1 : Mat n 64) (a2 : Mat n 17) (w1 : Mat 145 64) (b1 : Mat 1 64) (w2 : Mat 64 64) (b2 : Mat 1 64)
    (e : Fin n) (j : Fin 64) : EReal :=
  mlp (feat a0 a1 a2 e) w1 b1 w2 b2 j

/-- The coordinate weight of edge `e`, axis `j`. -/
def coordW {n : Nat} (a0 a1 : Mat n 64) (a2 : Mat n 17) (w1 : Mat 145 64) (b1 : Mat 1 64) (w2 : Mat 64 64) (b2 : Mat 1 64)
    (c1 : Mat 64 64) (cb1 : Mat 1 64) (c2 : Mat 64 3) (cb2 : Mat 1 3) (e : Fin n) (j : Fin 3) : EReal :=
  mlp (msg a0 a1 a2 w1 b1 w2 b2 e) c1 cb1 c2 cb2 j

/-- The coordinate update of edge `e`, axis `j`: displacement × weight ÷ length. -/
def posUpd {n : Nat} (a0 a1 : Mat n 64) (a2 : Mat n 17) (a3 : Mat n 4) (w1 : Mat 145 64) (b1 : Mat 1 64) (w2 : Mat 64 64)
    (b2 : Mat 1 64) (c1 : Mat 64 64) (cb1 : Mat 1 64) (c2 : Mat 64 3) (cb2 : Mat 1 3) (e : Fin n) (j : Fin 3) : EReal :=
  Ideal.div (a3 (ix2 e ⟨j.val, by omega⟩) * coordW a0 a1 a2 w1 b1 w2 b2 c1 cb1 c2 cb2 e j) (a3 (ix2 e (3 : Fin 4)))

/-- The new features of node `v`, column `j`. -/
def node {n : Nat} (x mi : Mat n 64) (w1 : Mat 128 64) (b1 : Mat 1 64) (w2 : Mat 64 64) (b2 : Mat 1 64)
    (v : Fin n) (j : Fin 64) : EReal :=
  mlp (pair x mi v) w1 b1 w2 b2 j

/-! ## The same as arrays -/

/-- All messages: an `n × 64` array. -/
def M0 {n : Nat} (a0 a1 : Mat n 64) (a2 : Mat n 17) (w1 : Mat 145 64) (b1 : Mat 1 64) (w2 : Mat 64 64) (b2 : Mat 1 64) : Mat n 64 :=
  fun i => msg a0 a1 a2 w1 b1 w2 b2 ⟨(i 0).val, idx2_lt0 i⟩ ⟨(i 1).val, idx2_lt1 i⟩

/-- All coordinate updates: an `n × 3` array. -/
def P0 {n : Nat} (a0 a1 : Mat n 64) (a2 : Mat n 17) (a3 : Mat n 4) (w1 : Mat 145 64) (b1 : Mat 1 64) (w2 : Mat 64 64)
    (b2 : Mat 1 64) (c1 : Mat 64 64) (cb1 : Mat 1 64) (c2 : Mat 64 3) (cb2 : Mat 1 3) : Mat n 3 :=
  fun i => posUpd a0 a1 a2 a3 w1 b1 w2 b2 c1 cb1 c2 cb2 ⟨(i 0).val, idx2_lt0 i⟩ ⟨(i 1).val, idx2_lt1 i⟩

/-- All new node features: an `n × 64` array. -/
def H1 {n : Nat} (x mi : Mat n 64) (w1 : Mat 128 64) (b1 : Mat 1 64) (w2 : Mat 64 64) (b2 : Mat 1 64) : Mat n 64 :=
  fun i => node x mi w1 b1 w2 b2 ⟨(i 0).val, idx2_lt0 i⟩ ⟨(i 1).val, idx2_lt1 i⟩

theorem M0_ix2 {n : Nat} (a0 a1 : Mat n 64) (a2 : Mat n 17) (w1 : Mat 145 64) (b1 : Mat 1 64) (w2 : Mat 64 64) (b2 : Mat 1 64)
    (e : Fin n) (j : Fin 64) : M0 a0 a1 a2 w1 b1 w2 b2 (ix2 e j) = msg a0 a1 a2 w1 b1 w2 b2 e j := rfl

theorem P0_ix2 {n : Nat} (a0 a1 : Mat n 64) (a2 : Mat n 17) (a3 : Mat n 4) (w1 : Mat 145 64) (b1 : Mat 1 64) (w2 : Mat 64 64)
    (b2 : Mat 1 64) (c1 : Mat 64 64) (cb1 : Mat 1 64) (c2 : Mat 64 3) (cb2 : Mat 1 3) (e : Fin n) (j : Fin 3) :
    P0 a0 a1 a2 a3 w1 b1 w2 b2 c1 cb1 c2 cb2 (ix2 e j) = posUpd a0 a1 a2 a3 w1 b1 w2 b2 c1 cb1 c2 cb2 e j := rfl

theorem H1_ix2 {n : Nat} (x mi : Mat n 64) (w1 : Mat 128 64) (b1 : Mat 1 64) (w2 : Mat 64 64) (b2 : Mat 1 64)
    (v : Fin n) (j : Fin 64) : H1 x mi w1 b1 w2 b2 (ix2 v j) = node x mi w1 b1 w2 b2 v j := rfl

/-! ## A row of the result reads one row of each input -/

theorem feat_rows {n n' : Nat} (a0 a1 : Mat n 64) (a2 : Mat n 17) (a0' a1' : Mat n' 64) (a2' : Mat n' 17) (e : Fin n) (e' : Fin n')
    (h0 : ∀ k, a0' (ix2 e' k) = a0 (ix2 e k)) (h1 : ∀ k, a1' (ix2 e' k) = a1 (ix2 e k)) (h2 : ∀ k, a2' (ix2 e' k) = a2 (ix2 e k)) :
    feat a0' a1' a2' e' = feat a0 a1 a2 e := by
  funext k
  unfold feat
  split
  · exact h0 _
  · split
    · exact h1 _
    · exact h2 _

theorem msg_rows {n n' : Nat} (a0 a1 : Mat n 64) (a2 : Mat n 17) (a0' a1' : Mat n' 64) (a2' : Mat n' 17)
    (w1 : Mat 145 64) (b1 : Mat 1 64) (w2 : Mat 64 64) (b2 : Mat 1 64) (e : Fin n) (e' : Fin n')
    (h0 : ∀ k, a0' (ix2 e' k) = a0 (ix2 e k)) (h1 : ∀ k, a1' (ix2 e' k) = a1 (ix2 e k)) (h2 : ∀ k, a2' (ix2 e' k) = a2 (ix2 e k)) :
    msg a0' a1' a2' w1 b1 w2 b2 e' = msg a0 a1 a2 w1 b1 w2 b2 e := by
  funext j
  unfold msg
  rw [feat_rows a0 a1 a2 a0' a1' a2' e e' h0 h1 h2]

theorem posUpd_rows {n n' : Nat} (a0 a1 : Mat n 64) (a2 : Mat n 17) (a3 : Mat n 4) (a0' a1' : Mat n' 64) (a2' : Mat n' 17) (a3' : Mat n' 4)
    (w1 : Mat 145 64) (b1 : Mat 1 64) (w2 : Mat 64 64) (b2 : Mat 1 64) (c1 : Mat 64 64) (cb1 : Mat 1 64) (c2 : Mat 64 3) (cb2 : Mat 1 3)
    (e : Fin n) (e' : Fin n')
    (h0 : ∀ k, a0' (ix2 e' k) = a0 (ix2 e k)) (h1 : ∀ k, a1' (ix2 e' k) = a1 (ix2 e k)) (h2 : ∀ k, a2' (ix2 e' k) = a2 (ix2 e k))
    (h3 : ∀ k, a3' (ix2 e' k) = a3 (ix2 e k)) (j : Fin 3) :
    posUpd a0' a1' a2' a3' w1 b1 w2 b2 c1 cb1 c2 cb2 e' j = posUpd a0 a1 a2 a3 w1 b1 w2 b2 c1 cb1 c2 cb2 e j := by
  unfold posUpd coordW
  rw [msg_rows a0 a1 a2 a0' a1' a2' w1 b1 w2 b2 e e' h0 h1 h2, h3, h3]

theorem node_rows {n n' : Nat} (x mi : Mat n 64) (x' mi' : Mat n' 64) (w1 : Mat 128 64) (b1 : Mat 1 64) (w2 : Mat 64 64) (b2 : Mat 1 64)
    (v : Fin n) (v' : Fin n') (h0 : ∀ k, x' (ix2 v' k) = x (ix2 v k)) (h1 : ∀ k, mi' (ix2 v' k) = mi (ix2 v k)) (j : Fin 64) :
    node x' mi' w1 b1 w2 b2 v' j = node x mi w1 b1 w2 b2 v j := by
  unfold node
  have hp : pair x' mi' v' = pair x mi v := by
    funext k
    unfold pair
    split
    · exact h0 _
    · exact h1 _
  rw [hp]

end Cert.Layer

end
-- ==== Proof.EdgeBody.lean ====
/-
  The edge stage's body on one block of 3200 edges, read index by index over the extended reals:
  what it stores is the layer's message and coordinate update of those 3200 rows.
-/
import proofs.«404083_j34591666602697_1_alg».proof.Proof.Gen.KernelIdeal.Skeleton
import proofs.«404083_j34591666602697_1_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.TcCoe Idealize.ShloMosaic.ValueIdx Idealize.SL.Sem

/-! ## A product into the zero accumulator, read at an index -/

private theorem lhs_a_0 (i : S3200x64.Idx) (q : dot_S3200x145_S145x64_S3200x64_1_0_0_1_n_n.contr.Idx) :
    (dot_S3200x145_S145x64_S3200x64_1_0_0_1_n_n.lhsIdx i q 0).val = (i 0).val := by
  unfold DotDims.lhsIdx
  rw [dif_neg (show ¬(0 : Fin S3200x145.rank) ∈ dot_S3200x145_S145x64_S3200x64_1_0_0_1_n_n.lhsBatch by decide), dif_pos (show (0 : Fin S3200x145.rank) ∈ dot_S3200x145_S145x64_S3200x64_1_0_0_1_n_n.lhsNonContracting by decide)]
  rfl
private theorem lhs_a_1 (i : S3200x64.Idx) (q : dot_S3200x145_S145x64_S3200x64_1_0_0_1_n_n.contr.Idx) :
    (dot_S3200x145_S145x64_S3200x64_1_0_0_1_n_n.lhsIdx i q 1).val = (q ⟨0, by decide⟩).val :=
  dot_S3200x145_S145x64_S3200x64_1_0_0_1_n_n.lhsIdx_val_of_single rfl i q
private theorem rhs_a_0 (i : S3200x64.Idx) (q : dot_S3200x145_S145x64_S3200x64_1_0_0_1_n_n.contr.Idx) :
    (dot_S3200x145_S145x64_S3200x64_1_0_0_1_n_n.rhsIdx i q 0).val = (q ⟨0, by decide⟩).val :=
  dot_S3200x145_S145x64_S3200x64_1_0_0_1_n_n.rhsIdx_val_of_single rfl i q
private theorem rhs_a_1 (i : S3200x64.Idx) (q : dot_S3200x145_S145x64_S3200x64_1_0_0_1_n_n.contr.Idx) :
    (dot_S3200x145_S145x64_S3200x64_1_0_0_1_n_n.rhsIdx i q 1).val = (i 1).val := by
  unfold DotDims.rhsIdx
  rw [dif_neg (show ¬(1 : Fin S145x64.rank) ∈ dot_S3200x145_S145x64_S3200x64_1_0_0_1_n_n.rhsBatch by decide), dif_pos (show (1 : Fin S145x64.rank) ∈ dot_S3200x145_S145x64_S3200x64_1_0_0_1_n_n.rhsNonContracting by decide)]
  rfl

/-- The product into the zero accumulator, read at row `p` and column `q`: the sum over the 145 contracted positions. -/
private theorem mm_a {φ₁ φ₂ : FTy} (a : FVec Ideal S3200x145 φ₁) (w : FVec Ideal S145x64 φ₂) (p : Fin 3200) (q : Fin 64) :
    matmul dot_S3200x145_S145x64_S3200x64_1_0_0_1_n_n none a w (constant S3200x64 .f32 0x00000000#32) (ix2 p q)
      = ∑ k : Fin 145, a (ix2 p k) * w (ix2 k q) := by
  simp only [matmul]
  rw [Ideal.matmul_constant_zero_apply, ← Equiv.sum_comp (ValueIdx.contrEquiv1 dot_S3200x145_S145x64_S3200x64_1_0_0_1_n_n 145 rfl rfl).symm]
  refine Finset.sum_congr rfl fun k _ => ?_
  have hk := ValueIdx.contrEquiv1_symm_val dot_S3200x145_S145x64_S3200x64_1_0_0_1_n_n 145 rfl rfl k
  have el : dot_S3200x145_S145x64_S3200x64_1_0_0_1_n_n.lhsIdx (ix2 p q) ((ValueIdx.contrEquiv1 dot_S3200x145_S145x64_S3200x64_1_0_0_1_n_n 145 rfl rfl).symm k) = ix2 p k := funext fun a => Fin.ext (by
    match a with
    | ⟨0, _⟩ => exact lhs_a_0 _ _
    | ⟨1, _⟩ => exact (lhs_a_1 _ _).trans hk)
  have er : dot_S3200x145_S145x64_S3200x64_1_0_0_1_n_n.rhsIdx (ix2 p q) ((ValueIdx.contrEquiv1 dot_S3200x145_S145x64_S3200x64_1_0_0_1_n_n 145 rfl rfl).symm k) = ix2 k q := funext fun a => Fin.ext (by
    match a with
    | ⟨0, _⟩ => exact (rhs_a_0 _ _).trans hk
    | ⟨1, _⟩ => exact rhs_a_1 _ _)
  rw [el, er]

private theorem lhs_b_0 (i : S3200x64.Idx) (q : dot_S3200x64_S64x64_S3200x64_1_0_0_1_n_n.contr.Idx) :
    (dot_S3200x64_S64x64_S3200x64_1_0_0_1_n_n.lhsIdx i q 0).val = (i 0).val := by
  unfold DotDims.lhsIdx
  rw [dif_neg (show ¬(0 : Fin S3200x64.rank) ∈ dot_S3200x64_S64x64_S3200x64_1_0_0_1_n_n.lhsBatch by decide), dif_pos (show (0 : Fin S3200x64.rank) ∈ dot_S3200x64_S64x64_S3200x64_1_0_0_1_n_n.lhsNonContracting by decide)]
  rfl
private theorem lhs_b_1 (i : S3200x64.Idx) (q : dot_S3200x64_S64x64_S3200x64_1_0_0_1_n_n.contr.Idx) :
    (dot_S3200x64_S64x64_S3200x64_1_0_0_1_n_n.lhsIdx i q 1).val = (q ⟨0, by decide⟩).val :=
  dot_S3200x64_S64x64_S3200x64_1_0_0_1_n_n.lhsIdx_val_of_single rfl i q
private theorem rhs_b_0 (i : S3200x64.Idx) (q : dot_S3200x64_S64x64_S3200x64_1_0_0_1_n_n.contr.Idx) :
    (dot_S3200x64_S64x64_S3200x64_1_0_0_1_n_n.rhsIdx i q 0).val = (q ⟨0, by decide⟩).val :=
  dot_S3200x64_S64x64_S3200x64_1_0_0_1_n_n.rhsIdx_val_of_single rfl i q
private theorem rhs_b_1 (i : S3200x64.Idx) (q : dot_S3200x64_S64x64_S3200x64_1_0_0_1_n_n.contr.Idx) :
    (dot_S3200x64_S64x64_S3200x64_1_0_0_1_n_n.rhsIdx i q 1).val = (i 1).val := by
  unfold DotDims.rhsIdx
  rw [dif_neg (show ¬(1 : Fin S64x64.rank) ∈ dot_S3200x64_S64x64_S3200x64_1_0_0_1_n_n.rhsBatch by decide), dif_pos (show (1 : Fin S64x64.rank) ∈ dot_S3200x64_S64x64_S3200x64_1_0_0_1_n_n.rhsNonContracting by decide)]
  rfl

/-- The product into the zero accumulator, read at row `p` and column `q`: the sum over the 64 contracted positions. -/
private theorem mm_b {φ₁ φ₂ : FTy} (a : FVec Ideal S3200x64 φ₁) (w : FVec Ideal S64x64 φ₂) (p : Fin 3200) (q : Fin 64) :
    matmul dot_S3200x64_S64x64_S3200x64_1_0_0_1_n_n none a w (constant S3200x64 .f32 0x00000000#32) (ix2 p q)
      = ∑ k : Fin 64, a (ix2 p k) * w (ix2 k q) := by
  simp only [matmul]
  rw [Ideal.matmul_constant_zero_apply, ← Equiv.sum_comp (ValueIdx.contrEquiv1 dot_S3200x64_S64x64_S3200x64_1_0_0_1_n_n 64 rfl rfl).symm]
  refine Finset.sum_congr rfl fun k _ => ?_
  have hk := ValueIdx.contrEquiv1_symm_val dot_S3200x64_S64x64_S3200x64_1_0_0_1_n_n 64 rfl rfl k
  have el : dot_S3200x64_S64x64_S3200x64_1_0_0_1_n_n.lhsIdx (ix2 p q) ((ValueIdx.contrEquiv1 dot_S3200x64_S64x64_S3200x64_1_0_0_1_n_n 64 rfl rfl).symm k) = ix2 p k := funext fun a => Fin.ext (by
    match a with
    | ⟨0, _⟩ => exact lhs_b_0 _ _
    | ⟨1, _⟩ => exact (lhs_b_1 _ _).trans hk)
  have er : dot_S3200x64_S64x64_S3200x64_1_0_0_1_n_n.rhsIdx (ix2 p q) ((ValueIdx.contrEquiv1 dot_S3200x64_S64x64_S3200x64_1_0_0_1_n_n 64 rfl rfl).symm k) = ix2 k q := funext fun a => Fin.ext (by
    match a with
    | ⟨0, _⟩ => exact (rhs_b_0 _ _).trans hk
    | ⟨1, _⟩ => exact rhs_b_1 _ _)
  rw [el, er]

private theorem lhs_c_0 (i : S3200x3.Idx) (q : dot_S3200x64_S64x3_S3200x3_1_0_0_1_n_n.contr.Idx) :
    (dot_S3200x64_S64x3_S3200x3_1_0_0_1_n_n.lhsIdx i q 0).val = (i 0).val := by
  unfold DotDims.lhsIdx
  rw [dif_neg (show ¬(0 : Fin S3200x64.rank) ∈ dot_S3200x64_S64x3_S3200x3_1_0_0_1_n_n.lhsBatch by decide), dif_pos (show (0 : Fin S3200x64.rank) ∈ dot_S3200x64_S64x3_S3200x3_1_0_0_1_n_n.lhsNonContracting by decide)]
  rfl
private theorem lhs_c_1 (i : S3200x3.Idx) (q : dot_S3200x64_S64x3_S3200x3_1_0_0_1_n_n.contr.Idx) :
    (dot_S3200x64_S64x3_S3200x3_1_0_0_1_n_n.lhsIdx i q 1).val = (q ⟨0, by decide⟩).val :=
  dot_S3200x64_S64x3_S3200x3_1_0_0_1_n_n.lhsIdx_val_of_single rfl i q
private theorem rhs_c_0 (i : S3200x3.Idx) (q : dot_S3200x64_S64x3_S3200x3_1_0_0_1_n_n.contr.Idx) :
    (dot_S3200x64_S64x3_S3200x3_1_0_0_1_n_n.rhsIdx i q 0).val = (q ⟨0, by decide⟩).val :=
  dot_S3200x64_S64x3_S3200x3_1_0_0_1_n_n.rhsIdx_val_of_single rfl i q
private theorem rhs_c_1 (i : S3200x3.Idx) (q : dot_S3200x64_S64x3_S3200x3_1_0_0_1_n_n.contr.Idx) :
    (dot_S3200x64_S64x3_S3200x3_1_0_0_1_n_n.rhsIdx i q 1).val = (i 1).val := by
  unfold DotDims.rhsIdx
  rw [dif_neg (show ¬(1 : Fin S64x3.rank) ∈ dot_S3200x64_S64x3_S3200x3_1_0_0_1_n_n.rhsBatch by decide), dif_pos (show (1 : Fin S64x3.rank) ∈ dot_S3200x64_S64x3_S3200x3_1_0_0_1_n_n.rhsNonContracting by decide)]
  rfl

/-- The product into the zero accumulator, read at row `p` and column `q`: the sum over the 64 contracted positions. -/
private theorem mm_c {φ₁ φ₂ : FTy} (a : FVec Ideal S3200x64 φ₁) (w : FVec Ideal S64x3 φ₂) (p : Fin 3200) (q : Fin 3) :
    matmul dot_S3200x64_S64x3_S3200x3_1_0_0_1_n_n none a w (constant S3200x3 .f32 0x00000000#32) (ix2 p q)
      = ∑ k : Fin 64, a (ix2 p k) * w (ix2 k q) := by
  simp only [matmul]
  rw [Ideal.matmul_constant_zero_apply, ← Equiv.sum_comp (ValueIdx.contrEquiv1 dot_S3200x64_S64x3_S3200x3_1_0_0_1_n_n 64 rfl rfl).symm]
  refine Finset.sum_congr rfl fun k _ => ?_
  have hk := ValueIdx.contrEquiv1_symm_val dot_S3200x64_S64x3_S3200x3_1_0_0_1_n_n 64 rfl rfl k
  have el : dot_S3200x64_S64x3_S3200x3_1_0_0_1_n_n.lhsIdx (ix2 p q) ((ValueIdx.contrEquiv1 dot_S3200x64_S64x3_S3200x3_1_0_0_1_n_n 64 rfl rfl).symm k) = ix2 p k := funext fun a => Fin.ext (by
    match a with
    | ⟨0, _⟩ => exact lhs_c_0 _ _
    | ⟨1, _⟩ => exact (lhs_c_1 _ _).trans hk)
  have er : dot_S3200x64_S64x3_S3200x3_1_0_0_1_n_n.rhsIdx (ix2 p q) ((ValueIdx.contrEquiv1 dot_S3200x64_S64x3_S3200x3_1_0_0_1_n_n 64 rfl rfl).symm k) = ix2 k q := funext fun a => Fin.ext (by
    match a with
    | ⟨0, _⟩ => exact (rhs_c_0 _ _).trans hk
    | ⟨1, _⟩ => exact rhs_c_1 _ _)
  rw [el, er]

/-! ## The layout operations, read at an index -/

/-- The three blocks side by side, read at row `p` and position `k`: the layer's feature row. -/
private theorem cat_apply (x0 x1 : FVec Ideal S3200x64 .f32) (x2 : FVec Ideal S3200x17 .f32) (p : Fin 3200) (k : Fin 145) :
    concatenate S3200x145 1 [⟨S3200x64, x0⟩, ⟨S3200x64, x1⟩, ⟨S3200x17, x2⟩] concatenates_S3200x64_S3200x64_S3200x17_S3200x145_d1 (ix2 p k)
      = Layer.feat x0 x1 x2 p k := by
  unfold Layer.feat
  split
  · rename_i h
    refine concatenate_apply_piece (1 : Fin S3200x145.rank) _ _ (ix2 p k) 0 (by simp) S3200x64 x0 rfl rfl 0 rfl (ix2 p ⟨k.val, h⟩) (fun b hb => ?_) ?_
    · match b with
      | ⟨0, _⟩ => rfl
      | ⟨1, _⟩ => exact absurd rfl hb
    · show 0 + k.val = k.val
      omega
  · rename_i h
    split
    · rename_i h'
      refine concatenate_apply_piece (1 : Fin S3200x145.rank) _ _ (ix2 p k) 1 (by simp) S3200x64 x1 rfl rfl 64 rfl (ix2 p ⟨k.val - 64, by omega⟩) (fun b hb => ?_) ?_
      · match b with
        | ⟨0, _⟩ => rfl
        | ⟨1, _⟩ => exact absurd rfl hb
      · show 64 + (k.val - 64) = k.val
        omega
    · rename_i h'
      refine concatenate_apply_piece (1 : Fin S3200x145.rank) _ _ (ix2 p k) 2 (by simp) S3200x17 x2 rfl rfl 128 rfl (ix2 p ⟨k.val - 128, by omega⟩) (fun b hb => ?_) ?_
      · match b with
        | ⟨0, _⟩ => rfl
        | ⟨1, _⟩ => exact absurd rfl hb
      · show 128 + (k.val - 128) = k.val
        omega

/-- Columns 0 to 2 of a four-column block, read at row `p` and column `j`. -/
private theorem slice3_apply (v : FVec Ideal S3200x4 .f32) (h : S3200x4.Slices ![0, 0] S3200x3) (p : Fin 3200) (j : Fin 3) :
    extractStridedSlice S3200x3 ![0, 0] v h (ix2 p j) = v (ix2 p ⟨j.val, by omega⟩) := by
  refine extractStridedSlice_apply _ v h (ix2 p j) (ix2 p (⟨j.val, by omega⟩ : Fin 4)) fun a => ?_
  match a with
  | ⟨0, _⟩ => show p.val = 0 + p.val; omega
  | ⟨1, _⟩ => show j.val = 0 + j.val; omega

/-- Column 3 of a four-column block, read at row `p`. -/
private theorem slice1_apply (v : FVec Ideal S3200x4 .f32) (h : S3200x4.Slices ![0, 3] S3200x1) (p : Fin 3200) (z : Fin 1) :
    extractStridedSlice S3200x1 ![0, 3] v h (ix2 p z) = v (ix2 p (3 : Fin 4)) := by
  refine extractStridedSlice_apply _ v h (ix2 p z) (ix2 p (3 : Fin 4)) fun a => ?_
  match a with
  | ⟨0, _⟩ => show p.val = 0 + p.val; omega
  | ⟨1, _⟩ => show 3 = 3 + z.val; omega

/-- One column spread over three, read at row `p`: that row's entry. -/
private theorem bcast1_apply (v : FVec Ideal S3200x1 .f32) (h : S3200x1.Broadcasts S3200x3) (p : Fin 3200) (j : Fin 3) :
    broadcastTo S3200x3 v h (ix2 p j) = v (ix2 p (0 : Fin 1)) := by
  refine broadcastTo_apply v h (ix2 p j) (ix2 p (0 : Fin 1)) fun a => ?_
  match a with
  | ⟨0, _⟩ => show p.val = if (3200 : Nat) = 1 then 0 else p.val; rw [if_neg (by decide)]
  | ⟨1, _⟩ => show 0 = if (1 : Nat) = 1 then 0 else j.val; rw [if_pos rfl]

/-! ## The two stored blocks -/

/-- The block of messages the body stores is the layer's message function of the block's rows. -/
theorem edge_msg_block (x0 x1 : Vec Ideal S3200x64 .f32) (x2 : Vec Ideal S3200x17 .f32) (w1 : Vec Ideal S145x64 .f32)
    (b1 : Vec Ideal S1x64 .f32) (w2 : Vec Ideal S64x64 .f32) (b2 : Vec Ideal S1x64 .f32) :
    k0_pay3 (F := Ideal) x0 x1 x2 w1 b1 w2 b2 = Layer.M0 (n := 3200) x0 x1 x2 w1 b1 w2 b2 := by
  funext i
  obtain ⟨p, q, rfl⟩ : ∃ (p : Fin 3200) (q : Fin 64), i = ix2 p q := ⟨i 0, i 1, eq_ix2 i⟩
  rw [Layer.M0_ix2]
  unfold k0_pay3
  simp only [shapeCast_self]
  rw [addf_apply, broadcastTo_1b_ab_apply, mm_b]
  unfold Layer.msg Layer.mlp Layer.affine
  refine congrArg (· + b2 (ix2 (0 : Fin 1) q)) (Finset.sum_congr rfl fun k _ => ?_)
  rw [truncf_apply, truncf_apply, maximumf_apply, broadcast_apply, addf_apply, broadcastTo_1b_ab_apply, mm_a]
  have hz : (FloatOps.ofBits FTy.f32 0#32 : Ideal .f32) = 0 := Ideal.ofBits_zero_f32
  rw [hz]
  refine congrArg (fun t => max (t + b1 (ix2 (0 : Fin 1) k)) 0 * w2 (ix2 k q)) (Finset.sum_congr rfl fun k1 _ => ?_)
  rw [truncf_apply, truncf_apply, cat_apply, shapeCast_self, shapeCast_self, shapeCast_self]

/-- The block of coordinate updates the body stores is the layer's update function of the block's rows. -/
theorem edge_pos_block (x0 x1 : Vec Ideal S3200x64 .f32) (x2 : Vec Ideal S3200x17 .f32) (x3 : Vec Ideal S3200x4 .f32)
    (w1 : Vec Ideal S145x64 .f32) (b1 : Vec Ideal S1x64 .f32) (w2 : Vec Ideal S64x64 .f32) (b2 : Vec Ideal S1x64 .f32)
    (c1 : Vec Ideal S64x64 .f32) (cb1 : Vec Ideal S1x64 .f32) (c2 : Vec Ideal S64x3 .f32) (cb2 : Vec Ideal S1x3 .f32) :
    k0_pay1 (F := Ideal) (k0_pay2 x3) (k0_pay4 x0 x1 x2 w1 b1 w2 b2 c1) cb1 c2 cb2
      = Layer.P0 (n := 3200) x0 x1 x2 x3 w1 b1 w2 b2 c1 cb1 c2 cb2 := by
  funext i
  obtain ⟨p, j, rfl⟩ : ∃ (p : Fin 3200) (j : Fin 3), i = ix2 p j := ⟨i 0, i 1, eq_ix2 i⟩
  rw [Layer.P0_ix2]
  unfold k0_pay1 k0_pay2
  simp only [shapeCast_self]
  rw [divf_apply, mulf_apply, addf_apply, bcast1_apply, slice1_apply, slice3_apply, broadcastTo_1b_ab_apply, mm_c]
  unfold Layer.posUpd Layer.coordW Layer.mlp Layer.affine
  refine congrArg (fun t => Ideal.div (x3 (ix2 p (⟨j.val, by omega⟩ : Fin 4)) * (t + cb2 (ix2 (0 : Fin 1) j))) (x3 (ix2 p (3 : Fin 4))))
    (Finset.sum_congr rfl fun k _ => ?_)
  have hz : (FloatOps.ofBits FTy.f32 0#32 : Ideal .f32) = 0 := Ideal.ofBits_zero_f32
  rw [truncf_apply, truncf_apply, maximumf_apply, broadcast_apply, addf_apply, broadcastTo_1b_ab_apply, hz]
  have h4 : k0_pay4 (F := Ideal) x0 x1 x2 w1 b1 w2 b2 c1 (ix2 p k)
      = ∑ k1 : Fin 64, Layer.msg x0 x1 x2 w1 b1 w2 b2 p k1 * c1 (ix2 k1 k) := by
    unfold k0_pay4
    rw [mm_b]
    refine Finset.sum_congr rfl fun k1 _ => ?_
    rw [truncf_apply, truncf_apply, edge_msg_block, Layer.M0_ix2]
  rw [h4]

end Cert.KernelIdeal.Body

end
-- ==== Proof.NodeBody.lean ====
/-
  The node stage's body on one block of 5000 nodes, read index by index over the extended reals:
  what it stores is the layer's new node features of those 5000 rows.
-/
import proofs.«404083_j34591666602697_1_alg».proof.Proof.Gen.KernelIdeal.Skeleton
import proofs.«404083_j34591666602697_1_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.TcCoe Idealize.ShloMosaic.ValueIdx Idealize.SL.Sem

/-! ## The two products at an index

For each product: the left operand is read at (row of the output index, shared coordinate) and the right operand at
(shared coordinate, column of the output index), one axis at a time; then the sum over the one shared axis is the sum
over its coordinate. -/

private theorem mm1_lhs0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
private theorem mm1_lhs1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
private theorem mm1_rhs0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
private theorem mm1_rhs1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A product of a 5000 × 128 array with a 128 × 64 one into the zero array, at row `p` and column `q`: the sum over the 128 shared coordinates. -/
private theorem mm1_apply (a : FVec Ideal S5000x128 .bf16) (w : FVec Ideal S128x64 .bf16) (p : Fin 5000) (q : Fin 64) :
    matmul dot_S5000x128_S128x64_S5000x64_1_0_0_1_n_n none a w (constant S5000x64 .f32 0x00000000#32) (ix2 p q) = ∑ k : Fin 128, a (ix2 p k) * w (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun c => Fin.ext (by
    match c with
    | ⟨0, _⟩ => exact mm1_lhs0 _ _
    | ⟨1, _⟩ => exact (mm1_lhs1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun c => Fin.ext (by
    match c with
    | ⟨0, _⟩ => exact (mm1_rhs0 _ _).trans hk
    | ⟨1, _⟩ => exact mm1_rhs1 _ _)
  rw [el, er]

private theorem mm2_lhs0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
private theorem mm2_lhs1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
private theorem mm2_rhs0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
private theorem mm2_rhs1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product of a 5000 × 64 array with a 64 × 64 one into the zero array, at row `p` and column `q`: the sum over the 64 shared coordinates. -/
private theorem mm2_apply (a : FVec Ideal S5000x64 .bf16) (w : FVec Ideal S64x64 .bf16) (p : Fin 5000) (q : Fin 64) :
    matmul dot_S5000x64_S64x64_S5000x64_1_0_0_1_n_n none a w (constant S5000x64 .f32 0x00000000#32) (ix2 p q) = ∑ k : Fin 64, a (ix2 p k) * w (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun c => Fin.ext (by
    match c with
    | ⟨0, _⟩ => exact mm2_lhs0 _ _
    | ⟨1, _⟩ => exact (mm2_lhs1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun c => Fin.ext (by
    match c with
    | ⟨0, _⟩ => exact (mm2_rhs0 _ _).trans hk
    | ⟨1, _⟩ => exact mm2_rhs1 _ _)
  rw [el, er]

/-! ## The two rows side by side -/

/-- Two 5000 × 64 arrays side by side, at row `p` and column `k` of 128: the first at `k` when `k` is below 64, else the second at `k - 64`. -/
private theorem cat_apply (x mi : FVec Ideal S5000x64 .f32) (p : Fin 5000) (k : Fin 128) :
    concatenate S5000x128 1 [⟨S5000x64, x⟩, ⟨S5000x64, mi⟩] concatenates_S5000x64_S5000x64_S5000x128_d1 (ix2 p k) = Layer.pair x mi p k := by
  unfold Layer.pair
  split
  · next h =>
    refine concatenate_pair_apply_left 1 x mi concatenates_S5000x64_S5000x64_S5000x128_d1 (ix2 p k) rfl (ix2 p ⟨k.val, h⟩) fun b => ?_
    match b with
    | ⟨0, _⟩ => rfl
    | ⟨1, _⟩ => rfl
  · next h =>
    refine concatenate_pair_apply_right 1 x mi concatenates_S5000x64_S5000x64_S5000x128_d1 (ix2 p k) rfl rfl (ix2 p ⟨k.val - 64, by omega⟩) (fun b hb => ?_) ?_
    · match b with
      | ⟨0, _⟩ => rfl
      | ⟨1, _⟩ => exact absurd rfl hb
    · show (k.val - 64) + 64 = k.val
      omega

/-! ## The body's value -/

/-- The block of node features the body stores is the layer's node function of the block's rows. -/
theorem node_block (x mi : Vec Ideal S5000x64 .f32) (w1 : Vec Ideal S128x64 .f32) (b1 : Vec Ideal S1x64 .f32)
    (w2 : Vec Ideal S64x64 .f32) (b2 : Vec Ideal S1x64 .f32) :
    k1_pay1 (F := Ideal) x mi w1 b1 w2 b2 = Layer.H1 (n := 5000) x mi w1 b1 w2 b2 := by
  funext i
  obtain ⟨p, q, rfl⟩ : ∃ (p : Fin 5000) (q : Fin 64), i = ix2 p q := ⟨i 0, i 1, eq_ix2 i⟩
  rw [Layer.H1_ix2]
  unfold k1_pay1 Layer.node Layer.mlp Layer.affine
  simp only [shapeCast_self]
  rw [addf_apply, mm2_apply, broadcastTo_1b_ab_apply]
  refine congrArg (· + b2 (ix2 (0 : Fin 1) q)) (Finset.sum_congr rfl fun k _ => ?_)
  rw [truncf_apply, truncf_apply, maximumf_apply, broadcast_apply, addf_apply, mm1_apply, broadcastTo_1b_ab_apply]
  refine congrArg (· * w2 (ix2 k q)) (congrArg₂ max (congrArg (· + b1 (ix2 (0 : Fin 1) k)) (Finset.sum_congr rfl fun l _ => ?_)) Ideal.ofBits_zero_f32)
  rw [truncf_apply, truncf_apply, cat_apply, shapeCast_self]

end Cert.KernelIdeal.Body

end
-- ==== Proof.Blocks.lean ====
/-
  From blocks to arrays. Each stage walks its row-indexed arrays in consecutive blocks of rows (3200 edges, 5000
  nodes), block `t` holding rows `t·B … t·B + B − 1`, while the weight matrices are read whole at every step. The
  body's result on block `t` is the layer's function of that block's rows, and a row of the layer's function reads one
  row of each input, so the array a stage leaves is the layer's function of the arrays it found, whatever they hold.
-/
import proofs.«404083_j34591666602697_1_alg».proof.Proof.Gen.KernelIdeal.Frame
import proofs.«404083_j34591666602697_1_alg».proof.Proof.EdgeBody
import proofs.«404083_j34591666602697_1_alg».proof.Proof.NodeBody
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Offsets `(0, 0)` are the zero offsets. -/
private theorem zeros2 : (![0, 0] : Fin 2 → Nat) = fun _ => 0 := funext fun a => by fin_cases a <;> rfl

/-! ## The edge stage: 250 steps over blocks of 3200 edges -/

/-! ### Which block each step reads and writes

At step `t` every row-indexed array (the four inputs and the two results) is at block `(t, 0)`; every weight array is at
block `(0, 0)`, which is all of it. -/

private theorem edgeIx_src : ∀ t : Fin cfg0.N, win0_0.index t (0 : Fin 2) = t.val ∧ win0_0.index t (1 : Fin 2) = 0 :=
  (by decide +kernel : ∀ t : Fin grid0.N, _)
private theorem edgeIx_dst : ∀ t : Fin cfg0.N, win0_1.index t (0 : Fin 2) = t.val ∧ win0_1.index t (1 : Fin 2) = 0 :=
  (by decide +kernel : ∀ t : Fin grid0.N, _)
private theorem edgeIx_attr : ∀ t : Fin cfg0.N, win0_2.index t (0 : Fin 2) = t.val ∧ win0_2.index t (1 : Fin 2) = 0 :=
  (by decide +kernel : ∀ t : Fin grid0.N, _)
private theorem edgeIx_disp : ∀ t : Fin cfg0.N, win0_3.index t (0 : Fin 2) = t.val ∧ win0_3.index t (1 : Fin 2) = 0 :=
  (by decide +kernel : ∀ t : Fin grid0.N, _)
private theorem edgeIx_msg : ∀ t : Fin cfg0.N, win0_12.index t (0 : Fin 2) = t.val ∧ win0_12.index t (1 : Fin 2) = 0 :=
  (by decide +kernel : ∀ t : Fin grid0.N, _)
private theorem edgeIx_upd : ∀ t : Fin cfg0.N, win0_13.index t (0 : Fin 2) = t.val ∧ win0_13.index t (1 : Fin 2) = 0 :=
  (by decide +kernel : ∀ t : Fin grid0.N, _)
private theorem edgeIx_W1 : ∀ t : Fin cfg0.N, win0_4.index t (0 : Fin 2) = 0 ∧ win0_4.index t (1 : Fin 2) = 0 :=
  (by decide +kernel : ∀ t : Fin grid0.N, _)
private theorem edgeIx_b1 : ∀ t : Fin cfg0.N, win0_5.index t (0 : Fin 2) = 0 ∧ win0_5.index t (1 : Fin 2) = 0 :=
  (by decide +kernel : ∀ t : Fin grid0.N, _)
private theorem edgeIx_W2 : ∀ t : Fin cfg0.N, win0_6.index t (0 : Fin 2) = 0 ∧ win0_6.index t (1 : Fin 2) = 0 :=
  (by decide +kernel : ∀ t : Fin grid0.N, _)
private theorem edgeIx_b2 : ∀ t : Fin cfg0.N, win0_7.index t (0 : Fin 2) = 0 ∧ win0_7.index t (1 : Fin 2) = 0 :=
  (by decide +kernel : ∀ t : Fin grid0.N, _)
private theorem edgeIx_C1 : ∀ t : Fin cfg0.N, win0_8.index t (0 : Fin 2) = 0 ∧ win0_8.index t (1 : Fin 2) = 0 :=
  (by decide +kernel : ∀ t : Fin grid0.N, _)
private theorem edgeIx_cb1 : ∀ t : Fin cfg0.N, win0_9.index t (0 : Fin 2) = 0 ∧ win0_9.index t (1 : Fin 2) = 0 :=
  (by decide +kernel : ∀ t : Fin grid0.N, _)
private theorem edgeIx_C2 : ∀ t : Fin cfg0.N, win0_10.index t (0 : Fin 2) = 0 ∧ win0_10.index t (1 : Fin 2) = 0 :=
  (by decide +kernel : ∀ t : Fin grid0.N, _)
private theorem edgeIx_cb2 : ∀ t : Fin cfg0.N, win0_11.index t (0 : Fin 2) = 0 ∧ win0_11.index t (1 : Fin 2) = 0 :=
  (by decide +kernel : ∀ t : Fin grid0.N, _)

/-! ### A row-indexed input's block at step `t` holds rows `3200 t + p` of its array -/

private theorem edgeRows_src (c : Dev nD) (t : Fin cfg0.N) (p : Fin 3200) (k : Fin 64) (h : t.val * 3200 + p.val < 800000) :
    (iblk0 (F := Ideal) V c 0 t : Vec Ideal S3200x64 .f32) (ix2 p k)
      = (V c main_v4 : Vec Ideal S800000x64 .f32) (ix2 ⟨t.val * 3200 + p.val, h⟩ k) := by
  obtain ⟨e0, e1⟩ := edgeIx_src t
  show V c main_v4 (((cfg0.win 0).blk t).view.emb (ix2 p k)) = _
  congr 1
  funext a; apply Fin.ext
  match a with
  | ⟨0, _⟩ => show win0_0.index t (0 : Fin 2) * 3200 + 1 * p.val = t.val * 3200 + p.val; omega
  | ⟨1, _⟩ => show win0_0.index t (1 : Fin 2) * 64 + 1 * k.val = k.val; omega

private theorem edgeRows_dst (c : Dev nD) (t : Fin cfg0.N) (p : Fin 3200) (k : Fin 64) (h : t.val * 3200 + p.val < 800000) :
    (iblk0 (F := Ideal) V c 1 t : Vec Ideal S3200x64 .f32) (ix2 p k)
      = (V c main_v5 : Vec Ideal S800000x64 .f32) (ix2 ⟨t.val * 3200 + p.val, h⟩ k) := by
  obtain ⟨e0, e1⟩ := edgeIx_dst t
  show V c main_v5 (((cfg0.win 1).blk t).view.emb (ix2 p k)) = _
  congr 1
  funext a; apply Fin.ext
  match a with
  | ⟨0, _⟩ => show win0_1.index t (0 : Fin 2) * 3200 + 1 * p.val = t.val * 3200 + p.val; omega
  | ⟨1, _⟩ => show win0_1.index t (1 : Fin 2) * 64 + 1 * k.val = k.val; omega

private theorem edgeRows_attr (c : Dev nD) (t : Fin cfg0.N) (p : Fin 3200) (k : Fin 17) (h : t.val * 3200 + p.val < 800000) :
    (iblk0 (F := Ideal) V c 2 t : Vec Ideal S3200x17 .f32) (ix2 p k)
      = (V c main_v19 : Vec Ideal S800000x17 .f32) (ix2 ⟨t.val * 3200 + p.val, h⟩ k) := by
  obtain ⟨e0, e1⟩ := edgeIx_attr t
  show V c main_v19 (((cfg0.win 2).blk t).view.emb (ix2 p k)) = _
  congr 1
  funext a; apply Fin.ext
  match a with
  | ⟨0, _⟩ => show win0_2.index t (0 : Fin 2) * 3200 + 1 * p.val = t.val * 3200 + p.val; omega
  | ⟨1, _⟩ => show win0_2.index t (1 : Fin 2) * 17 + 1 * k.val = k.val; omega

private theorem edgeRows_disp (c : Dev nD) (t : Fin cfg0.N) (p : Fin 3200) (k : Fin 4) (h : t.val * 3200 + p.val < 800000) :
    (iblk0 (F := Ideal) V c 3 t : Vec Ideal S3200x4 .f32) (ix2 p k)
      = (V c main_v20 : Vec Ideal S800000x4 .f32) (ix2 ⟨t.val * 3200 + p.val, h⟩ k) := by
  obtain ⟨e0, e1⟩ := edgeIx_disp t
  show V c main_v20 (((cfg0.win 3).blk t).view.emb (ix2 p k)) = _
  congr 1
  funext a; apply Fin.ext
  match a with
  | ⟨0, _⟩ => show win0_3.index t (0 : Fin 2) * 3200 + 1 * p.val = t.val * 3200 + p.val; omega
  | ⟨1, _⟩ => show win0_3.index t (1 : Fin 2) * 4 + 1 * k.val = k.val; omega

/-! ### A weight array's block at any step is the whole array -/

private theorem edgeWhole_W1 (c : Dev nD) (t : Fin cfg0.N) :
    (iblk0 (F := Ideal) V c 4 t : Vec Ideal S145x64 .f32) = V c main_arg5 := by
  obtain ⟨e0, e1⟩ := edgeIx_W1 t
  funext y
  show V c main_arg5 (((cfg0.win 4).blk t).view.emb y) = V c main_arg5 y
  congr 1
  funext a; apply Fin.ext
  match a with
  | ⟨0, _⟩ => show win0_4.index t (0 : Fin 2) * 145 + 1 * (y 0).val = (y 0).val; omega
  | ⟨1, _⟩ => show win0_4.index t (1 : Fin 2) * 64 + 1 * (y 1).val = (y 1).val; omega

private theorem edgeWhole_b1 (c : Dev nD) (t : Fin cfg0.N) :
    (iblk0 (F := Ideal) V c 5 t : Vec Ideal S1x64 .f32) = V c main_v21 := by
  obtain ⟨e0, e1⟩ := edgeIx_b1 t
  funext y
  show V c main_v21 (((cfg0.win 5).blk t).view.emb y) = V c main_v21 y
  congr 1
  funext a; apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

private theorem edgeWhole_W2 (c : Dev nD) (t : Fin cfg0.N) :
    (iblk0 (F := Ideal) V c 6 t : Vec Ideal S64x64 .f32) = V c main_arg7 := by
  obtain ⟨e0, e1⟩ := edgeIx_W2 t
  funext y
  show V c main_arg7 (((cfg0.win 6).blk t).view.emb y) = V c main_arg7 y
  congr 1
  funext a; apply Fin.ext
  match a with
  | ⟨0, _⟩ => show win0_6.index t (0 : Fin 2) * 64 + 1 * (y 0).val = (y 0).val; omega
  | ⟨1, _⟩ => show win0_6.index t (1 : Fin 2) * 64 + 1 * (y 1).val = (y 1).val; omega

private theorem edgeWhole_b2 (c : Dev nD) (t : Fin cfg0.N) :
    (iblk0 (F := Ideal) V c 7 t : Vec Ideal S1x64 .f32) = V c main_v22 := by
  obtain ⟨e0, e1⟩ := edgeIx_b2 t
  funext y
  show V c main_v22 (((cfg0.win 7).blk t).view.emb y) = V c main_v22 y
  congr 1
  funext a; apply Fin.ext
  match a with
  | ⟨0, _⟩ => show win0_7.index t (0 : Fin 2) * 1 + 1 * (y 0).val = (y 0).val; omega
  | ⟨1, _⟩ => show win0_7.index t (1 : Fin 2) * 64 + 1 * (y 1).val = (y 1).val; omega

private theorem edgeWhole_C1 (c : Dev nD) (t : Fin cfg0.N) :
    (iblk0 (F := Ideal) V c 8 t : Vec Ideal S64x64 .f32) = V c main_arg13 := by
  obtain ⟨e0, e1⟩ := edgeIx_C1 t
  funext y
  show V c main_arg13 (((cfg0.win 8).blk t).view.emb y) = V c main_arg13 y
  congr 1
  funext a; apply Fin.ext
  match a with
  | ⟨0, _⟩ => show win0_8.index t (0 : Fin 2) * 64 + 1 * (y 0).val = (y 0).val; omega
  | ⟨1, _⟩ => show win0_8.index t (1 : Fin 2) * 64 + 1 * (y 1).val = (y 1).val; omega

private theorem edgeWhole_cb1 (c : Dev nD) (t : Fin cfg0.N) :
    (iblk0 (F := Ideal) V c 9 t : Vec Ideal S1x64 .f32) = V c main_v23 := by
  obtain ⟨e0, e1⟩ := edgeIx_cb1 t
  funext y
  show V c main_v23 (((cfg0.win 9).blk t).view.emb y) = V c main_v23 y
  congr 1
  funext a; apply Fin.ext
  match a with
  | ⟨0, _⟩ => show win0_9.index t (0 : Fin 2) * 1 + 1 * (y 0).val = (y 0).val; omega
  | ⟨1, _⟩ => show win0_9.index t (1 : Fin 2) * 64 + 1 * (y 1).val = (y 1).val; omega

private theorem edgeWhole_C2 (c : Dev nD) (t : Fin cfg0.N) :
    (iblk0 (F := Ideal) V c 10 t : Vec Ideal S64x3 .f32) = V c main_arg15 := by
  obtain ⟨e0, e1⟩ := edgeIx_C2 t
  funext y
  show V c main_arg15 (((cfg0.win 10).blk t).view.emb y) = V c main_arg15 y
  congr 1
  funext a; apply Fin.ext
  match a with
  | ⟨0, _⟩ => show win0_10.index t (0 : Fin 2) * 64 + 1 * (y 0).val = (y 0).val; omega
  | ⟨1, _⟩ => show win0_10.index t (1 : Fin 2) * 3 + 1 * (y 1).val = (y 1).val; omega

private theorem edgeWhole_cb2 (c : Dev nD) (t : Fin cfg0.N) :
    (iblk0 (F := Ideal) V c 11 t : Vec Ideal S1x3 .f32) = V c main_v24 := by
  obtain ⟨e0, e1⟩ := edgeIx_cb2 t
  funext y
  show V c main_v24 (((cfg0.win 11).blk t).view.emb y) = V c main_v24 y
  congr 1
  funext a; apply Fin.ext
  match a with
  | ⟨0, _⟩ => show win0_11.index t (0 : Fin 2) * 1 + 1 * (y 0).val = (y 0).val; omega
  | ⟨1, _⟩ => show win0_11.index t (1 : Fin 2) * 3 + 1 * (y 1).val = (y 1).val; omega

/-! ### The messages -/

/-- The messages of a block whose rows are rows `3200 t + p` of the arrays are those rows of the arrays' messages. -/
private theorem msg_block_rows (t : Nat)
    (A0 A1 : Layer.Mat 800000 64) (A2 : Layer.Mat 800000 17)
    (x0 x1 : Layer.Mat 3200 64) (x2 : Layer.Mat 3200 17)
    (w1 : Layer.Mat 145 64) (b1 : Layer.Mat 1 64) (w2 : Layer.Mat 64 64) (b2 : Layer.Mat 1 64)
    (h0 : ∀ (p : Fin 3200) (k : Fin 64) (h : t * 3200 + p.val < 800000), x0 (ix2 p k) = A0 (ix2 ⟨t * 3200 + p.val, h⟩ k))
    (h1 : ∀ (p : Fin 3200) (k : Fin 64) (h : t * 3200 + p.val < 800000), x1 (ix2 p k) = A1 (ix2 ⟨t * 3200 + p.val, h⟩ k))
    (h2 : ∀ (p : Fin 3200) (k : Fin 17) (h : t * 3200 + p.val < 800000), x2 (ix2 p k) = A2 (ix2 ⟨t * 3200 + p.val, h⟩ k))
    (y : S3200x64.Idx) (i : S800000x64.Idx) (hi0 : (i 0).val = t * 3200 + (y 0).val) (hi1 : (i 1).val = (y 1).val) :
    Layer.M0 x0 x1 x2 w1 b1 w2 b2 y = Layer.M0 A0 A1 A2 w1 b1 w2 b2 i := by
  show Layer.msg x0 x1 x2 w1 b1 w2 b2 ⟨(y 0).val, idx2_lt0 y⟩ ⟨(y 1).val, idx2_lt1 y⟩
    = Layer.msg A0 A1 A2 w1 b1 w2 b2 ⟨(i 0).val, idx2_lt0 i⟩ ⟨(i 1).val, idx2_lt1 i⟩
  have hlt : t * 3200 + (y 0).val < 800000 := by have := idx2_lt0 i; omega
  have he : (⟨(i 0).val, idx2_lt0 i⟩ : Fin 800000) = ⟨t * 3200 + (y 0).val, hlt⟩ := Fin.ext hi0
  have hk : (⟨(i 1).val, idx2_lt1 i⟩ : Fin 64) = ⟨(y 1).val, idx2_lt1 y⟩ := Fin.ext hi1
  rw [he, hk]
  exact congrFun (Layer.msg_rows A0 A1 A2 x0 x1 x2 w1 b1 w2 b2 ⟨t * 3200 + (y 0).val, hlt⟩ ⟨(y 0).val, idx2_lt0 y⟩
    (fun k => h0 _ k hlt) (fun k => h1 _ k hlt) (fun k => h2 _ k hlt)) _

/-- What step `t` writes back to the message array is block `t` of the arrays' messages. -/
private theorem msg_written (c : Dev nD) (t : Fin cfg0.N) :
    (dat0 (F := Ideal) V c).flushed 12 t = ((cfg0.win 12).blk t).view.read (Elt Ideal)
      (Layer.M0 (n := 800000) (V c main_v4) (V c main_v5) (V c main_v19) (V c main_arg5) (V c main_v21) (V c main_arg7) (V c main_v22)) := by
  show (cfg0.win 12).cut (grid0.coords t) ((dat0 V c).after 12 t) = _
  rw [after0_12]
  unfold out0_12
  rw [View.canon_unit_zero zeros2]
  simp only [View.ld_unit_zero (S := S3200x64) zeros2, View.ld_unit_zero (S := S3200x17) zeros2, View.ld_unit_zero (S := S145x64) zeros2,
    View.ld_unit_zero (S := S1x64) zeros2, View.ld_unit_zero (S := S64x64) zeros2]
  rw [Body.edge_msg_block, edgeWhole_W1, edgeWhole_b1, edgeWhole_W2, edgeWhole_b2]
  obtain ⟨e0, e1⟩ := edgeIx_msg t
  funext y
  show Layer.M0 (n := 3200) (iblk0 V c 0 t) (iblk0 V c 1 t) (iblk0 V c 2 t) (V c main_arg5) (V c main_v21) (V c main_arg7) (V c main_v22) y
    = Layer.M0 (n := 800000) (V c main_v4) (V c main_v5) (V c main_v19) (V c main_arg5) (V c main_v21) (V c main_arg7) (V c main_v22)
        (((cfg0.win 12).blk t).view.emb y)
  refine msg_block_rows t.val _ _ _ _ _ _ _ _ _ _ (fun p k h => edgeRows_src V c t p k h) (fun p k h => edgeRows_dst V c t p k h)
    (fun p k h => edgeRows_attr V c t p k h) y _ ?_ ?_
  · show win0_12.index t (0 : Fin 2) * 3200 + 1 * (y 0).val = t.val * 3200 + (y 0).val; omega
  · show win0_12.index t (1 : Fin 2) * 64 + 1 * (y 1).val = (y 1).val; omega

/-- An index of the message array is in step `t`'s block iff each coordinate is in the block's range on its axis. -/
private theorem msg_mem_block (t : Fin cfg0.N) (i : S800000x64.Idx) :
    i ∈ ((cfg0.win 12).blk t).view.set ↔ ∀ a : Fin 2, win0_12.index t a * S3200x64.size a ≤ (i a).val
      ∧ (i a).val < win0_12.index t a * S3200x64.size a + S3200x64.size a := by
  show i ∈ ((View.whole main_v27_0).slice (win0_12.rect t)).set ↔ _
  rw [View.set_slice_whole, Rect.mem_set_unit]
  exact Iff.rfl

/-- Row `r` of the message array is in the block of step `r / 3200`. -/
private theorem msg_cover (i : S800000x64.Idx) :
    ∃ t : Fin cfg0.N, (cfg0.win 12).flush t = true ∧ i ∈ ((cfg0.win 12).blk t).view.set := by
  have hN : cfg0.N = 250 := N_0
  have hi0 : (i 0).val < 800000 := idx2_lt0 i
  have hi1 : (i 1).val < 64 := idx2_lt1 i
  obtain ⟨t, ht⟩ : ∃ t : Fin cfg0.N, t.val = (i 0).val / 3200 := ⟨⟨(i 0).val / 3200, by rw [hN]; omega⟩, rfl⟩
  obtain ⟨e0, e1⟩ := edgeIx_msg t
  refine ⟨t, flush0_12 t, ?_⟩
  rw [msg_mem_block]
  intro a
  match a with
  | ⟨0, _⟩ =>
    show win0_12.index t (0 : Fin 2) * 3200 ≤ (i 0).val ∧ (i 0).val < win0_12.index t (0 : Fin 2) * 3200 + 3200
    omega
  | ⟨1, _⟩ =>
    show win0_12.index t (1 : Fin 2) * 64 ≤ (i 1).val ∧ (i 1).val < win0_12.index t (1 : Fin 2) * 64 + 64
    omega

/-- The messages the edge stage leaves: the layer's message function of the arrays at its entry. -/
theorem msgs (c : Dev nD) : (dat0 (F := Ideal) V c).arrAt 12 cfg0.N
    = Layer.M0 (n := 800000) (V c main_v4) (V c main_v5) (V c main_v19) (V c main_arg5) (V c main_v21) (V c main_arg7) (V c main_v22) :=
  (dat0 (F := Ideal) V c).arrAt_eq_of_cover 12
    (Layer.M0 (n := 800000) (V c main_v4) (V c main_v5) (V c main_v19) (V c main_arg5) (V c main_v21) (V c main_arg7) (V c main_v22))
    (fun t _ => msg_written V c t) msg_cover

/-! ### The coordinate updates -/

/-- The coordinate updates of a block whose rows are rows `3200 t + p` of the arrays are those rows of the arrays' updates. -/
private theorem upd_block_rows (t : Nat)
    (A0 A1 : Layer.Mat 800000 64) (A2 : Layer.Mat 800000 17) (A3 : Layer.Mat 800000 4)
    (x0 x1 : Layer.Mat 3200 64) (x2 : Layer.Mat 3200 17) (x3 : Layer.Mat 3200 4)
    (w1 : Layer.Mat 145 64) (b1 : Layer.Mat 1 64) (w2 : Layer.Mat 64 64) (b2 : Layer.Mat 1 64)
    (c1 : Layer.Mat 64 64) (cb1 : Layer.Mat 1 64) (c2 : Layer.Mat 64 3) (cb2 : Layer.Mat 1 3)
    (h0 : ∀ (p : Fin 3200) (k : Fin 64) (h : t * 3200 + p.val < 800000), x0 (ix2 p k) = A0 (ix2 ⟨t * 3200 + p.val, h⟩ k))
    (h1 : ∀ (p : Fin 3200) (k : Fin 64) (h : t * 3200 + p.val < 800000), x1 (ix2 p k) = A1 (ix2 ⟨t * 3200 + p.val, h⟩ k))
    (h2 : ∀ (p : Fin 3200) (k : Fin 17) (h : t * 3200 + p.val < 800000), x2 (ix2 p k) = A2 (ix2 ⟨t * 3200 + p.val, h⟩ k))
    (h3 : ∀ (p : Fin 3200) (k : Fin 4) (h : t * 3200 + p.val < 800000), x3 (ix2 p k) = A3 (ix2 ⟨t * 3200 + p.val, h⟩ k))
    (y : S3200x3.Idx) (i : S800000x3.Idx) (hi0 : (i 0).val = t * 3200 + (y 0).val) (hi1 : (i 1).val = (y 1).val) :
    Layer.P0 x0 x1 x2 x3 w1 b1 w2 b2 c1 cb1 c2 cb2 y = Layer.P0 A0 A1 A2 A3 w1 b1 w2 b2 c1 cb1 c2 cb2 i := by
  show Layer.posUpd x0 x1 x2 x3 w1 b1 w2 b2 c1 cb1 c2 cb2 ⟨(y 0).val, idx2_lt0 y⟩ ⟨(y 1).val, idx2_lt1 y⟩
    = Layer.posUpd A0 A1 A2 A3 w1 b1 w2 b2 c1 cb1 c2 cb2 ⟨(i 0).val, idx2_lt0 i⟩ ⟨(i 1).val, idx2_lt1 i⟩
  have hlt : t * 3200 + (y 0).val < 800000 := by have := idx2_lt0 i; omega
  have he : (⟨(i 0).val, idx2_lt0 i⟩ : Fin 800000) = ⟨t * 3200 + (y 0).val, hlt⟩ := Fin.ext hi0
  have hk : (⟨(i 1).val, idx2_lt1 i⟩ : Fin 3) = ⟨(y 1).val, idx2_lt1 y⟩ := Fin.ext hi1
  rw [he, hk]
  exact Layer.posUpd_rows A0 A1 A2 A3 x0 x1 x2 x3 w1 b1 w2 b2 c1 cb1 c2 cb2 ⟨t * 3200 + (y 0).val, hlt⟩ ⟨(y 0).val, idx2_lt0 y⟩
    (fun k => h0 _ k hlt) (fun k => h1 _ k hlt) (fun k => h2 _ k hlt) (fun k => h3 _ k hlt) _

/-- What step `t` writes back to the update array is block `t` of the arrays' coordinate updates. -/
private theorem upd_written (c : Dev nD) (t : Fin cfg0.N) :
    (dat0 (F := Ideal) V c).flushed 13 t = ((cfg0.win 13).blk t).view.read (Elt Ideal)
      (Layer.P0 (n := 800000) (V c main_v4) (V c main_v5) (V c main_v19) (V c main_v20) (V c main_arg5) (V c main_v21) (V c main_arg7)
        (V c main_v22) (V c main_arg13) (V c main_v23) (V c main_arg15) (V c main_v24)) := by
  show (cfg0.win 13).cut (grid0.coords t) ((dat0 V c).after 13 t) = _
  rw [after0_13]
  unfold out0_13
  rw [View.canon_unit_zero zeros2]
  simp only [View.ld_unit_zero (S := S3200x64) zeros2, View.ld_unit_zero (S := S3200x17) zeros2, View.ld_unit_zero (S := S3200x4) zeros2,
    View.ld_unit_zero (S := S145x64) zeros2, View.ld_unit_zero (S := S1x64) zeros2, View.ld_unit_zero (S := S64x64) zeros2,
    View.ld_unit_zero (S := S64x3) zeros2, View.ld_unit_zero (S := S1x3) zeros2]
  rw [Body.edge_pos_block, edgeWhole_W1, edgeWhole_b1, edgeWhole_W2, edgeWhole_b2, edgeWhole_C1, edgeWhole_cb1, edgeWhole_C2, edgeWhole_cb2]
  obtain ⟨e0, e1⟩ := edgeIx_upd t
  funext y
  show Layer.P0 (n := 3200) (iblk0 V c 0 t) (iblk0 V c 1 t) (iblk0 V c 2 t) (iblk0 V c 3 t) (V c main_arg5) (V c main_v21) (V c main_arg7)
      (V c main_v22) (V c main_arg13) (V c main_v23) (V c main_arg15) (V c main_v24) y
    = Layer.P0 (n := 800000) (V c main_v4) (V c main_v5) (V c main_v19) (V c main_v20) (V c main_arg5) (V c main_v21) (V c main_arg7)
        (V c main_v22) (V c main_arg13) (V c main_v23) (V c main_arg15) (V c main_v24) (((cfg0.win 13).blk t).view.emb y)
  refine upd_block_rows t.val _ _ _ _ _ _ _ _ _ _ _ _ _ _ _ _ (fun p k h => edgeRows_src V c t p k h) (fun p k h => edgeRows_dst V c t p k h)
    (fun p k h => edgeRows_attr V c t p k h) (fun p k h => edgeRows_disp V c t p k h) y _ ?_ ?_
  · show win0_13.index t (0 : Fin 2) * 3200 + 1 * (y 0).val = t.val * 3200 + (y 0).val; omega
  · show win0_13.index t (1 : Fin 2) * 3 + 1 * (y 1).val = (y 1).val; omega

/-- An index of the update array is in step `t`'s block iff each coordinate is in the block's range on its axis. -/
private theorem upd_mem_block (t : Fin cfg0.N) (i : S800000x3.Idx) :
    i ∈ ((cfg0.win 13).blk t).view.set ↔ ∀ a : Fin 2, win0_13.index t a * S3200x3.size a ≤ (i a).val
      ∧ (i a).val < win0_13.index t a * S3200x3.size a + S3200x3.size a := by
  show i ∈ ((View.whole main_v27_1).slice (win0_13.rect t)).set ↔ _
  rw [View.set_slice_whole, Rect.mem_set_unit]
  exact Iff.rfl

/-- Row `r` of the update array is in the block of step `r / 3200`. -/
private theorem upd_cover (i : S800000x3.Idx) :
    ∃ t : Fin cfg0.N, (cfg0.win 13).flush t = true ∧ i ∈ ((cfg0.win 13).blk t).view.set := by
  have hN : cfg0.N = 250 := N_0
  have hi0 : (i 0).val < 800000 := idx2_lt0 i
  have hi1 : (i 1).val < 3 := idx2_lt1 i
  obtain ⟨t, ht⟩ : ∃ t : Fin cfg0.N, t.val = (i 0).val / 3200 := ⟨⟨(i 0).val / 3200, by rw [hN]; omega⟩, rfl⟩
  obtain ⟨e0, e1⟩ := edgeIx_upd t
  refine ⟨t, flush0_13 t, ?_⟩
  rw [upd_mem_block]
  intro a
  match a with
  | ⟨0, _⟩ =>
    show win0_13.index t (0 : Fin 2) * 3200 ≤ (i 0).val ∧ (i 0).val < win0_13.index t (0 : Fin 2) * 3200 + 3200
    omega
  | ⟨1, _⟩ =>
    show win0_13.index t (1 : Fin 2) * 3 ≤ (i 1).val ∧ (i 1).val < win0_13.index t (1 : Fin 2) * 3 + 3
    omega

/-- The coordinate updates the edge stage leaves. -/
theorem posUpds (c : Dev nD) : (dat0 (F := Ideal) V c).arrAt 13 cfg0.N
    = Layer.P0 (n := 800000) (V c main_v4) (V c main_v5) (V c main_v19) (V c main_v20) (V c main_arg5) (V c main_v21) (V c main_arg7)
        (V c main_v22) (V c main_arg13) (V c main_v23) (V c main_arg15) (V c main_v24) :=
  (dat0 (F := Ideal) V c).arrAt_eq_of_cover 13
    (Layer.P0 (n := 800000) (V c main_v4) (V c main_v5) (V c main_v19) (V c main_v20) (V c main_arg5) (V c main_v21) (V c main_arg7)
      (V c main_v22) (V c main_arg13) (V c main_v23) (V c main_arg15) (V c main_v24))
    (fun t _ => upd_written V c t) upd_cover

/-! ## The node stage: 10 steps over blocks of 5000 nodes -/

/-! ### Which block each step reads and writes -/

private theorem nodeIx_x : ∀ t : Fin cfg1.N, win1_0.index t (0 : Fin 2) = t.val ∧ win1_0.index t (1 : Fin 2) = 0 :=
  (by decide +kernel : ∀ t : Fin grid1.N, _)
private theorem nodeIx_agg : ∀ t : Fin cfg1.N, win1_1.index t (0 : Fin 2) = t.val ∧ win1_1.index t (1 : Fin 2) = 0 :=
  (by decide +kernel : ∀ t : Fin grid1.N, _)
private theorem nodeIx_out : ∀ t : Fin cfg1.N, win1_6.index t (0 : Fin 2) = t.val ∧ win1_6.index t (1 : Fin 2) = 0 :=
  (by decide +kernel : ∀ t : Fin grid1.N, _)
private theorem nodeIx_N1 : ∀ t : Fin cfg1.N, win1_2.index t (0 : Fin 2) = 0 ∧ win1_2.index t (1 : Fin 2) = 0 :=
  (by decide +kernel : ∀ t : Fin grid1.N, _)
private theorem nodeIx_nb1 : ∀ t : Fin cfg1.N, win1_3.index t (0 : Fin 2) = 0 ∧ win1_3.index t (1 : Fin 2) = 0 :=
  (by decide +kernel : ∀ t : Fin grid1.N, _)
private theorem nodeIx_N2 : ∀ t : Fin cfg1.N, win1_4.index t (0 : Fin 2) = 0 ∧ win1_4.index t (1 : Fin 2) = 0 :=
  (by decide +kernel : ∀ t : Fin grid1.N, _)
private theorem nodeIx_nb2 : ∀ t : Fin cfg1.N, win1_5.index t (0 : Fin 2) = 0 ∧ win1_5.index t (1 : Fin 2) = 0 :=
  (by decide +kernel : ∀ t : Fin grid1.N, _)

/-! ### A row-indexed input's block at step `t` holds rows `5000 t + p` of its array -/

private theorem nodeRows_x (c : Dev nD) (t : Fin cfg1.N) (p : Fin 5000) (k : Fin 64) (h : t.val * 5000 + p.val < 50000) :
    (iblk1 (F := Ideal) V c 0 t : Vec Ideal S5000x64 .f32) (ix2 p k)
      = (V c main_arg0 : Vec Ideal S50000x64 .f32) (ix2 ⟨t.val * 5000 + p.val, h⟩ k) := by
  obtain ⟨e0, e1⟩ := nodeIx_x t
  show V c main_arg0 (((cfg1.win 0).blk t).view.emb (ix2 p k)) = _
  congr 1
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

private theorem nodeRows_agg (c : Dev nD) (t : Fin cfg1.N) (p : Fin 5000) (k : Fin 64) (h : t.val * 5000 + p.val < 50000) :
    (iblk1 (F := Ideal) V c 1 t : Vec Ideal S5000x64 .f32) (ix2 p k)
      = (V c main_v38 : Vec Ideal S50000x64 .f32) (ix2 ⟨t.val * 5000 + p.val, h⟩ k) := by
  obtain ⟨e0, e1⟩ := nodeIx_agg t
  show V c main_v38 (((cfg1.win 1).blk t).view.emb (ix2 p k)) = _
  congr 1
  funext a; apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega

/-! ### A weight array's block at any step is the whole array -/

private theorem nodeWhole_N1 (c : Dev nD) (t : Fin cfg1.N) :
    (iblk1 (F := Ideal) V c 2 t : Vec Ideal S128x64 .f32) = V c main_arg9 := by
  obtain ⟨e0, e1⟩ := nodeIx_N1 t
  funext y
  show V c main_arg9 (((cfg1.win 2).blk t).view.emb y) = V c main_arg9 y
  congr 1
  funext a; apply Fin.ext
  match a with
  | ⟨0, _⟩ => show win1_2.index t (0 : Fin 2) * 128 + 1 * (y 0).val = (y 0).val; omega
  | ⟨1, _⟩ => show win1_2.index t (1 : Fin 2) * 64 + 1 * (y 1).val = (y 1).val; omega

private theorem nodeWhole_nb1 (c : Dev nD) (t : Fin cfg1.N) :
    (iblk1 (F := Ideal) V c 3 t : Vec Ideal S1x64 .f32) = V c main_v25 := by
  obtain ⟨e0, e1⟩ := nodeIx_nb1 t
  funext y
  show V c main_v25 (((cfg1.win 3).blk t).view.emb y) = V c main_v25 y
  congr 1
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

private theorem nodeWhole_N2 (c : Dev nD) (t : Fin cfg1.N) :
    (iblk1 (F := Ideal) V c 4 t : Vec Ideal S64x64 .f32) = V c main_arg11 := by
  obtain ⟨e0, e1⟩ := nodeIx_N2 t
  funext y
  show V c main_arg11 (((cfg1.win 4).blk t).view.emb y) = V c main_arg11 y
  congr 1
  funext a; apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega

private theorem nodeWhole_nb2 (c : Dev nD) (t : Fin cfg1.N) :
    (iblk1 (F := Ideal) V c 5 t : Vec Ideal S1x64 .f32) = V c main_v26 := by
  obtain ⟨e0, e1⟩ := nodeIx_nb2 t
  funext y
  show V c main_v26 (((cfg1.win 5).blk t).view.emb y) = V c main_v26 y
  congr 1
  funext a; apply Fin.ext
  match a with
  | ⟨0, _⟩ => show win1_5.index t (0 : Fin 2) * 1 + 1 * (y 0).val = (y 0).val; omega
  | ⟨1, _⟩ => show win1_5.index t (1 : Fin 2) * 64 + 1 * (y 1).val = (y 1).val; omega

/-! ### The new node features -/

/-- The new features of a block whose rows are rows `5000 t + p` of the arrays are those rows of the arrays' new features. -/
private theorem node_block_rows (t : Nat)
    (X MI : Layer.Mat 50000 64) (x mi : Layer.Mat 5000 64)
    (w1 : Layer.Mat 128 64) (b1 : Layer.Mat 1 64) (w2 : Layer.Mat 64 64) (b2 : Layer.Mat 1 64)
    (h0 : ∀ (p : Fin 5000) (k : Fin 64) (h : t * 5000 + p.val < 50000), x (ix2 p k) = X (ix2 ⟨t * 5000 + p.val, h⟩ k))
    (h1 : ∀ (p : Fin 5000) (k : Fin 64) (h : t * 5000 + p.val < 50000), mi (ix2 p k) = MI (ix2 ⟨t * 5000 + p.val, h⟩ k))
    (y : S5000x64.Idx) (i : S50000x64.Idx) (hi0 : (i 0).val = t * 5000 + (y 0).val) (hi1 : (i 1).val = (y 1).val) :
    Layer.H1 x mi w1 b1 w2 b2 y = Layer.H1 X MI w1 b1 w2 b2 i := by
  show Layer.node x mi w1 b1 w2 b2 ⟨(y 0).val, idx2_lt0 y⟩ ⟨(y 1).val, idx2_lt1 y⟩
    = Layer.node X MI w1 b1 w2 b2 ⟨(i 0).val, idx2_lt0 i⟩ ⟨(i 1).val, idx2_lt1 i⟩
  have hlt : t * 5000 + (y 0).val < 50000 := by have := idx2_lt0 i; omega
  have he : (⟨(i 0).val, idx2_lt0 i⟩ : Fin 50000) = ⟨t * 5000 + (y 0).val, hlt⟩ := Fin.ext hi0
  have hk : (⟨(i 1).val, idx2_lt1 i⟩ : Fin 64) = ⟨(y 1).val, idx2_lt1 y⟩ := Fin.ext hi1
  rw [he, hk]
  exact Layer.node_rows X MI x mi w1 b1 w2 b2 ⟨t * 5000 + (y 0).val, hlt⟩ ⟨(y 0).val, idx2_lt0 y⟩
    (fun k => h0 _ k hlt) (fun k => h1 _ k hlt) _

/-- What step `t` writes back to the node array is block `t` of the arrays' new node features. -/
private theorem node_written (c : Dev nD) (t : Fin cfg1.N) :
    (dat1 (F := Ideal) V c).flushed 6 t = ((cfg1.win 6).blk t).view.read (Elt Ideal)
      (Layer.H1 (n := 50000) (V c main_arg0) (V c main_v38) (V c main_arg9) (V c main_v25) (V c main_arg11) (V c main_v26)) := by
  show (cfg1.win 6).cut (grid1.coords t) ((dat1 V c).after 6 t) = _
  rw [after1_6]
  unfold out1_6
  rw [View.canon_unit_zero zeros2]
  simp only [View.ld_unit_zero (S := S5000x64) zeros2, View.ld_unit_zero (S := S128x64) zeros2, View.ld_unit_zero (S := S1x64) zeros2,
    View.ld_unit_zero (S := S64x64) zeros2]
  rw [Body.node_block, nodeWhole_N1, nodeWhole_nb1, nodeWhole_N2, nodeWhole_nb2]
  obtain ⟨e0, e1⟩ := nodeIx_out t
  funext y
  show Layer.H1 (n := 5000) (iblk1 V c 0 t) (iblk1 V c 1 t) (V c main_arg9) (V c main_v25) (V c main_arg11) (V c main_v26) y
    = Layer.H1 (n := 50000) (V c main_arg0) (V c main_v38) (V c main_arg9) (V c main_v25) (V c main_arg11) (V c main_v26)
        (((cfg1.win 6).blk t).view.emb y)
  refine node_block_rows t.val _ _ _ _ _ _ _ _ (fun p k h => nodeRows_x V c t p k h) (fun p k h => nodeRows_agg V c t p k h) y _ ?_ ?_
  · show win1_6.index t (0 : Fin 2) * 5000 + 1 * (y 0).val = t.val * 5000 + (y 0).val; omega
  · show win1_6.index t (1 : Fin 2) * 64 + 1 * (y 1).val = (y 1).val; omega

/-- An index of the node array is in step `t`'s block iff each coordinate is in the block's range on its axis. -/
private theorem node_mem_block (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v39).slice (win1_6.rect t)).set ↔ _
  rw [View.set_slice_whole, Rect.mem_set_unit]
  exact Iff.rfl

/-- Row `r` of the node array is in the block of step `r / 5000`. -/
private theorem node_cover (i : S50000x64.Idx) :
    ∃ t : Fin cfg1.N, (cfg1.win 6).flush t = true ∧ i ∈ ((cfg1.win 6).blk t).view.set := by
  have hN : cfg1.N = 10 := N_1
  have hi0 : (i 0).val < 50000 := idx2_lt0 i
  have hi1 : (i 1).val < 64 := idx2_lt1 i
  obtain ⟨t, ht⟩ : ∃ t : Fin cfg1.N, t.val = (i 0).val / 5000 := ⟨⟨(i 0).val / 5000, by rw [hN]; omega⟩, rfl⟩
  obtain ⟨e0, e1⟩ := nodeIx_out t
  refine ⟨t, flush1_6 t, ?_⟩
  rw [node_mem_block]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 64 ≤ (i 1).val ∧ (i 1).val < win1_6.index t (1 : Fin 2) * 64 + 64
    omega

/-- The node features the node stage leaves. -/
theorem nodes (c : Dev nD) : (dat1 (F := Ideal) V c).arrAt 6 cfg1.N
    = Layer.H1 (n := 50000) (V c main_arg0) (V c main_v38) (V c main_arg9) (V c main_v25) (V c main_arg11) (V c main_v26) :=
  (dat1 (F := Ideal) V c).arrAt_eq_of_cover 6
    (Layer.H1 (n := 50000) (V c main_arg0) (V c main_v38) (V c main_arg9) (V c main_v25) (V c main_arg11) (V c main_v26))
    (fun t _ => node_written V c t) node_cover

end Cert.KernelIdeal.Blocks

end
-- ==== Proof.HostTerms.lean ====
/-
  The array-level terms of the kernel program's host side, named once.

  `srcIx` / `dstIx`: the two rows of the 2 × E edge list. `wrap`: a negative index counts from the end of the
  50000-row table. `inRange`: the wrapped index is a row of the table. `take64` / `take3`: the rows of a table at
  a list of indices, a fill value where the index is no row (`jnp.take`'s fill mode). `sqLen`: the squared length of
  each 3-vector, as a column. `msgExtra` / `posExtra`: the two per-edge side inputs of the edge stage
  ([squared distance | 16 attributes] and [initial displacement | its length]). `rowBias`: a bias vector as a one-row
  matrix. `segMean` / `segSum3`: the mean (count clamped below at 1) and the sum of the edges' rows over each
  destination node.
-/
import proofs.«404083_j34591666602697_1_alg».proof.KernelIdeal
import proofs.«404083_j34591666602697_1_alg».proof.Proof.Gen.KernelIdeal

noncomputable section

namespace Cert.KernelIdeal.HostSide

open Cert.KernelIdeal Idealize.ShloMosaic Idealize.SL.Sem
open Cert.KernelIdeal.Facts₀ Cert.KernelIdeal.Facts

variable {F : FTy → Type} [FloatOps F]

def srcIx (a1 : IVec S2x800000 32) : IVec S800000 32 :=
  shapeCast _ (extractStridedSlice S1x800000 ![0, 0] a1 slices_S2x800000_S1x800000_0_0) shapeCasts_S1x800000_S800000

def dstIx (a1 : IVec S2x800000 32) : IVec S800000 32 :=
  shapeCast _ (extractStridedSlice S1x800000 ![1, 0] a1 slices_S2x800000_S1x800000_1_0) shapeCasts_S1x800000_S800000

def wrap (i : IVec S800000 32) : IVec S800000 32 :=
  select (cmpi .slt i (broadcastInDim S800000 ![] bcast_S_S800000 (constantI S_ 32 0#32)))
    (addi i (broadcastInDim S800000 ![] bcast_S_S800000 (constantI S_ 32 50000#32))) i

def col (i : IVec S800000 32) : IVec S800000x1 32 :=
  broadcastInDim S800000x1 ![0] bcast_S800000_S800000x1_0 (wrap i)

def inRange (i : IVec S800000 32) : IVec S800000 1 :=
  Host.reduce IntOp.andi
    (andi (cmpi .sge (col i) (broadcastInDim S800000x1 ![] bcast_S_S800000x1 (constantI S_ 32 0#32)))
      (cmpi .sle (col i) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

def take64 (x : FVec F S50000x64 .f32) (i : IVec S800000 32) : FVec F S800000x64 .f32 :=
  select (broadcastInDim S800000x64 ![0] bcast_S800000_S800000x64_0 (inRange i))
    (Host.gather gather_S50000x64_S800000x1_S800000x64_1_0_n_n_0_1_164 x (col i))
    (broadcastInDim S800000x64 ![] bcast_S_S800000x64 (constant S_ .f32 0x7FC00000#32))

def take3 (x : FVec F S50000x3 .f32) (i : IVec S800000 32) : FVec F S800000x3 .f32 :=
  select (broadcastInDim S800000x3 ![0] bcast_S800000_S800000x3_0 (inRange i))
    (Host.gather gather_S50000x3_S800000x1_S800000x3_1_0_n_n_0_1_13 x (col i))
    (broadcastInDim S800000x3 ![] bcast_S_S800000x3 (constant S_ .f32 0x7FC00000#32))

def sqLen (d : FVec F S800000x3 .f32) : FVec F S800000x1 .f32 :=
  broadcastInDim S800000x1 ![0] bcast_S800000_S800000x1_0
    (Host.reduceAdd (mulf d d) (constant S_ .f32 0x00000000#32) reducesTo_S800000x3_S800000_d1 h_S_)

def disp (p : FVec F S50000x3 .f32) (a1 : IVec S2x800000 32) : FVec F S800000x3 .f32 :=
  subf (take3 p (srcIx a1)) (take3 p (dstIx a1))

def msgExtra (pos : FVec F S50000x3 .f32) (attr : FVec F S800000x16 .f32) (a1 : IVec S2x800000 32) : FVec F S800000x17 .f32 :=
  concatenate S800000x17 1 [⟨S800000x1, sqLen (disp pos a1)⟩, ⟨S800000x16, attr⟩] concatenates_S800000x1_S800000x16_S800000x17_d1

def posExtra (pin : FVec F S50000x3 .f32) (a1 : IVec S2x800000 32) : FVec F S800000x4 .f32 :=
  concatenate S800000x4 1 [⟨S800000x3, disp pin a1⟩, ⟨S800000x1, Host.sqrt (sqLen (disp pin a1))⟩] concatenates_S800000x3_S800000x1_S800000x4_d1

def rowBias64 (b : FVec F S64 .f32) : FVec F S1x64 .f32 := shapeCast _ b shapeCasts_S64_S1x64

def rowBias3 (b : FVec F S3 .f32) : FVec F S1x3 .f32 := shapeCast _ b shapeCasts_S3_S1x3

def segMean (dst : IVec S800000 32) (u : FVec F S800000x64 .f32) : FVec F S50000x64 .f32 :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 dst) u)
    (broadcastInDim S50000x64 ![0, 1] bcast_S50000x1_S50000x64_0_1
      (maximumf
        (Host.scatterAdd scatter_S50000x1_S800000x1_S800000x1_1_0_0_1
          (broadcastInDim S50000x1 ![] bcast_S_S50000x1 (constant S_ .f32 0x00000000#32))
          (broadcastInDim S800000x1 ![0] bcast_S800000_S800000x1_0 dst)
          (broadcastInDim S800000x1 ![] bcast_S_S800000x1 (constant S_ .f32 0x3F800000#32)))
        (broadcastInDim S50000x1 ![] bcast_S_S50000x1 (constant S_ .f32 0x3F800000#32))))

def segSum3 (dst : IVec S800000 32) (u : FVec F S800000x3 .f32) : FVec F S50000x3 .f32 :=
  Host.scatterAdd scatter_S50000x3_S800000x1_S800000x3_1_0_0_1
    (broadcastInDim S50000x3 ![] bcast_S_S50000x3 (constant S_ .f32 0x00000000#32))
    (broadcastInDim S800000x1 ![0] bcast_S800000_S800000x1_0 dst) u

end Cert.KernelIdeal.HostSide

end
-- ==== Proof.HostEntry.lean ====
/-
  What the edge stage finds in its twelve input arrays: the host operations before it, composed, as terms of the
  program's arguments (the gathered source and destination rows, the two side inputs, the weights as launched and the
  biases as one-row matrices).
-/
import proofs.«404083_j34591666602697_1_alg».proof.Proof.Gen.KernelIdeal.Frame
import proofs.«404083_j34591666602697_1_alg».proof.Proof.HostTerms
import Idealize.ShloMosaic.Lib.StableHlo.Run
import Idealize.ShloMosaic.Lib.ValueIdx

noncomputable section

open scoped BigOperators

namespace Cert.KernelIdeal.HostSide

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg)

/-! ## Typed references: the transports are identities at literal references -/

/-- Reading back what was stored at a typed reference. -/
private theorem ofBuf_toBuf {Val : EltTy → Type} {T : BufTy} (x : StableHlo.TRef sig T) (v : T.Contents Val) : x.ofBuf (x.toBuf v) = v := by
  obtain ⟨r, rfl, _, _⟩ := x; rfl

/-- At a reference's own type the two transports are the identity. -/
private theorem ofBuf_self {Val : EltTy → Type} (r : Ref sig .tc) (h2 h3) (v : r.ty.Contents Val) :
    (⟨r, rfl, h2, h3⟩ : StableHlo.TRef sig r.ty).ofBuf v = v := rfl
private theorem toBuf_self {Val : EltTy → Type} (r : Ref sig .tc) (h2 h3) (v : r.ty.Contents Val) :
    (⟨r, rfl, h2, h3⟩ : StableHlo.TRef sig r.ty).toBuf v = v := rfl

/-! ## What each stretch writes, and that it leaves every other reference as it was -/

/-- The references stretch 0 writes. -/
private abbrev wr0 : List (Ref sig .tc) :=
  [main_v0, main_v1, main_v2, main_v3]
private theorem writes0 : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Stretch 0 leaves a reference it does not write. -/
private theorem keep0 (V : Valuation τ sig (Elt F)) (r : Ref sig .tc) (h : r ∉ wr0) :
    StableHlo.after hostOps0 V (Proc.devRef .tc r) = V (Proc.devRef .tc r) :=
  StableHlo.after_of_writes_sub hostOps0 V writes0 h

/-- The references stretch 1 writes. -/
private abbrev wr1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
private theorem writes1 : (hostOps0_1 : List (HloOp τ sig (Elt F))).Forall fun op => op.writes ⊆ (wr1.map (Proc.devRef (τ := τ) .tc)).toFinset := by
  simp only [hostOps0_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Stretch 1 leaves a reference it does not write. -/
private theorem keep1 (V : Valuation τ sig (Elt F)) (r : Ref sig .tc) (h : r ∉ wr1) :
    StableHlo.after hostOps0_1 V (Proc.devRef .tc r) = V (Proc.devRef .tc r) :=
  StableHlo.after_of_writes_sub hostOps0_1 V writes1 h

/-- The references stretch 2 writes. -/
private abbrev wr2 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
private theorem writes2 : (hostOps0_2 : List (HloOp τ sig (Elt F))).Forall fun op => op.writes ⊆ (wr2.map (Proc.devRef (τ := τ) .tc)).toFinset := by
  simp only [hostOps0_2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Stretch 2 leaves a reference it does not write. -/
private theorem keep2 (V : Valuation τ sig (Elt F)) (r : Ref sig .tc) (h : r ∉ wr2) :
    StableHlo.after hostOps0_2 V (Proc.devRef .tc r) = V (Proc.devRef .tc r) :=
  StableHlo.after_of_writes_sub hostOps0_2 V writes2 h

/-- The references stretch 3 writes. -/
private abbrev wr3 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v6]
private theorem writes3 : (hostOps0_3 : List (HloOp τ sig (Elt F))).Forall fun op => op.writes ⊆ (wr3.map (Proc.devRef (τ := τ) .tc)).toFinset := by
  simp only [hostOps0_3, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Stretch 3 leaves a reference it does not write. -/
private theorem keep3 (V : Valuation τ sig (Elt F)) (r : Ref sig .tc) (h : r ∉ wr3) :
    StableHlo.after hostOps0_3 V (Proc.devRef .tc r) = V (Proc.devRef .tc r) :=
  StableHlo.after_of_writes_sub hostOps0_3 V writes3 h

/-- The references stretch 4 writes. -/
private abbrev wr4 : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v7]
private theorem writes4 : (hostOps0_4 : List (HloOp τ sig (Elt F))).Forall fun op => op.writes ⊆ (wr4.map (Proc.devRef (τ := τ) .tc)).toFinset := by
  simp only [hostOps0_4, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Stretch 4 leaves a reference it does not write. -/
private theorem keep4 (V : Valuation τ sig (Elt F)) (r : Ref sig .tc) (h : r ∉ wr4) :
    StableHlo.after hostOps0_4 V (Proc.devRef .tc r) = V (Proc.devRef .tc r) :=
  StableHlo.after_of_writes_sub hostOps0_4 V writes4 h

/-- The references stretch 5 writes. -/
private abbrev wr5 : List (Ref sig .tc) :=
  [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v8]
private theorem writes5 : (hostOps0_5 : List (HloOp τ sig (Elt F))).Forall fun op => op.writes ⊆ (wr5.map (Proc.devRef (τ := τ) .tc)).toFinset := by
  simp only [hostOps0_5, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Stretch 5 leaves a reference it does not write. -/
private theorem keep5 (V : Valuation τ sig (Elt F)) (r : Ref sig .tc) (h : r ∉ wr5) :
    StableHlo.after hostOps0_5 V (Proc.devRef .tc r) = V (Proc.devRef .tc r) :=
  StableHlo.after_of_writes_sub hostOps0_5 V writes5 h

/-- The references stretch 6 writes. -/
private abbrev wr6 : List (Ref sig .tc) :=
  [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v9]
private theorem writes6 : (hostOps0_6 : List (HloOp τ sig (Elt F))).Forall fun op => op.writes ⊆ (wr6.map (Proc.devRef (τ := τ) .tc)).toFinset := by
  simp only [hostOps0_6, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Stretch 6 leaves a reference it does not write. -/
private theorem keep6 (V : Valuation τ sig (Elt F)) (r : Ref sig .tc) (h : r ∉ wr6) :
    StableHlo.after hostOps0_6 V (Proc.devRef .tc r) = V (Proc.devRef .tc r) :=
  StableHlo.after_of_writes_sub hostOps0_6 V writes6 h

/-- The references stretch 7 writes. -/
private abbrev wr7 : List (Ref sig .tc) :=
  [main_v10, main_v11, main_cst, main_v12, main_v13, main_v14, main_v15, main_cst_0, main_v16, main_v17, main_v18, main_v19, main_v20, main_v21, main_v22, main_v23, main_v24, main_v25, main_v26]
private theorem writes7 : (hostOps0_7 : List (HloOp τ sig (Elt F))).Forall fun op => op.writes ⊆ (wr7.map (Proc.devRef (τ := τ) .tc)).toFinset := by
  simp only [hostOps0_7, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Stretch 7 leaves a reference it does not write. -/
private theorem keep7 (V : Valuation τ sig (Elt F)) (r : Ref sig .tc) (h : r ∉ wr7) :
    StableHlo.after hostOps0_7 V (Proc.devRef .tc r) = V (Proc.devRef .tc r) :=
  StableHlo.after_of_writes_sub hostOps0_7 V writes7 h

/-! ## The same, between the boundaries of the fold -/

private theorem s1 (c : Dev nD) (r : Ref sig .tc) (h : r ∉ wr0) :
    W1 m ρ c (Proc.devRef .tc r) = W0 m ρ c (Proc.devRef .tc r) := keep0 _ r h
private theorem s2 (c : Dev nD) (r : Ref sig .tc) (h : r ∉ wr1) :
    W2 m ρ c (Proc.devRef .tc r) = W1 m ρ c (Proc.devRef .tc r) := keep1 _ r h
private theorem s3 (c : Dev nD) (r : Ref sig .tc) (h : r ∉ wr2) :
    W3 m ρ c (Proc.devRef .tc r) = W2 m ρ c (Proc.devRef .tc r) := keep2 _ r h
private theorem s4 (c : Dev nD) (r : Ref sig .tc) (h : r ∉ wr3) :
    W4 m ρ c (Proc.devRef .tc r) = W3 m ρ c (Proc.devRef .tc r) := keep3 _ r h
private theorem s5 (c : Dev nD) (r : Ref sig .tc) (h : r ∉ wr4) :
    W5 m ρ c (Proc.devRef .tc r) = W4 m ρ c (Proc.devRef .tc r) := keep4 _ r h
private theorem s6 (c : Dev nD) (r : Ref sig .tc) (h : r ∉ wr5) :
    W6 m ρ c (Proc.devRef .tc r) = W5 m ρ c (Proc.devRef .tc r) := keep5 _ r h
private theorem s7 (c : Dev nD) (r : Ref sig .tc) (h : r ∉ wr6) :
    W7 m ρ c (Proc.devRef .tc r) = W6 m ρ c (Proc.devRef .tc r) := keep6 _ r h
private theorem s8 (c : Dev nD) (r : Ref sig .tc) (h : r ∉ wr7) :
    W8 m ρ c (Proc.devRef .tc r) = W7 m ρ c (Proc.devRef .tc r) := keep7 _ r h

/-- A reference no stretch writes holds at the edge stage's entry what it held at launch. -/
private theorem W8_launch (c : Dev nD) (r : Ref sig .tc) (h0 : r ∉ wr0) (h1 : r ∉ wr1) (h2 : r ∉ wr2) (h3 : r ∉ wr3)
    (h4 : r ∉ wr4) (h5 : r ∉ wr5) (h6 : r ∉ wr6) (h7 : r ∉ wr7) :
    W8 m ρ c (Proc.devRef .tc r) = W0 m ρ c (Proc.devRef .tc r) :=
  (s8 m ρ c r h7).trans <| (s7 m ρ c r h6).trans <| (s6 m ρ c r h5).trans <| (s5 m ρ c r h4).trans <|
    (s4 m ρ c r h3).trans <| (s3 m ρ c r h2).trans <| (s2 m ρ c r h1).trans (s1 m ρ c r h0)

/-! ## The first stretch: the two rows of the edge list -/

private theorem W1_src (c : Dev nD) : W1 m ρ c (Proc.devRef .tc main_v1) = srcIx (m ((c : Thread nD τ).loc main_arg1)) := by
  show StableHlo.after hostOps0 (W0 m ρ c) (Proc.devRef .tc main_v1) = _
  after_results
  rfl

private theorem W1_dst (c : Dev nD) : W1 m ρ c (Proc.devRef .tc main_v3) = dstIx (m ((c : Thread nD τ).loc main_arg1)) := by
  show StableHlo.after hostOps0 (W0 m ρ c) (Proc.devRef .tc main_v3) = _
  after_results
  rfl

/-! ## The six takes: each stretch's result over whatever the buffers held before it -/

private theorem take_v4 (V : Valuation τ sig (Elt F)) :
    StableHlo.after hostOps0_1 V (Proc.devRef .tc main_v4)
      = take64 (V (Proc.devRef .tc main_arg0)) (V (Proc.devRef .tc main_v1)) := by
  after_results_simp
  simp only [ofBuf_toBuf]
  unfold take64 inRange col wrap
  rw [toBuf_self main_v4, ofBuf_self main_v1, ofBuf_self main_arg0]

private theorem take_v5 (V : Valuation τ sig (Elt F)) :
    StableHlo.after hostOps0_2 V (Proc.devRef .tc main_v5)
      = take64 (V (Proc.devRef .tc main_arg0)) (V (Proc.devRef .tc main_v3)) := by
  after_results_simp
  simp only [ofBuf_toBuf]
  unfold take64 inRange col wrap
  rw [toBuf_self main_v5, ofBuf_self main_v3, ofBuf_self main_arg0]

private theorem take_v6 (V : Valuation τ sig (Elt F)) :
    StableHlo.after hostOps0_3 V (Proc.devRef .tc main_v6)
      = take3 (V (Proc.devRef .tc main_arg2)) (V (Proc.devRef .tc main_v1)) := by
  after_results_simp
  simp only [ofBuf_toBuf]
  unfold take3 inRange col wrap
  rw [toBuf_self main_v6, ofBuf_self main_v1, ofBuf_self main_arg2]

private theorem take_v7 (V : Valuation τ sig (Elt F)) :
    StableHlo.after hostOps0_4 V (Proc.devRef .tc main_v7)
      = take3 (V (Proc.devRef .tc main_arg2)) (V (Proc.devRef .tc main_v3)) := by
  after_results_simp
  simp only [ofBuf_toBuf]
  unfold take3 inRange col wrap
  rw [toBuf_self main_v7, ofBuf_self main_v3, ofBuf_self main_arg2]

private theorem take_v8 (V : Valuation τ sig (Elt F)) :
    StableHlo.after hostOps0_5 V (Proc.devRef .tc main_v8)
      = take3 (V (Proc.devRef .tc main_arg3)) (V (Proc.devRef .tc main_v1)) := by
  after_results_simp
  simp only [ofBuf_toBuf]
  unfold take3 inRange col wrap
  rw [toBuf_self main_v8, ofBuf_self main_v1, ofBuf_self main_arg3]

private theorem take_v9 (V : Valuation τ sig (Elt F)) :
    StableHlo.after hostOps0_6 V (Proc.devRef .tc main_v9)
      = take3 (V (Proc.devRef .tc main_arg3)) (V (Proc.devRef .tc main_v3)) := by
  after_results_simp
  simp only [ofBuf_toBuf]
  unfold take3 inRange col wrap
  rw [toBuf_self main_v9, ofBuf_self main_v3, ofBuf_self main_arg3]

/-! ## The index rows and the tables at each take's entry -/

private theorem src_at (c : Dev nD) :
    W2 m ρ c (Proc.devRef .tc main_v1) = srcIx (m ((c : Thread nD τ).loc main_arg1))
    ∧ W3 m ρ c (Proc.devRef .tc main_v1) = srcIx (m ((c : Thread nD τ).loc main_arg1))
    ∧ W4 m ρ c (Proc.devRef .tc main_v1) = srcIx (m ((c : Thread nD τ).loc main_arg1))
    ∧ W5 m ρ c (Proc.devRef .tc main_v1) = srcIx (m ((c : Thread nD τ).loc main_arg1))
    ∧ W6 m ρ c (Proc.devRef .tc main_v1) = srcIx (m ((c : Thread nD τ).loc main_arg1)) := by
  have e2 := (s2 m ρ c main_v1 (by decide)).trans (W1_src m ρ c)
  have e3 := (s3 m ρ c main_v1 (by decide)).trans e2
  have e4 := (s4 m ρ c main_v1 (by decide)).trans e3
  have e5 := (s5 m ρ c main_v1 (by decide)).trans e4
  have e6 := (s6 m ρ c main_v1 (by decide)).trans e5
  exact ⟨e2, e3, e4, e5, e6⟩

private theorem dst_at (c : Dev nD) :
    W2 m ρ c (Proc.devRef .tc main_v3) = dstIx (m ((c : Thread nD τ).loc main_arg1))
    ∧ W3 m ρ c (Proc.devRef .tc main_v3) = dstIx (m ((c : Thread nD τ).loc main_arg1))
    ∧ W4 m ρ c (Proc.devRef .tc main_v3) = dstIx (m ((c : Thread nD τ).loc main_arg1))
    ∧ W5 m ρ c (Proc.devRef .tc main_v3) = dstIx (m ((c : Thread nD τ).loc main_arg1))
    ∧ W6 m ρ c (Proc.devRef .tc main_v3) = dstIx (m ((c : Thread nD τ).loc main_arg1)) := by
  have e2 := (s2 m ρ c main_v3 (by decide)).trans (W1_dst m ρ c)
  have e3 := (s3 m ρ c main_v3 (by decide)).trans e2
  have e4 := (s4 m ρ c main_v3 (by decide)).trans e3
  have e5 := (s5 m ρ c main_v3 (by decide)).trans e4
  have e6 := (s6 m ρ c main_v3 (by decide)).trans e5
  exact ⟨e2, e3, e4, e5, e6⟩

/-- An argument's buffer at every boundary up to the last take's entry: as launched. -/
private theorem arg_at (c : Dev nD) (r : Ref sig .tc) (h0 : r ∉ wr0) (h1 : r ∉ wr1) (h2 : r ∉ wr2) (h3 : r ∉ wr3)
    (h4 : r ∉ wr4) (h5 : r ∉ wr5) :
    W1 m ρ c (Proc.devRef .tc r) = W0 m ρ c (Proc.devRef .tc r)
    ∧ W2 m ρ c (Proc.devRef .tc r) = W0 m ρ c (Proc.devRef .tc r)
    ∧ W3 m ρ c (Proc.devRef .tc r) = W0 m ρ c (Proc.devRef .tc r)
    ∧ W4 m ρ c (Proc.devRef .tc r) = W0 m ρ c (Proc.devRef .tc r)
    ∧ W5 m ρ c (Proc.devRef .tc r) = W0 m ρ c (Proc.devRef .tc r)
    ∧ W6 m ρ c (Proc.devRef .tc r) = W0 m ρ c (Proc.devRef .tc r) := by
  have e1 := s1 m ρ c r h0
  have e2 := (s2 m ρ c r h1).trans e1
  have e3 := (s3 m ρ c r h2).trans e2
  have e4 := (s4 m ρ c r h3).trans e3
  have e5 := (s5 m ρ c r h4).trans e4
  have e6 := (s6 m ρ c r h5).trans e5
  exact ⟨e1, e2, e3, e4, e5, e6⟩

/-! ## The gathered rows where each take leaves them -/

private theorem W2_v4 (c : Dev nD) :
    W2 m ρ c (Proc.devRef .tc main_v4)
      = take64 (m ((c : Thread nD τ).loc main_arg0)) (srcIx (m ((c : Thread nD τ).loc main_arg1))) := by
  show StableHlo.after hostOps0_1 (W1 m ρ c) (Proc.devRef .tc main_v4) = _
  rw [take_v4, W1_src m ρ c, (arg_at m ρ c main_arg0 (by decide) (by decide) (by decide) (by decide) (by decide) (by decide)).1]

private theorem W3_v5 (c : Dev nD) :
    W3 m ρ c (Proc.devRef .tc main_v5)
      = take64 (m ((c : Thread nD τ).loc main_arg0)) (dstIx (m ((c : Thread nD τ).loc main_arg1))) := by
  show StableHlo.after hostOps0_2 (W2 m ρ c) (Proc.devRef .tc main_v5) = _
  rw [take_v5, (dst_at m ρ c).1, (arg_at m ρ c main_arg0 (by decide) (by decide) (by decide) (by decide) (by decide) (by decide)).2.1]

private theorem W4_v6 (c : Dev nD) :
    W4 m ρ c (Proc.devRef .tc main_v6)
      = take3 (m ((c : Thread nD τ).loc main_arg2)) (srcIx (m ((c : Thread nD τ).loc main_arg1))) := by
  show StableHlo.after hostOps0_3 (W3 m ρ c) (Proc.devRef .tc main_v6) = _
  rw [take_v6, (src_at m ρ c).2.1, (arg_at m ρ c main_arg2 (by decide) (by decide) (by decide) (by decide) (by decide) (by decide)).2.2.1]

private theorem W5_v7 (c : Dev nD) :
    W5 m ρ c (Proc.devRef .tc main_v7)
      = take3 (m ((c : Thread nD τ).loc main_arg2)) (dstIx (m ((c : Thread nD τ).loc main_arg1))) := by
  show StableHlo.after hostOps0_4 (W4 m ρ c) (Proc.devRef .tc main_v7) = _
  rw [take_v7, (dst_at m ρ c).2.2.1, (arg_at m ρ c main_arg2 (by decide) (by decide) (by decide) (by decide) (by decide) (by decide)).2.2.2.1]

private theorem W6_v8 (c : Dev nD) :
    W6 m ρ c (Proc.devRef .tc main_v8)
      = take3 (m ((c : Thread nD τ).loc main_arg3)) (srcIx (m ((c : Thread nD τ).loc main_arg1))) := by
  show StableHlo.after hostOps0_5 (W5 m ρ c) (Proc.devRef .tc main_v8) = _
  rw [take_v8, (src_at m ρ c).2.2.2.1, (arg_at m ρ c main_arg3 (by decide) (by decide) (by decide) (by decide) (by decide) (by decide)).2.2.2.2.1]

private theorem W7_v9 (c : Dev nD) :
    W7 m ρ c (Proc.devRef .tc main_v9)
      = take3 (m ((c : Thread nD τ).loc main_arg3)) (dstIx (m ((c : Thread nD τ).loc main_arg1))) := by
  show StableHlo.after hostOps0_6 (W6 m ρ c) (Proc.devRef .tc main_v9) = _
  rw [take_v9, (dst_at m ρ c).2.2.2.2, (arg_at m ρ c main_arg3 (by decide) (by decide) (by decide) (by decide) (by decide) (by decide)).2.2.2.2.2]

/-! ## The last stretch: its results over whatever the buffers held before it -/

private theorem tail_v19 (V : Valuation τ sig (Elt F)) :
    StableHlo.after hostOps0_7 V (Proc.devRef .tc main_v19)
      = concatenate S800000x17 1
          [⟨S800000x1, sqLen (subf (V (Proc.devRef .tc main_v6)) (V (Proc.devRef .tc main_v7)))⟩,
           ⟨S800000x16, V (Proc.devRef .tc main_arg4)⟩] concatenates_S800000x1_S800000x16_S800000x17_d1 := by
  after_results
  rfl

private theorem tail_v20 (V : Valuation τ sig (Elt F)) :
    StableHlo.after hostOps0_7 V (Proc.devRef .tc main_v20)
      = concatenate S800000x4 1
          [⟨S800000x3, subf (V (Proc.devRef .tc main_v8)) (V (Proc.devRef .tc main_v9))⟩,
           ⟨S800000x1, Host.sqrt (sqLen (subf (V (Proc.devRef .tc main_v8)) (V (Proc.devRef .tc main_v9))))⟩]
          concatenates_S800000x3_S800000x1_S800000x4_d1 := by
  after_results
  rfl

private theorem tail_v21 (V : Valuation τ sig (Elt F)) :
    StableHlo.after hostOps0_7 V (Proc.devRef .tc main_v21) = rowBias64 (V (Proc.devRef .tc main_arg6)) := by
  after_results
  rfl
private theorem tail_v22 (V : Valuation τ sig (Elt F)) :
    StableHlo.after hostOps0_7 V (Proc.devRef .tc main_v22) = rowBias64 (V (Proc.devRef .tc main_arg8)) := by
  after_results
  rfl
private theorem tail_v23 (V : Valuation τ sig (Elt F)) :
    StableHlo.after hostOps0_7 V (Proc.devRef .tc main_v23) = rowBias64 (V (Proc.devRef .tc main_arg14)) := by
  after_results
  rfl
private theorem tail_v24 (V : Valuation τ sig (Elt F)) :
    StableHlo.after hostOps0_7 V (Proc.devRef .tc main_v24) = rowBias3 (V (Proc.devRef .tc main_arg16)) := by
  after_results
  rfl

/-- An argument's buffer at the last stretch's entry: as launched. -/
private theorem W7_launch (c : Dev nD) (r : Ref sig .tc) (h0 : r ∉ wr0) (h1 : r ∉ wr1) (h2 : r ∉ wr2) (h3 : r ∉ wr3)
    (h4 : r ∉ wr4) (h5 : r ∉ wr5) (h6 : r ∉ wr6) :
    W7 m ρ c (Proc.devRef .tc r) = W0 m ρ c (Proc.devRef .tc r) :=
  (s7 m ρ c r h6).trans (arg_at m ρ c r h0 h1 h2 h3 h4 h5).2.2.2.2.2

/-! ## The edge stage's twelve input arrays -/

theorem entry_xs (c : Dev nD) : V8 m ρ c main_v4 = take64 (m ((c : Thread nD τ).loc main_arg0)) (srcIx (m ((c : Thread nD τ).loc main_arg1))) :=
  (s8 m ρ c main_v4 (by decide)).trans <| (s7 m ρ c main_v4 (by decide)).trans <| (s6 m ρ c main_v4 (by decide)).trans <|
    (s5 m ρ c main_v4 (by decide)).trans <| (s4 m ρ c main_v4 (by decide)).trans <| (s3 m ρ c main_v4 (by decide)).trans (W2_v4 m ρ c)
theorem entry_xd (c : Dev nD) : V8 m ρ c main_v5 = take64 (m ((c : Thread nD τ).loc main_arg0)) (dstIx (m ((c : Thread nD τ).loc main_arg1))) :=
  (s8 m ρ c main_v5 (by decide)).trans <| (s7 m ρ c main_v5 (by decide)).trans <| (s6 m ρ c main_v5 (by decide)).trans <|
    (s5 m ρ c main_v5 (by decide)).trans <| (s4 m ρ c main_v5 (by decide)).trans (W3_v5 m ρ c)
theorem entry_msgExtra (c : Dev nD) : V8 m ρ c main_v19
    = msgExtra (m ((c : Thread nD τ).loc main_arg2)) (m ((c : Thread nD τ).loc main_arg4)) (m ((c : Thread nD τ).loc main_arg1)) := by
  show StableHlo.after hostOps0_7 (W7 m ρ c) (Proc.devRef .tc main_v19) = _
  rw [tail_v19,
    (s7 m ρ c main_v6 (by decide)).trans ((s6 m ρ c main_v6 (by decide)).trans ((s5 m ρ c main_v6 (by decide)).trans (W4_v6 m ρ c))),
    (s7 m ρ c main_v7 (by decide)).trans ((s6 m ρ c main_v7 (by decide)).trans (W5_v7 m ρ c)),
    W7_launch m ρ c main_arg4 (by decide) (by decide) (by decide) (by decide) (by decide) (by decide) (by decide)]
  rfl
theorem entry_posExtra (c : Dev nD) : V8 m ρ c main_v20
    = posExtra (m ((c : Thread nD τ).loc main_arg3)) (m ((c : Thread nD τ).loc main_arg1)) := by
  show StableHlo.after hostOps0_7 (W7 m ρ c) (Proc.devRef .tc main_v20) = _
  rw [tail_v20, (s7 m ρ c main_v8 (by decide)).trans (W6_v8 m ρ c), W7_v9 m ρ c]
  rfl
theorem entry_mw1 (c : Dev nD) : V8 m ρ c main_arg5 = m ((c : Thread nD τ).loc main_arg5) :=
  W8_launch m ρ c main_arg5 (by decide) (by decide) (by decide) (by decide) (by decide) (by decide) (by decide) (by decide)
theorem entry_mb1 (c : Dev nD) : V8 m ρ c main_v21 = rowBias64 (m ((c : Thread nD τ).loc main_arg6)) := by
  show StableHlo.after hostOps0_7 (W7 m ρ c) (Proc.devRef .tc main_v21) = _
  rw [tail_v21, W7_launch m ρ c main_arg6 (by decide) (by decide) (by decide) (by decide) (by decide) (by decide) (by decide)]
theorem entry_mw2 (c : Dev nD) : V8 m ρ c main_arg7 = m ((c : Thread nD τ).loc main_arg7) :=
  W8_launch m ρ c main_arg7 (by decide) (by decide) (by decide) (by decide) (by decide) (by decide) (by decide) (by decide)
theorem entry_mb2 (c : Dev nD) : V8 m ρ c main_v22 = rowBias64 (m ((c : Thread nD τ).loc main_arg8)) := by
  show StableHlo.after hostOps0_7 (W7 m ρ c) (Proc.devRef .tc main_v22) = _
  rw [tail_v22, W7_launch m ρ c main_arg8 (by decide) (by decide) (by decide) (by decide) (by decide) (by decide) (by decide)]
theorem entry_cw1 (c : Dev nD) : V8 m ρ c main_arg13 = m ((c : Thread nD τ).loc main_arg13) :=
  W8_launch m ρ c main_arg13 (by decide) (by decide) (by decide) (by decide) (by decide) (by decide) (by decide) (by decide)
theorem entry_cb1 (c : Dev nD) : V8 m ρ c main_v23 = rowBias64 (m ((c : Thread nD τ).loc main_arg14)) := by
  show StableHlo.after hostOps0_7 (W7 m ρ c) (Proc.devRef .tc main_v23) = _
  rw [tail_v23, W7_launch m ρ c main_arg14 (by decide) (by decide) (by decide) (by decide) (by decide) (by decide) (by decide)]
theorem entry_cw2 (c : Dev nD) : V8 m ρ c main_arg15 = m ((c : Thread nD τ).loc main_arg15) :=
  W8_launch m ρ c main_arg15 (by decide) (by decide) (by decide) (by decide) (by decide) (by decide) (by decide) (by decide)
theorem entry_cb2 (c : Dev nD) : V8 m ρ c main_v24 = rowBias3 (m ((c : Thread nD τ).loc main_arg16)) := by
  show StableHlo.after hostOps0_7 (W7 m ρ c) (Proc.devRef .tc main_v24) = _
  rw [tail_v24, W7_launch m ρ c main_arg16 (by decide) (by decide) (by decide) (by decide) (by decide) (by decide) (by decide)]

end Cert.KernelIdeal.HostSide

end
-- ==== Proof.HostMid.lean ====
/-
  What the node stage finds in its six input arrays, and what the two result buffers hold at the end: the node
  features as launched, the mean over each node's incoming edges of the messages the edge stage left, the weights and
  one-row biases; the first result is the array the node stage leaves, the second the sum over each node's incoming
  edges of the coordinate updates the edge stage left.
-/
import proofs.«404083_j34591666602697_1_alg».proof.Proof.Gen.KernelIdeal.Frame
import proofs.«404083_j34591666602697_1_alg».proof.Proof.HostTerms
import Idealize.ShloMosaic.Lib.StableHlo.Run
import Idealize.ShloMosaic.Lib.ValueIdx

noncomputable section

open scoped BigOperators

namespace Cert.KernelIdeal.HostSide

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg)

/-- One stretch of host operations, none of which writes the buffer being read: the buffer holds after the stretch
    what it held before it. -/
local macro "skip_stretch" ops:ident : tactic =>
  `(tactic| (refine (StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans ?_))

/-- The seven stretches from the second to the eighth boundary, walked backwards. -/
local macro "skip_to_first" : tactic =>
  `(tactic| (skip_stretch hostOps0_6; skip_stretch hostOps0_5; skip_stretch hostOps0_4; skip_stretch hostOps0_3;
             skip_stretch hostOps0_2; skip_stretch hostOps0_1))

/-! ## The destination row of the edge list -/

/-- The first stretch slices the second row out of the 2 × E edge list and flattens it. -/
private theorem first_dst (c : Dev nD) :
    W1 m ρ c (Proc.devRef .tc main_v3) = dstIx (m ((c : Thread nD τ).loc main_arg1)) := by
  show StableHlo.after hostOps0 (W0 m ρ c) (Proc.devRef .tc main_v3) = _
  after_results
  rfl

/-- Nothing up to the edge stage's exit writes the destination row again. -/
private theorem edge_exit_dst (c : Dev nD) :
    W9 m ρ c (Proc.devRef .tc main_v3) = dstIx (m ((c : Thread nD τ).loc main_arg1)) := by
  refine (W9_of_ne m ρ c main_v3 (by decide)).trans ?_
  skip_stretch hostOps0_7
  skip_to_first
  exact first_dst m ρ c

/-- Nor does anything up to the node stage's exit. -/
private theorem node_exit_dst (c : Dev nD) :
    W11 m ρ c (Proc.devRef .tc main_v3) = dstIx (m ((c : Thread nD τ).loc main_arg1)) := by
  refine (W11_of_ne m ρ c main_v3 (by decide)).trans ?_
  skip_stretch hostOps1
  exact edge_exit_dst m ρ c

/-! ## The node stage's six input arrays -/

theorem mid_x (c : Dev nD) : V10 m ρ c main_arg0 = m ((c : Thread nD τ).loc main_arg0) := by
  show W10 m ρ c (Proc.devRef .tc main_arg0) = _
  skip_stretch hostOps1
  refine (W9_of_ne m ρ c main_arg0 (by decide)).trans ?_
  skip_stretch hostOps0_7
  skip_to_first
  skip_stretch hostOps0
  rfl

theorem mid_mi (c : Dev nD) : V10 m ρ c main_v38
    = segMean (dstIx (m ((c : Thread nD τ).loc main_arg1))) ((dat0 (V8 m ρ) c).arrAt 12 cfg0.N) := by
  have ed := edge_exit_dst m ρ c
  have eu : W9 m ρ c (Proc.devRef .tc main_v27_0) = (dat0 (V8 m ρ) c).arrAt 12 cfg0.N := W9_arr m ρ c 12
  show StableHlo.after hostOps1 (W9 m ρ c) (Proc.devRef .tc main_v38) = _
  after_results_simp
  rw [ed, eu]
  rfl

theorem mid_nw1 (c : Dev nD) : V10 m ρ c main_arg9 = m ((c : Thread nD τ).loc main_arg9) := by
  show W10 m ρ c (Proc.devRef .tc main_arg9) = _
  skip_stretch hostOps1
  refine (W9_of_ne m ρ c main_arg9 (by decide)).trans ?_
  skip_stretch hostOps0_7
  skip_to_first
  skip_stretch hostOps0
  rfl

theorem mid_nb1 (c : Dev nD) : V10 m ρ c main_v25 = rowBias64 (m ((c : Thread nD τ).loc main_arg10)) := by
  show W10 m ρ c (Proc.devRef .tc main_v25) = _
  skip_stretch hostOps1
  refine (W9_of_ne m ρ c main_v25 (by decide)).trans ?_
  show StableHlo.after hostOps0_7 (W7 m ρ c) (Proc.devRef .tc main_v25) = _
  after_results
  rfl

theorem mid_nw2 (c : Dev nD) : V10 m ρ c main_arg11 = m ((c : Thread nD τ).loc main_arg11) := by
  show W10 m ρ c (Proc.devRef .tc main_arg11) = _
  skip_stretch hostOps1
  refine (W9_of_ne m ρ c main_arg11 (by decide)).trans ?_
  skip_stretch hostOps0_7
  skip_to_first
  skip_stretch hostOps0
  rfl

theorem mid_nb2 (c : Dev nD) : V10 m ρ c main_v26 = rowBias64 (m ((c : Thread nD τ).loc main_arg12)) := by
  show W10 m ρ c (Proc.devRef .tc main_v26) = _
  skip_stretch hostOps1
  refine (W9_of_ne m ρ c main_v26 (by decide)).trans ?_
  show StableHlo.after hostOps0_7 (W7 m ρ c) (Proc.devRef .tc main_v26) = _
  after_results
  rfl

/-! ## The two result buffers -/

/-- The first result buffer at the end of the run. -/
theorem end_out0 (c : Dev nD) : W12 m ρ c (Proc.devRef .tc main_v39) = (dat1 (V10 m ρ) c).arrAt 6 cfg1.N := by
  skip_stretch hostOps2
  exact W11_arr m ρ c 6

/-- The second result buffer at the end of the run. -/
theorem end_out1 (c : Dev nD) : W12 m ρ c (Proc.devRef .tc main_v42)
    = segSum3 (dstIx (m ((c : Thread nD τ).loc main_arg1))) ((dat0 (V8 m ρ) c).arrAt 13 cfg0.N) := by
  have ed := node_exit_dst m ρ c
  have eu : W11 m ρ c (Proc.devRef .tc main_v27_1) = (dat0 (V8 m ρ) c).arrAt 13 cfg0.N := by
    refine (W11_of_ne m ρ c main_v27_1 (by decide)).trans ?_
    skip_stretch hostOps1
    exact W9_arr m ρ c 13
  show StableHlo.after hostOps2 (W11 m ρ c) (Proc.devRef .tc main_v42) = _
  after_results
  rw [ed, eu]
  rfl

end Cert.KernelIdeal.HostSide

end
-- ==== Proof.LayerOut.lean ====
/-
  The two results of the layer as functions of the seventeen argument arrays, over the extended reals.

  `out0`: the new node features — the node function of the node features and the mean, over each node's incoming
  edges, of the messages; the messages are the message function of the source rows, the destination rows and
  [squared distance | attributes]. `out1`: the sum, over each node's incoming edges, of the coordinate updates.
-/
import proofs.«404083_j34591666602697_1_alg».proof.Proof.HostTerms
import proofs.«404083_j34591666602697_1_alg».proof.Proof.Layer

noncomputable section

namespace Cert.KernelIdeal.HostSide

open Cert.KernelIdeal Idealize.ShloMosaic Idealize.SL.Sem

/-- The messages of all edges from the argument arrays. -/
def msgsOf (a0 : FVec Ideal S50000x64 .f32) (a1 : IVec S2x800000 32) (a2 : FVec Ideal S50000x3 .f32) (a4 : FVec Ideal S800000x16 .f32)
    (a5 : FVec Ideal S145x64 .f32) (a6 : FVec Ideal S64 .f32) (a7 : FVec Ideal S64x64 .f32) (a8 : FVec Ideal S64 .f32) :
    FVec Ideal S800000x64 .f32 :=
  Layer.M0 (n := 800000) (take64 a0 (srcIx a1)) (take64 a0 (dstIx a1)) (msgExtra a2 a4 a1) a5 (rowBias64 a6) a7 (rowBias64 a8)

/-- The first result: the new node features. -/
def out0 (a0 : FVec Ideal S50000x64 .f32) (a1 : IVec S2x800000 32) (a2 : FVec Ideal S50000x3 .f32) (a4 : FVec Ideal S800000x16 .f32)
    (a5 : FVec Ideal S145x64 .f32) (a6 : FVec Ideal S64 .f32) (a7 : FVec Ideal S64x64 .f32) (a8 : FVec Ideal S64 .f32)
    (a9 : FVec Ideal S128x64 .f32) (a10 : FVec Ideal S64 .f32) (a11 : FVec Ideal S64x64 .f32) (a12 : FVec Ideal S64 .f32) :
    FVec Ideal S50000x64 .f32 :=
  Layer.H1 (n := 50000) a0 (segMean (dstIx a1) (msgsOf a0 a1 a2 a4 a5 a6 a7 a8)) a9 (rowBias64 a10) a11 (rowBias64 a12)

/-- The second result: the summed coordinate updates. -/
def out1 (a0 : FVec Ideal S50000x64 .f32) (a1 : IVec S2x800000 32) (a2 a3 : FVec Ideal S50000x3 .f32) (a4 : FVec Ideal S800000x16 .f32)
    (a5 : FVec Ideal S145x64 .f32) (a6 : FVec Ideal S64 .f32) (a7 : FVec Ideal S64x64 .f32) (a8 : FVec Ideal S64 .f32)
    (a13 : FVec Ideal S64x64 .f32) (a14 : FVec Ideal S64 .f32) (a15 : FVec Ideal S64x3 .f32) (a16 : FVec Ideal S3 .f32) :
    FVec Ideal S50000x3 .f32 :=
  segSum3 (dstIx a1)
    (Layer.P0 (n := 800000) (take64 a0 (srcIx a1)) (take64 a0 (dstIx a1)) (msgExtra a2 a4 a1) (posExtra a3 a1) a5 (rowBias64 a6) a7
      (rowBias64 a8) a13 (rowBias64 a14) a15 (rowBias3 a16))

end Cert.KernelIdeal.HostSide

end
-- ==== Proof.KernelValue.lean ====
/-
  The kernel program's two results as functions of its arguments.

  The last boundary's contents at the first result buffer are what the node stage leaves: the node function of what it
  found, which is the node features as launched and the per-node mean of what the edge stage left — the message
  function of what THAT stage found, the gathered rows and side inputs computed on the host from the arguments. The
  second result is the per-node sum of the coordinate updates the edge stage left. So every weakly fair execution ends
  with the results at `out0` and `out1` of the argument arrays.
-/
import proofs.«404083_j34591666602697_1_alg».proof.Proof.KernelRun
import proofs.«404083_j34591666602697_1_alg».proof.Proof.Blocks
import proofs.«404083_j34591666602697_1_alg».proof.Proof.HostEntry
import proofs.«404083_j34591666602697_1_alg».proof.Proof.HostMid
import proofs.«404083_j34591666602697_1_alg».proof.Proof.LayerOut

noncomputable section

namespace Cert.KernelIdeal.Result

open Cert.KernelIdeal Cert.KernelIdeal.Gen Cert.KernelIdeal.HostSide Idealize.ShloMosaic Idealize.ShloMosaic.TcCoe Idealize.SL.Sem

variable (m : (ℓ : Loc nD τ sig) → Buf (Elt Ideal) ℓ) (ρ : Dev nD → PrngReg)

/-- The messages the edge stage leaves, from the arguments. -/
theorem msgs_eq (c : Dev nD) : (dat0 (V8 m ρ) c).arrAt 12 cfg0.N
    = msgsOf (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [Blocks.msgs (V8 m ρ) c, entry_xs, entry_xd, entry_msgExtra, entry_mw1, entry_mb1, entry_mw2, entry_mb2]
  rfl

/-- The first result buffer at the end: `out0` of the arguments. -/
theorem out0_eq (c : Dev nD) : W12 m ρ c (Proc.devRef .tc main_v39)
    = out0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [end_out0, Blocks.nodes (V10 m ρ) c, mid_x, mid_mi, mid_nw1, mid_nb1, mid_nw2, mid_nb2, msgs_eq]
  rfl

/-- The second result buffer at the end: `out1` of the arguments. -/
theorem out1_eq (c : Dev nD) : W12 m ρ c (Proc.devRef .tc main_v42)
    = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) (m ((c.tc : Thread nD τ).loc main_arg15)) (m ((c.tc : Thread nD τ).loc main_arg16)) := by
  rw [end_out1, Blocks.posUpds (V8 m ρ) c, entry_xs, entry_xd, entry_msgExtra, entry_posExtra, entry_mw1, entry_mb1, entry_mw2,
    entry_mb2, entry_cw1, entry_cb1, entry_cw2, entry_cb2]
  rfl

/-- Every weakly fair execution ends with the results at `out0`, `out1` of the arguments and the arguments unchanged. -/
theorem run : θ_run defs (onTc (τ := τ) (main (F := Ideal))) ⟨m, fun _ => 0, ρ⟩ (fun r => ∀ c : Dev nD,
      r.2.mem ((c.tc : Thread nD τ).loc main_v39) = out0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v42) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c).1.trans (out0_eq m ρ c), (h c).2.1.trans (out1_eq m ρ c), (h c).2.2⟩)
    (run_results m ρ)

end Cert.KernelIdeal.Result

end
-- ==== Proof.Take.lean ====
/-
  Indices in range. An index `i` with `−50000 ≤ i < 50000` wraps to a row `0 … 49999` of the table, so the
  fill-mode take never fills: it is the plain gather at the wrapped index. The stated domain of the edge list says every
  entry of the 2 × E index array is in that range, hence so is every entry of either row.
-/
import proofs.«404083_j34591666602697_1_alg».proof.Proof.HostTerms
import proofs.«404083_j34591666602697_1_alg».proof.Pre_finite_inputs
import proofs.«404083_j34591666602697_1_alg».proof.Proof.Gen.Pre_finite_inputs
import Idealize.ShloMosaic.Lib.ValueIdx
import Idealize.ShloMosaic.Lib.ReduceAll
import Idealize.ShloMosaic.Lib.StableHlo.Predicate
import Idealize.ShloMosaic.Lib.Pipeline.Value

noncomputable section

open scoped BigOperators

namespace Cert.KernelIdeal.HostSide

open Cert.KernelIdeal Idealize.ShloMosaic Idealize.ShloMosaic.ValueIdx Idealize.SL.Sem

variable {F : FTy → Type} [FloatOps F]

/-! ## Words: the wrapped index is a row of the table -/

private theorem ofBool_one (b : Bool) : BitVec.ofBool b = 1#1 ↔ b = true := by cases b <;> decide

/-- A word `w` with `−50000 ≤ w < 50000`, moved up by 50000 when negative: its value is `w` when `0 ≤ w`, `w + 50000` when
    `w < 0` (the addition does not wrap). -/
private theorem wrapWord_toInt (w : BitVec 32) (h : -50000 ≤ w.toInt ∧ w.toInt < 50000) :
    (Scalar.select (IntOp.cmpi .slt w 0#32) (IntOp.addi w 50000#32) w).toInt
      = if w.toInt < 0 then w.toInt + 50000 else w.toInt := by
  obtain ⟨h1, h2⟩ := h
  have h0 : (0#32 : BitVec 32).toInt = 0 := by decide
  by_cases hc : w.toInt < 0
  · have hs : IntOp.cmpi .slt w 0#32 = 1#1 := by
      unfold IntOp.cmpi
      rw [ofBool_one]
      simp only [BitVec.slt, decide_eq_true_eq, h0]
      exact hc
    rw [hs, select_one, if_pos hc]
    have hw := BitVec.toInt_eq_toNat_cond w
    have hn := w.isLt
    have ha : (IntOp.addi w 50000#32).toNat = (w.toNat + 50000) % 2 ^ 32 := by
      show (w + 50000#32).toNat = _
      rw [BitVec.toNat_add]; rfl
    have hai := BitVec.toInt_eq_toNat_cond (IntOp.addi w 50000#32)
    rw [ha] at hai
    split at hw <;> split at hai <;> omega
  · have hs : IntOp.cmpi .slt w 0#32 = 0#1 := by
      refine eq_zero_of_ne_one fun hs => hc ?_
      unfold IntOp.cmpi at hs
      rw [ofBool_one] at hs
      simpa only [BitVec.slt, decide_eq_true_eq, h0] using hs
    rw [hs, select_zero, if_neg hc]

/-- Hence it lies in `0 … 49999`: both printed comparisons are 1. -/
private theorem wrap_word (w : BitVec 32) (h : -50000 ≤ w.toInt ∧ w.toInt < 50000) :
    IntOp.cmpi .sge (Scalar.select (IntOp.cmpi .slt w 0#32) (IntOp.addi w 50000#32) w) 0#32 = 1#1 ∧
    IntOp.cmpi .sle (Scalar.select (IntOp.cmpi .slt w 0#32) (IntOp.addi w 50000#32) w) 49999#32 = 1#1 := by
  have hv := wrapWord_toInt w h
  obtain ⟨h1, h2⟩ := h
  generalize Scalar.select (IntOp.cmpi .slt w 0#32) (IntOp.addi w 50000#32) w = v at hv ⊢
  have h0 : (0#32 : BitVec 32).toInt = 0 := by decide
  have h49 : (49999#32 : BitVec 32).toInt = 49999 := by decide
  refine ⟨?_, ?_⟩
  · unfold IntOp.cmpi
    rw [ofBool_one]
    simp only [BitVec.sle, decide_eq_true_eq, h0, hv]
    split <;> omega
  · unfold IntOp.cmpi
    rw [ofBool_one]
    simp only [BitVec.sle, decide_eq_true_eq, h49, hv]
    split <;> omega

/-- A left fold by `and` from 1 over 1s is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A reduce by `and` from 1 of an array of 1s is 1 everywhere. -/
private theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ fun n _ => hx n

/-! ## The wrapped index, its column, the range bit -/

/-- The wrapped index at an edge. -/
private theorem wrap_apply (i : IVec S800000 32) (e : S800000.Idx) :
    wrap i e = Scalar.select (IntOp.cmpi .slt (i e) 0#32) (IntOp.addi (i e) 50000#32) (i e) := rfl

/-- In range, the wrapped index's value at an edge. -/
private theorem wrap_toInt (i : IVec S800000 32) (e : S800000.Idx) (h : -50000 ≤ (i e).toInt ∧ (i e).toInt < 50000) :
    (wrap i e).toInt = if (i e).toInt < 0 then (i e).toInt + 50000 else (i e).toInt :=
  wrapWord_toInt (i e) h

/-- The column of wrapped indices at `(e, 0)` is the wrapped index at `e`. -/
private theorem col_apply (i : IVec S800000 32) (j : S800000x1.Idx) :
    col i j = wrap i (ix1 ⟨(j 0).val, idx2_lt0 j⟩) := by
  unfold col
  refine broadcastInDim_apply _ _ _ j _ fun a => ?_
  obtain rfl : a = 0 := Subsingleton.elim _ _
  rfl

/-- In range, the range bit is 1 at every edge. -/
private theorem inRange_eq_one (i : IVec S800000 32)
    (h : ∀ e : S800000.Idx, -50000 ≤ (i e).toInt ∧ (i e).toInt < 50000) (e : S800000.Idx) : inRange i e = 1#1 := by
  unfold inRange
  refine reduce_andi_of_all _ _ _ _ (fun _ => rfl) (fun j => ?_) e
  show IntOp.andi (IntOp.cmpi .sge (col i j) 0#32) (IntOp.cmpi .sle (col i j) 49999#32) = 1#1
  rw [col_apply, wrap_apply]
  obtain ⟨ha, hb⟩ := wrap_word _ (h (ix1 ⟨(j 0).val, idx2_lt0 j⟩))
  rw [ha, hb]
  rfl

/-- In range, the fill-mode take of 64-wide rows is the gather at the wrapped index. -/
theorem take64_eq_gather (x : FVec F S50000x64 .f32) (i : IVec S800000 32)
    (h : ∀ e : S800000.Idx, -50000 ≤ (i e).toInt ∧ (i e).toInt < 50000) :
    take64 x i = Host.gather gather_S50000x64_S800000x1_S800000x64_1_0_n_n_0_1_164 x (col i) := by
  funext j
  unfold take64
  rw [select_apply]
  show Scalar.select (inRange i _) _ _ = _
  rw [inRange_eq_one i h, select_one]

/-- In range, the fill-mode take of 3-wide rows is the gather at the wrapped index. -/
theorem take3_eq_gather (x : FVec F S50000x3 .f32) (i : IVec S800000 32)
    (h : ∀ e : S800000.Idx, -50000 ≤ (i e).toInt ∧ (i e).toInt < 50000) :
    take3 x i = Host.gather gather_S50000x3_S800000x1_S800000x3_1_0_n_n_0_1_13 x (col i) := by
  funext j
  unfold take3
  rw [select_apply]
  show Scalar.select (inRange i _) _ _ = _
  rw [inRange_eq_one i h, select_one]

/-- Either row of an index array whose entries are all in range has its entries in range. -/
theorem srcIx_range (a1 : IVec S2x800000 32) (h : ∀ j : S2x800000.Idx, -50000 ≤ (a1 j).toInt ∧ (a1 j).toInt < 50000) :
    ∀ e : S800000.Idx, -50000 ≤ (srcIx a1 e).toInt ∧ (srcIx a1 e).toInt < 50000 := by
  intro e
  unfold srcIx shapeCast extractStridedSlice
  exact h _
theorem dstIx_range (a1 : IVec S2x800000 32) (h : ∀ j : S2x800000.Idx, -50000 ≤ (a1 j).toInt ∧ (a1 j).toInt < 50000) :
    ∀ e : S800000.Idx, -50000 ≤ (dstIx a1 e).toInt ∧ (dstIx a1 e).toInt < 50000 := by
  intro e
  unfold dstIx shapeCast extractStridedSlice
  exact h _

/-- The stated precondition, all ones, says every entry of the edge list is in `[−50000, 50000)`. -/
theorem index_range_of_pre (a0 : FVec Ideal Cert.Pre_finite_inputs.S50000x64 .f32) (a1 : IVec Cert.Pre_finite_inputs.S2x800000 32)
    (a2 a3 : FVec Ideal Cert.Pre_finite_inputs.S50000x3 .f32) (a4 : FVec Ideal Cert.Pre_finite_inputs.S800000x16 .f32)
    (a5 : FVec Ideal Cert.Pre_finite_inputs.S145x64 .f32) (a6 : FVec Ideal Cert.Pre_finite_inputs.S64 .f32)
    (a7 : FVec Ideal Cert.Pre_finite_inputs.S64x64 .f32) (a8 : FVec Ideal Cert.Pre_finite_inputs.S64 .f32)
    (a9 : FVec Ideal Cert.Pre_finite_inputs.S128x64 .f32) (a10 : FVec Ideal Cert.Pre_finite_inputs.S64 .f32)
    (a11 : FVec Ideal Cert.Pre_finite_inputs.S64x64 .f32) (a12 : FVec Ideal Cert.Pre_finite_inputs.S64 .f32)
    (a13 : FVec Ideal Cert.Pre_finite_inputs.S64x64 .f32) (a14 : FVec Ideal Cert.Pre_finite_inputs.S64 .f32)
    (a15 : FVec Ideal Cert.Pre_finite_inputs.S64x3 .f32) (a16 : FVec Ideal Cert.Pre_finite_inputs.S3 .f32)
    (h : Cert.Pre_finite_inputs.fn (F := Ideal) a0 a1 a2 a3 a4 a5 a6 a7 a8 a9 a10 a11 a12 a13 a14 a15 a16 = fun _ => 1#1) :
    ∀ j : Cert.Pre_finite_inputs.S2x800000.Idx, -50000 ≤ (a1 j).toInt ∧ (a1 j).toInt < 50000 := by
  intro j
  have e := congrFun h ix0
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5 at e
  -- the last conjunct of the conjunction: the `all` over the index array
  have e2 := (IntOp.andi_eq_one.1 e).2
  haveI : Subsingleton Cert.Pre_finite_inputs.S_.Idx := ⟨fun a b => funext fun d => d.elim0⟩
  -- at the entry `j`: both comparisons are 1
  obtain ⟨hge, hlt⟩ := IntOp.andi_eq_one.1 (Host.reduce_andi_all _ _ _ _ _ e2 j)
  have c1 : (4294917296#32 : BitVec 32).toInt = -50000 := by decide
  have c2 : (50000#32 : BitVec 32).toInt = 50000 := by decide
  change IntOp.cmpi .sge (a1 j) 4294917296#32 = 1#1 at hge
  change IntOp.cmpi .slt (a1 j) 50000#32 = 1#1 at hlt
  unfold IntOp.cmpi at hge hlt
  rw [ofBool_one] at hge hlt
  simp only [BitVec.sle, BitVec.slt, decide_eq_true_eq, c1, c2] at hge hlt
  exact ⟨hge, hlt⟩

end Cert.KernelIdeal.HostSide

end
-- ==== Proof.RefStages.lean ====
/-
  The reference's three dense stages, read index by index over the extended reals, are the layer's functions: the
  messages of the gathered rows, the coordinate updates, and the new node features. The reference joins four pieces
  [source row | destination row | squared distance | attributes] where the layer joins three, the last two as one
  17-wide array `a2`; and it multiplies and divides by the displacement and its length where the layer reads one
  4-wide array `a3`: both lemmas take any such array that has those columns.
-/
import proofs.«404083_j34591666602697_1_alg».proof.Proof.Gen.ReferenceIdeal.Read
import proofs.«404083_j34591666602697_1_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Stages

open Cert.ReferenceIdeal Cert.ReferenceIdeal.Gen Cert.ReferenceIdeal.Read Idealize.ShloMosaic Idealize.ShloMosaic.TcCoe Idealize.ShloMosaic.ValueIdx Idealize.SL.Sem

abbrev T64 := (⟨S50000x64, .f32⟩ : BufTy).Contents (Elt Ideal)
abbrev TI := (⟨S2x800000, .i32⟩ : BufTy).Contents (Elt Ideal)
abbrev T3 := (⟨S50000x3, .f32⟩ : BufTy).Contents (Elt Ideal)
abbrev TA := (⟨S800000x16, .f32⟩ : BufTy).Contents (Elt Ideal)

/-! ### Index bookkeeping: the generated index functions at an index given by its coordinates -/

private theorem lidx56 (e : Fin 800000) (k : Fin 64) (m : Fin 145) : lidx_main_v56 (ix2 e k) m = ix2 e m := by
  funext a; match a with | ⟨0, _⟩ => rfl | ⟨1, _⟩ => rfl
private theorem ridx56 (e : Fin 800000) (k : Fin 64) (m : Fin 145) : ridx_main_v56 (ix2 e k) m = ix2 m k := by
  funext a; match a with | ⟨0, _⟩ => rfl | ⟨1, _⟩ => rfl
private theorem idx58 (e : Fin 800000) (k : Fin 64) : idx_main_v58 (ix2 e k) = ix2 (0 : Fin 1) k := by
  funext a; match a with | ⟨0, _⟩ => rfl | ⟨1, _⟩ => rfl
private theorem lidx61 (e : Fin 800000) (j k : Fin 64) : lidx_main_v61 (ix2 e j) k = ix2 e k := by
  funext a; match a with | ⟨0, _⟩ => rfl | ⟨1, _⟩ => rfl
private theorem ridx61 (e : Fin 800000) (j k : Fin 64) : ridx_main_v61 (ix2 e j) k = ix2 k j := by
  funext a; match a with | ⟨0, _⟩ => rfl | ⟨1, _⟩ => rfl
private theorem idx63 (e : Fin 800000) (j : Fin 64) : idx_main_v63 (ix2 e j) = ix2 (0 : Fin 1) j := by
  funext a; match a with | ⟨0, _⟩ => rfl | ⟨1, _⟩ => rfl

/-- The four-piece row `[source | destination | squared distance | attributes]` at column `k` is the layer's
    three-piece row, whose last piece holds the squared distance and then the attributes. -/
private theorem v55_at (x0 : T64) (x1 : TI) (x2 : T3) (x4 : TA) (a2 : Layer.Mat 800000 17)
    (h0 : ∀ e : Fin 800000, a2 (ix2 e (0 : Fin 17)) = val_main_v21 (F := Ideal) x1 x2 (ix2 e (0 : Fin 1)))
    (h1 : ∀ (e : Fin 800000) (k : Fin 16), a2 (ix2 e ⟨k.val + 1, by omega⟩) = x4 (ix2 e k))
    (e : Fin 800000) (k : Fin 145) :
    val_main_v55 (F := Ideal) x0 x1 x2 x4 (ix2 e k)
      = Layer.feat (val_main_v47 (F := Ideal) x0 x1) (val_main_v54 (F := Ideal) x0 x1) a2 e k := by
  unfold val_main_v55 Layer.feat
  by_cases c1 : k.val < 64
  · rw [dif_pos c1]
    exact concatenate_apply_piece 1 _ _ (ix2 e k) 0 (by simp) S800000x64 (val_main_v47 (F := Ideal) x0 x1) rfl rfl 0 rfl
      (ix2 e ⟨k.val, c1⟩) (fun b => match b with | ⟨0, _⟩ => fun _ => rfl | ⟨1, _⟩ => fun hb => absurd rfl hb)
      (by show 0 + k.val = k.val; omega)
  · rw [dif_neg c1]
    by_cases c2 : k.val < 128
    · rw [dif_pos c2]
      exact concatenate_apply_piece 1 _ _ (ix2 e k) 1 (by simp) S800000x64 (val_main_v54 (F := Ideal) x0 x1) rfl rfl 64 rfl
        (ix2 e ⟨k.val - 64, by omega⟩) (fun b => match b with | ⟨0, _⟩ => fun _ => rfl | ⟨1, _⟩ => fun hb => absurd rfl hb)
        (by show 64 + (k.val - 64) = k.val; omega)
    · rw [dif_neg c2]
      by_cases c3 : k.val = 128
      · have ek : (⟨k.val - 128, by omega⟩ : Fin 17) = (0 : Fin 17) := Fin.ext (by show k.val - 128 = 0; omega)
        rw [ek, h0]
        exact concatenate_apply_piece 1 _ _ (ix2 e k) 2 (by simp) S800000x1 (val_main_v21 (F := Ideal) x1 x2) rfl rfl 128 rfl
          (ix2 e (0 : Fin 1)) (fun b => match b with | ⟨0, _⟩ => fun _ => rfl | ⟨1, _⟩ => fun hb => absurd rfl hb)
          (by show 128 + 0 = k.val; omega)
      · have hk := k.isLt
        have ek : (⟨k.val - 128, by omega⟩ : Fin 17) = ⟨(⟨k.val - 129, by omega⟩ : Fin 16).val + 1, by omega⟩ :=
          Fin.ext (by show k.val - 128 = k.val - 129 + 1; omega)
        rw [ek, h1]
        exact concatenate_apply_piece 1 _ _ (ix2 e k) 3 (by simp) S800000x16 x4 rfl rfl 129 rfl
          (ix2 e ⟨k.val - 129, by omega⟩) (fun b => match b with | ⟨0, _⟩ => fun _ => rfl | ⟨1, _⟩ => fun hb => absurd rfl hb)
          (by show 129 + (k.val - 129) = k.val; omega)

/-- The reference's messages. -/
theorem msgs (x0 : T64) (x1 : TI) (x2 : T3) (x4 : TA) (x5 : (⟨S145x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) (a2 : Layer.Mat 800000 17)
    (h0 : ∀ e : Fin 800000, a2 (ix2 e (0 : Fin 17)) = val_main_v21 (F := Ideal) x1 x2 (ix2 e (0 : Fin 1)))
    (h1 : ∀ (e : Fin 800000) (k : Fin 16), a2 (ix2 e ⟨k.val + 1, by omega⟩) = x4 (ix2 e k)) :
    val_main_v64 (F := Ideal) x0 x1 x2 x4 x5 x6 x7 x8
      = Layer.M0 (n := 800000) (val_main_v47 (F := Ideal) x0 x1) (val_main_v54 (F := Ideal) x0 x1) a2 x5
          (val_main_v57 (F := Ideal) x6) x7 (val_main_v62 (F := Ideal) x8) := by
  funext i
  obtain ⟨e, j, rfl⟩ : ∃ (e : Fin 800000) (j : Fin 64), i = ix2 e j := ⟨i 0, i 1, eq_ix2 i⟩
  rw [Layer.M0_ix2, val_main_v64_apply, val_main_v61_apply, val_main_v63_apply, idx63]
  unfold Layer.msg Layer.mlp
  rw [Layer.affine, Ideal.addf_def]
  congr 1
  refine Finset.sum_congr rfl fun k _ => ?_
  rw [lidx61, ridx61, val_main_v60_apply, val_main_v59_apply, val_main_v56_apply, val_main_v58_apply, idx58,
    val_main_call0_v0_apply, val_main_call0_cst_apply, Ideal.maximumf_def, Ideal.addf_def, Ideal.ofBits_def,
    Ideal.ofBits_zero_f32, Layer.affine]
  congr 3
  refine Finset.sum_congr rfl fun m _ => ?_
  rw [lidx56, ridx56, v55_at x0 x1 x2 x4 a2 h0 h1]

private theorem lidx86 (e : Fin 800000) (k m : Fin 64) : lidx_main_v86 (ix2 e k) m = ix2 e m := by
  funext a; match a with | ⟨0, _⟩ => rfl | ⟨1, _⟩ => rfl
private theorem ridx86 (e : Fin 800000) (k m : Fin 64) : ridx_main_v86 (ix2 e k) m = ix2 m k := by
  funext a; match a with | ⟨0, _⟩ => rfl | ⟨1, _⟩ => rfl
private theorem idx88 (e : Fin 800000) (k : Fin 64) : idx_main_v88 (ix2 e k) = ix2 (0 : Fin 1) k := by
  funext a; match a with | ⟨0, _⟩ => rfl | ⟨1, _⟩ => rfl
private theorem lidx91 (e : Fin 800000) (j : Fin 3) (k : Fin 64) : lidx_main_v91 (ix2 e j) k = ix2 e k := by
  funext a; match a with | ⟨0, _⟩ => rfl | ⟨1, _⟩ => rfl
private theorem ridx91 (e : Fin 800000) (j : Fin 3) (k : Fin 64) : ridx_main_v91 (ix2 e j) k = ix2 k j := by
  funext a; match a with | ⟨0, _⟩ => rfl | ⟨1, _⟩ => rfl
private theorem idx93 (e : Fin 800000) (j : Fin 3) : idx_main_v93 (ix2 e j) = ix2 (0 : Fin 1) j := by
  funext a; match a with | ⟨0, _⟩ => rfl | ⟨1, _⟩ => rfl
private theorem idx96 (e : Fin 800000) (j : Fin 3) : idx_main_v96 (ix2 e j) = ix2 e (0 : Fin 1) := by
  funext a; match a with | ⟨0, _⟩ => rfl | ⟨1, _⟩ => rfl

/-- The reference's coordinate updates. -/
theorem posUpds (x0 : T64) (x1 : TI) (x2 x3 : T3) (x4 : TA) (x5 : (⟨S145x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) (x13 : (⟨S64x64, .f32⟩ : BufTy).Contents (Elt Ideal))
    (x14 : (⟨S64, .f32⟩ : BufTy).Contents (Elt Ideal)) (x15 : (⟨S64x3, .f32⟩ : BufTy).Contents (Elt Ideal))
    (x16 : (⟨S3, .f32⟩ : BufTy).Contents (Elt Ideal)) (a2 : Layer.Mat 800000 17) (a3 : Layer.Mat 800000 4)
    (h0 : ∀ e : Fin 800000, a2 (ix2 e (0 : Fin 17)) = val_main_v21 (F := Ideal) x1 x2 (ix2 e (0 : Fin 1)))
    (h1 : ∀ (e : Fin 800000) (k : Fin 16), a2 (ix2 e ⟨k.val + 1, by omega⟩) = x4 (ix2 e k))
    (h2 : ∀ (e : Fin 800000) (j : Fin 3), a3 (ix2 e ⟨j.val, by omega⟩) = val_main_v36 (F := Ideal) x1 x3 (ix2 e j))
    (h3 : ∀ e : Fin 800000, a3 (ix2 e (3 : Fin 4)) = val_main_v40 (F := Ideal) x1 x3 (ix2 e (0 : Fin 1))) :
    val_main_v97 (F := Ideal) x0 x1 x2 x3 x4 x5 x6 x7 x8 x13 x14 x15 x16
      = Layer.P0 (n := 800000) (val_main_v47 (F := Ideal) x0 x1) (val_main_v54 (F := Ideal) x0 x1) a2 a3 x5
          (val_main_v57 (F := Ideal) x6) x7 (val_main_v62 (F := Ideal) x8) x13 (val_main_v87 (F := Ideal) x14) x15
          (val_main_v92 (F := Ideal) x16) := by
  funext i
  obtain ⟨e, j, rfl⟩ : ∃ (e : Fin 800000) (j : Fin 3), i = ix2 e j := ⟨i 0, i 1, eq_ix2 i⟩
  rw [Layer.P0_ix2, val_main_v97_apply, val_main_v96_apply, idx96, val_main_v95_apply, val_main_v94_apply,
    val_main_v91_apply, val_main_v93_apply, idx93, Ideal.hostDivf_def, Ideal.mulf_def, Ideal.addf_def]
  unfold Layer.posUpd Layer.coordW Layer.mlp
  rw [h2, h3, Layer.affine]
  congr 3
  refine Finset.sum_congr rfl fun k _ => ?_
  rw [lidx91, ridx91, val_main_v90_apply, val_main_v89_apply, val_main_v86_apply, val_main_v88_apply, idx88,
    val_main_call2_v0_apply, val_main_call2_cst_apply, Ideal.maximumf_def, Ideal.addf_def, Ideal.ofBits_def,
    Ideal.ofBits_zero_f32, Layer.affine]
  congr 3
  refine Finset.sum_congr rfl fun m _ => ?_
  rw [lidx86, ridx86, msgs x0 x1 x2 x4 x5 x6 x7 x8 a2 h0 h1, Layer.M0_ix2]

private theorem lidx77 (v : Fin 50000) (k : Fin 64) (m : Fin 128) : lidx_main_v77 (ix2 v k) m = ix2 v m := by
  funext a; match a with | ⟨0, _⟩ => rfl | ⟨1, _⟩ => rfl
private theorem ridx77 (v : Fin 50000) (k : Fin 64) (m : Fin 128) : ridx_main_v77 (ix2 v k) m = ix2 m k := by
  funext a; match a with | ⟨0, _⟩ => rfl | ⟨1, _⟩ => rfl
private theorem idx79 (v : Fin 50000) (k : Fin 64) : idx_main_v79 (ix2 v k) = ix2 (0 : Fin 1) k := by
  funext a; match a with | ⟨0, _⟩ => rfl | ⟨1, _⟩ => rfl
private theorem lidx82 (v : Fin 50000) (j k : Fin 64) : lidx_main_v82 (ix2 v j) k = ix2 v k := by
  funext a; match a with | ⟨0, _⟩ => rfl | ⟨1, _⟩ => rfl
private theorem ridx82 (v : Fin 50000) (j k : Fin 64) : ridx_main_v82 (ix2 v j) k = ix2 k j := by
  funext a; match a with | ⟨0, _⟩ => rfl | ⟨1, _⟩ => rfl
private theorem idx84 (v : Fin 50000) (j : Fin 64) : idx_main_v84 (ix2 v j) = ix2 (0 : Fin 1) j := by
  funext a; match a with | ⟨0, _⟩ => rfl | ⟨1, _⟩ => rfl

/-- The two-piece row `[features | aggregated message]` at column `k` is the layer's pair. -/
private theorem v76_at (x0 : T64) (x1 : TI) (x2 : T3) (x4 : TA) (x5 : (⟨S145x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) (v : Fin 50000) (k : Fin 128) :
    val_main_v76 (F := Ideal) x0 x1 x2 x4 x5 x6 x7 x8 (ix2 v k)
      = Layer.pair x0 (val_main_v75 (F := Ideal) x0 x1 x2 x4 x5 x6 x7 x8) v k := by
  unfold val_main_v76 Layer.pair
  by_cases c : k.val < 64
  · rw [dif_pos c]
    exact concatenate_pair_apply_left (s₁ := S50000x64) (s₂ := S50000x64) 1 x0
      (val_main_v75 (F := Ideal) x0 x1 x2 x4 x5 x6 x7 x8) _ (ix2 v k) rfl (ix2 v ⟨k.val, c⟩)
      (fun b => match b with | ⟨0, _⟩ => rfl | ⟨1, _⟩ => rfl)
  · rw [dif_neg c]
    exact concatenate_pair_apply_right (s₁ := S50000x64) (s₂ := S50000x64) 1 x0
      (val_main_v75 (F := Ideal) x0 x1 x2 x4 x5 x6 x7 x8) _ (ix2 v k) rfl rfl (ix2 v ⟨k.val - 64, by omega⟩)
      (fun b => match b with | ⟨0, _⟩ => fun _ => rfl | ⟨1, _⟩ => fun hb => absurd rfl hb)
      (by show k.val - 64 + 64 = k.val; omega)

/-- The reference's new node features. -/
theorem nodes (x0 : T64) (x1 : TI) (x2 : T3) (x4 : TA) (x5 : (⟨S145x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) (x9 : (⟨S128x64, .f32⟩ : BufTy).Contents (Elt Ideal))
    (x10 : (⟨S64, .f32⟩ : BufTy).Contents (Elt Ideal)) (x11 : (⟨S64x64, .f32⟩ : BufTy).Contents (Elt Ideal))
    (x12 : (⟨S64, .f32⟩ : BufTy).Contents (Elt Ideal)) :
    val_main_v85 (F := Ideal) x0 x1 x2 x4 x5 x6 x7 x8 x9 x10 x11 x12
      = Layer.H1 (n := 50000) x0 (val_main_v75 (F := Ideal) x0 x1 x2 x4 x5 x6 x7 x8) x9 (val_main_v78 (F := Ideal) x10) x11
          (val_main_v83 (F := Ideal) x12) := by
  funext i
  obtain ⟨v, j, rfl⟩ : ∃ (v : Fin 50000) (j : Fin 64), i = ix2 v j := ⟨i 0, i 1, eq_ix2 i⟩
  rw [Layer.H1_ix2, val_main_v85_apply, val_main_v82_apply, val_main_v84_apply, idx84]
  unfold Layer.node Layer.mlp
  rw [Layer.affine, Ideal.addf_def]
  congr 1
  refine Finset.sum_congr rfl fun k _ => ?_
  rw [lidx82, ridx82, val_main_v81_apply, val_main_v80_apply, val_main_v77_apply, val_main_v79_apply, idx79,
    val_main_call1_v0_apply, val_main_call1_cst_apply, Ideal.maximumf_def, Ideal.addf_def, Ideal.ofBits_def,
    Ideal.ofBits_zero_f32, Layer.affine]
  congr 3
  refine Finset.sum_congr rfl fun m _ => ?_
  rw [lidx77, ridx77, v76_at]

end Cert.ReferenceIdeal.Stages

end
-- ==== Proof.Bridge.lean ====
/-
  The reference's two results are `out0` and `out1` of the argument arrays, where every edge-list entry is in
  `[−50000, 50000)`.

  In that range the fill-mode take is the gather at the wrapped index, which is how the reference reads its rows; so
  the reference's gathered rows, squared distances, displacements and lengths are the kernel program's host-side terms.
  A bias vector as a one-row matrix is the same array whether made by a reshape or by a broadcast. The reference's
  per-node mean and sum are the same segment operations. With these the reference's three dense stages, which are the
  layer's functions, are `out0` and `out1`.
-/
import proofs.«404083_j34591666602697_1_alg».proof.Proof.Take
import proofs.«404083_j34591666602697_1_alg».proof.Proof.RefStages
import proofs.«404083_j34591666602697_1_alg».proof.Proof.LayerOut

noncomputable section

namespace Cert.Bridge

open Idealize.ShloMosaic Idealize.ShloMosaic.ValueIdx Idealize.SL.Sem
open Cert.KernelIdeal.HostSide Cert.ReferenceIdeal.Read

abbrev K64 := FVec Ideal Cert.KernelIdeal.S50000x64 .f32
abbrev KI := IVec Cert.KernelIdeal.S2x800000 32
abbrev K3 := FVec Ideal Cert.KernelIdeal.S50000x3 .f32
abbrev KA := FVec Ideal Cert.KernelIdeal.S800000x16 .f32
abbrev KV64 := FVec Ideal Cert.KernelIdeal.S64 .f32
abbrev KV3 := FVec Ideal Cert.KernelIdeal.S3 .f32

/-- The edge list's entries are all in `[−50000, 50000)`. -/
def InRange (x1 : KI) : Prop := ∀ j : Cert.KernelIdeal.S2x800000.Idx, -50000 ≤ (x1 j).toInt ∧ (x1 j).toInt < 50000

/-! ## Gathers -/

theorem xs_eq (x0 : K64) (x1 : KI) (h : InRange x1) : val_main_v47 (F := Ideal) x0 x1 = take64 x0 (srcIx x1) := by
  rw [take64_eq_gather x0 (srcIx x1) (srcIx_range x1 h)]
  rfl

theorem xd_eq (x0 : K64) (x1 : KI) (h : InRange x1) : val_main_v54 (F := Ideal) x0 x1 = take64 x0 (dstIx x1) := by
  rw [take64_eq_gather x0 (dstIx x1) (dstIx_range x1 h)]
  rfl

/-- The displacement between the two ends of every edge. -/
theorem disp_pos_eq (x1 : KI) (x2 : K3) (h : InRange x1) : val_main_v18 (F := Ideal) x1 x2 = disp x2 x1 := by
  unfold disp
  rw [take3_eq_gather x2 (srcIx x1) (srcIx_range x1 h), take3_eq_gather x2 (dstIx x1) (dstIx_range x1 h)]
  rfl

theorem disp_init_eq (x1 : KI) (x3 : K3) (h : InRange x1) : val_main_v36 (F := Ideal) x1 x3 = disp x3 x1 := by
  unfold disp
  rw [take3_eq_gather x3 (srcIx x1) (srcIx_range x1 h), take3_eq_gather x3 (dstIx x1) (dstIx_range x1 h)]
  rfl

theorem sqdist_eq (x1 : KI) (x2 : K3) (h : InRange x1) : val_main_v21 (F := Ideal) x1 x2 = sqLen (disp x2 x1) := by
  rw [← disp_pos_eq x1 x2 h]
  rfl

theorem len_init_eq (x1 : KI) (x3 : K3) (h : InRange x1) : val_main_v40 (F := Ideal) x1 x3 = Host.sqrt (sqLen (disp x3 x1)) := by
  rw [← disp_init_eq x1 x3 h]
  rfl

/-! ## The two side inputs, column by column -/

theorem msgExtra_col0 (x2 : K3) (x4 : KA) (x1 : KI) (e : Fin 800000) :
    msgExtra x2 x4 x1 (ix2 e (0 : Fin 17)) = sqLen (disp x2 x1) (ix2 e (0 : Fin 1)) := by
  unfold msgExtra
  exact concatenate_pair_apply_left (t := Cert.KernelIdeal.S800000x17) (s₁ := Cert.KernelIdeal.S800000x1) (s₂ := Cert.KernelIdeal.S800000x16) _ _ _ _ (ix2 e (0 : Fin 17)) rfl (ix2 e (0 : Fin 1))
    (fun b => by match b with | ⟨0, _⟩ => rfl | ⟨1, _⟩ => rfl)

theorem msgExtra_col (x2 : K3) (x4 : KA) (x1 : KI) (e : Fin 800000) (k : Fin 16) :
    msgExtra x2 x4 x1 (ix2 e (⟨k.val + 1, by omega⟩ : Fin 17)) = x4 (ix2 e k) := by
  unfold msgExtra
  exact concatenate_pair_apply_right (t := Cert.KernelIdeal.S800000x17) (s₁ := Cert.KernelIdeal.S800000x1) (s₂ := Cert.KernelIdeal.S800000x16) _ _ _ _ (ix2 e (⟨k.val + 1, by omega⟩ : Fin 17)) rfl rfl (ix2 e k)
    (fun b hb => by match b with | ⟨0, _⟩ => rfl | ⟨1, _⟩ => exact absurd rfl hb) rfl

theorem posExtra_col (x3 : K3) (x1 : KI) (e : Fin 800000) (j : Fin 3) :
    posExtra x3 x1 (ix2 e (⟨j.val, by omega⟩ : Fin 4)) = disp x3 x1 (ix2 e j) := by
  unfold posExtra
  exact concatenate_pair_apply_left (t := Cert.KernelIdeal.S800000x4) (s₁ := Cert.KernelIdeal.S800000x3) (s₂ := Cert.KernelIdeal.S800000x1) _ _ _ _ (ix2 e (⟨j.val, by omega⟩ : Fin 4)) rfl (ix2 e j)
    (fun b => by match b with | ⟨0, _⟩ => rfl | ⟨1, _⟩ => rfl)

theorem posExtra_col3 (x3 : K3) (x1 : KI) (e : Fin 800000) :
    posExtra x3 x1 (ix2 e (3 : Fin 4)) = Host.sqrt (sqLen (disp x3 x1)) (ix2 e (0 : Fin 1)) := by
  unfold posExtra
  exact concatenate_pair_apply_right (t := Cert.KernelIdeal.S800000x4) (s₁ := Cert.KernelIdeal.S800000x3) (s₂ := Cert.KernelIdeal.S800000x1) _ _ _ _ (ix2 e (3 : Fin 4)) rfl rfl (ix2 e (0 : Fin 1))
    (fun b hb => by match b with | ⟨0, _⟩ => rfl | ⟨1, _⟩ => exact absurd rfl hb) rfl

/-! ## A bias vector as a one-row matrix -/

theorem rowBias64_eq (x : KV64) : rowBias64 x = val_main_v57 (F := Ideal) x := by
  funext i
  rw [val_main_v57_apply]
  unfold rowBias64
  refine shapeCast_apply x _ i (idx_main_v57 i) ?_
  rewrite [Shape.rowMajor_val_one, Shape.rowMajor_val_two]
  have h0 : (i 0).val < 1 := (i 0).isLt
  show (i 1).val = (i 0).val * 64 + (i 1).val
  omega

theorem rowBias3_eq (x : KV3) : rowBias3 x = val_main_v92 (F := Ideal) x := by
  funext i
  rw [val_main_v92_apply]
  unfold rowBias3
  refine shapeCast_apply x _ i (idx_main_v92 i) ?_
  rewrite [Shape.rowMajor_val_one, Shape.rowMajor_val_two]
  have h0 : (i 0).val < 1 := (i 0).isLt
  show (i 1).val = (i 0).val * 3 + (i 1).val
  omega

/-! ## The two results -/

theorem ref_msgs (x0 : K64) (x1 : KI) (x2 : K3) (x4 : KA) (x5 : FVec Ideal Cert.KernelIdeal.S145x64 .f32) (x6 : KV64)
    (x7 : FVec Ideal Cert.KernelIdeal.S64x64 .f32) (x8 : KV64) (h : InRange x1) :
    val_main_v64 (F := Ideal) x0 x1 x2 x4 x5 x6 x7 x8 = msgsOf x0 x1 x2 x4 x5 x6 x7 x8 := by
  rw [Cert.ReferenceIdeal.Stages.msgs x0 x1 x2 x4 x5 x6 x7 x8 (msgExtra x2 x4 x1)
    (fun e => (msgExtra_col0 x2 x4 x1 e).trans (congrFun (sqdist_eq x1 x2 h).symm _))
    (fun e k => msgExtra_col x2 x4 x1 e k), xs_eq x0 x1 h, xd_eq x0 x1 h]
  unfold msgsOf
  rw [rowBias64_eq x6, rowBias64_eq x8]
  rfl

theorem ref_out0 (x0 : K64) (x1 : KI) (x2 : K3) (x4 : KA) (x5 : FVec Ideal Cert.KernelIdeal.S145x64 .f32) (x6 : KV64)
    (x7 : FVec Ideal Cert.KernelIdeal.S64x64 .f32) (x8 : KV64) (x9 : FVec Ideal Cert.KernelIdeal.S128x64 .f32) (x10 : KV64)
    (x11 : FVec Ideal Cert.KernelIdeal.S64x64 .f32) (x12 : KV64) (h : InRange x1) :
    val_main_v85 (F := Ideal) x0 x1 x2 x4 x5 x6 x7 x8 x9 x10 x11 x12 = out0 x0 x1 x2 x4 x5 x6 x7 x8 x9 x10 x11 x12 := by
  rw [Cert.ReferenceIdeal.Stages.nodes]
  have hmi : val_main_v75 (F := Ideal) x0 x1 x2 x4 x5 x6 x7 x8 = segMean (dstIx x1) (msgsOf x0 x1 x2 x4 x5 x6 x7 x8) := by
    rw [← ref_msgs x0 x1 x2 x4 x5 x6 x7 x8 h]
    rfl
  unfold out0
  rw [hmi, rowBias64_eq x10, rowBias64_eq x12]
  rfl

theorem ref_out1 (x0 : K64) (x1 : KI) (x2 x3 : K3) (x4 : KA) (x5 : FVec Ideal Cert.KernelIdeal.S145x64 .f32) (x6 : KV64)
    (x7 : FVec Ideal Cert.KernelIdeal.S64x64 .f32) (x8 : KV64) (x13 : FVec Ideal Cert.KernelIdeal.S64x64 .f32) (x14 : KV64)
    (x15 : FVec Ideal Cert.KernelIdeal.S64x3 .f32) (x16 : KV3) (h : InRange x1) :
    val_main_v100 (F := Ideal) x0 x1 x2 x3 x4 x5 x6 x7 x8 x13 x14 x15 x16 = out1 x0 x1 x2 x3 x4 x5 x6 x7 x8 x13 x14 x15 x16 := by
  have hp : val_main_v97 (F := Ideal) x0 x1 x2 x3 x4 x5 x6 x7 x8 x13 x14 x15 x16
      = Layer.P0 (n := 800000) (take64 x0 (srcIx x1)) (take64 x0 (dstIx x1)) (msgExtra x2 x4 x1) (posExtra x3 x1) x5 (rowBias64 x6) x7
          (rowBias64 x8) x13 (rowBias64 x14) x15 (rowBias3 x16) := by
    rw [Cert.ReferenceIdeal.Stages.posUpds x0 x1 x2 x3 x4 x5 x6 x7 x8 x13 x14 x15 x16 (msgExtra x2 x4 x1) (posExtra x3 x1)
      (fun e => (msgExtra_col0 x2 x4 x1 e).trans (congrFun (sqdist_eq x1 x2 h).symm _))
      (fun e k => msgExtra_col x2 x4 x1 e k)
      (fun e j => (posExtra_col x3 x1 e j).trans (congrFun (disp_init_eq x1 x3 h).symm _))
      (fun e => (posExtra_col3 x3 x1 e).trans (congrFun (len_init_eq x1 x3 h).symm _)),
      xs_eq x0 x1 h, xd_eq x0 x1 h, rowBias64_eq x6, rowBias64_eq x8, rowBias64_eq x14, rowBias3_eq x16]
    rfl
  unfold out1
  rw [← hp]
  rfl

end Cert.Bridge

end
-- ==== Proof.lean ====
/-
  The kernel program and its reference compute one message-passing layer: per edge a message and a coordinate
  update from the two end nodes' features and positions (two small dense networks with a `max(·, 0)` between their
  layers), per node the mean of the incoming messages through a third dense network, and the sum of the incoming
  coordinate updates.

  Over the extended reals the two programs are the same function of their arguments wherever every entry of the edge
  list is an index of the node table (`−50000 ≤ i < 50000`, a negative index counting from the end): there the kernel
  program's fill-mode row lookups are the reference's plain ones; the edge stage run block by block over 3200 edges, and
  the node stage over 5000 nodes, leave exactly the arrays the reference's whole-array matrix products give, because a
  row of every dense layer reads one row of its input; a matrix product into a zero accumulator is the host's product,
  a change of float format is the identity, and the per-node sums are the same operation on the same operands. No
  law of the extended reals beyond this re-reading is used, so the finiteness of the float inputs is never opened.
  The three frame claims are the generated frames (the reference's is its run with the results dropped); the ideal
  pass rewrote nothing, so `preserves` has nothing to state.
-/
import proofs.«404083_j34591666602697_1_alg».proof.Defs
import proofs.«404083_j34591666602697_1_alg».proof.Proof.Gen.Kernel
import proofs.«404083_j34591666602697_1_alg».proof.Proof.Gen.Kernel.Skeleton
import proofs.«404083_j34591666602697_1_alg».proof.Proof.Gen.Kernel.Launch
import proofs.«404083_j34591666602697_1_alg».proof.Proof.Gen.Kernel.Points
import proofs.«404083_j34591666602697_1_alg».proof.Proof.Gen.Kernel.Frame
import proofs.«404083_j34591666602697_1_alg».proof.Proof.Gen.KernelIdeal
import proofs.«404083_j34591666602697_1_alg».proof.Proof.Gen.KernelIdeal.Skeleton
import proofs.«404083_j34591666602697_1_alg».proof.Proof.Gen.KernelIdeal.Launch
import proofs.«404083_j34591666602697_1_alg».proof.Proof.Gen.KernelIdeal.Points
import proofs.«404083_j34591666602697_1_alg».proof.Proof.Gen.KernelIdeal.Frame
import proofs.«404083_j34591666602697_1_alg».proof.Proof.Gen.ReferenceIdeal
import proofs.«404083_j34591666602697_1_alg».proof.Proof.Gen.ReferenceIdeal.Run
import proofs.«404083_j34591666602697_1_alg».proof.Proof.Gen.ReferenceIdeal.Read
import proofs.«404083_j34591666602697_1_alg».proof.Proof.Gen.Pre_finite_inputs
import proofs.«404083_j34591666602697_1_alg».proof.Proof.KernelValue
import proofs.«404083_j34591666602697_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the results at `out0` and `out1` of the (agreeing) arguments. -/
theorem algebraic : Cert.algebraic_KernelIdeal_ReferenceIdeal := by
  intro m ρ m' ρ' hpre hagree
  have hr : ∀ c : Dev Cert.KernelIdeal.nD,
      Cert.Bridge.InRange (m ((c.tc : Thread Cert.KernelIdeal.nD Cert.KernelIdeal.τ).loc Cert.KernelIdeal.main_arg1)) :=
    fun c => Cert.KernelIdeal.HostSide.index_range_of_pre _ _ _ _ _ _ _ _ _ _ _ _ _ _ _ _ _ (hpre c)
  refine ⟨_, _, Cert.KernelIdeal.Result.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [Cert.ReferenceIdeal.Read.val_main_v85_eq, (hagree c).1, (hagree c).2.1, (hagree c).2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1]
    exact Cert.Bridge.ref_out0 _ _ _ _ _ _ _ _ _ _ _ _ (hr c)
  · rw [Cert.ReferenceIdeal.Read.val_main_v100_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
    exact Cert.Bridge.ref_out1 _ _ _ _ _ _ _ _ _ _ _ _ _ (hr c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
